-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S512x256 : Shape := ⟨2, ![512, 256]⟩
abbrev S1x256 : Shape := ⟨2, ![1, 256]⟩
abbrev S16x256 : Shape := ⟨2, ![16, 256]⟩
abbrev S15 : Shape := ⟨1, ![15]⟩
abbrev S_ : Shape := ⟨0, ![]⟩
abbrev S256 : Shape := ⟨1, ![256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S16x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v68 : Index := Scalar.indexCast v2
  let c0_61 : Index := 0#32
  ![v68.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_69 : BitVec 32 := 0#32
  ![v2.toNat, 0]
def k0_dev16 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_63 : BitVec 32 := 1#32
  let v72 : BitVec 32 := Scalar.addi v2 c1_i32_63
  let c16_i32_64 : BitVec 32 := 16#32
  let v73 : BitVec 32 := Scalar.remsi v72 c16_i32_64
  let c1_i32_67 : BitVec 32 := 1#32
  let v74 : BitVec 32 := Scalar.muli v73 c1_i32_67
  let v75 : BitVec 32 := Scalar.addi c0_i32_68 v74
  v75.toNat
def k0_dev17 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_71 : BitVec 32 := 2#32
  let v82 : BitVec 32 := Scalar.addi v2 c2_i32_71
  let c16_i32_72 : BitVec 32 := 16#32
  let v83 : BitVec 32 := Scalar.remsi v82 c16_i32_72
  let c1_i32_75 : BitVec 32 := 1#32
  let v84 : BitVec 32 := Scalar.muli v83 c1_i32_75
  let v85 : BitVec 32 := Scalar.addi c0_i32_76 v84
  v85.toNat
def k0_dev18 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v92 : BitVec 32 := Scalar.addi v2 c3_i32_79
  let c16_i32_80 : BitVec 32 := 16#32
  let v93 : BitVec 32 := Scalar.remsi v92 c16_i32_80
  let c1_i32_83 : BitVec 32 := 1#32
  let v94 : BitVec 32 := Scalar.muli v93 c1_i32_83
  let v95 : BitVec 32 := Scalar.addi c0_i32_84 v94
  v95.toNat
def k0_dev19 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_87 : BitVec 32 := 4#32
  let v102 : BitVec 32 := Scalar.addi v2 c4_i32_87
  let c16_i32_88 : BitVec 32 := 16#32
  let v103 : BitVec 32 := Scalar.remsi v102 c16_i32_88
  let c1_i32_91 : BitVec 32 := 1#32
  let v104 : BitVec 32 := Scalar.muli v103 c1_i32_91
  let v105 : BitVec 32 := Scalar.addi c0_i32_92 v104
  v105.toNat
def k0_dev20 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_95 : BitVec 32 := 5#32
  let v112 : BitVec 32 := Scalar.addi v2 c5_i32_95
  let c16_i32_96 : BitVec 32 := 16#32
  let v113 : BitVec 32 := Scalar.remsi v112 c16_i32_96
  let c1_i32_99 : BitVec 32 := 1#32
  let v114 : BitVec 32 := Scalar.muli v113 c1_i32_99
  let v115 : BitVec 32 := Scalar.addi c0_i32_100 v114
  v115.toNat
def k0_dev21 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_103 : BitVec 32 := 6#32
  let v122 : BitVec 32 := Scalar.addi v2 c6_i32_103
  let c16_i32_104 : BitVec 32 := 16#32
  let v123 : BitVec 32 := Scalar.remsi v122 c16_i32_104
  let c1_i32_107 : BitVec 32 := 1#32
  let v124 : BitVec 32 := Scalar.muli v123 c1_i32_107
  let v125 : BitVec 32 := Scalar.addi c0_i32_108 v124
  v125.toNat
def k0_dev22 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_111 : BitVec 32 := 7#32
  let v132 : BitVec 32 := Scalar.addi v2 c7_i32_111
  let c16_i32_112 : BitVec 32 := 16#32
  let v133 : BitVec 32 := Scalar.remsi v132 c16_i32_112
  let c1_i32_115 : BitVec 32 := 1#32
  let v134 : BitVec 32 := Scalar.muli v133 c1_i32_115
  let v135 : BitVec 32 := Scalar.addi c0_i32_116 v134
  v135.toNat
def k0_dev23 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_119 : BitVec 32 := 8#32
  let v142 : BitVec 32 := Scalar.addi v2 c8_i32_119
  let c16_i32_120 : BitVec 32 := 16#32
  let v143 : BitVec 32 := Scalar.remsi v142 c16_i32_120
  let c1_i32_123 : BitVec 32 := 1#32
  let v144 : BitVec 32 := Scalar.muli v143 c1_i32_123
  let v145 : BitVec 32 := Scalar.addi c0_i32_124 v144
  v145.toNat
def k0_dev24 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_127 : BitVec 32 := 9#32
  let v152 : BitVec 32 := Scalar.addi v2 c9_i32_127
  let c16_i32_128 : BitVec 32 := 16#32
  let v153 : BitVec 32 := Scalar.remsi v152 c16_i32_128
  let c1_i32_131 : BitVec 32 := 1#32
  let v154 : BitVec 32 := Scalar.muli v153 c1_i32_131
  let v155 : BitVec 32 := Scalar.addi c0_i32_132 v154
  v155.toNat
def k0_dev25 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_135 : BitVec 32 := 10#32
  let v162 : BitVec 32 := Scalar.addi v2 c10_i32_135
  let c16_i32_136 : BitVec 32 := 16#32
  let v163 : BitVec 32 := Scalar.remsi v162 c16_i32_136
  let c1_i32_139 : BitVec 32 := 1#32
  let v164 : BitVec 32 := Scalar.muli v163 c1_i32_139
  let v165 : BitVec 32 := Scalar.addi c0_i32_140 v164
  v165.toNat
def k0_dev26 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_143 : BitVec 32 := 11#32
  let v172 : BitVec 32 := Scalar.addi v2 c11_i32_143
  let c16_i32_144 : BitVec 32 := 16#32
  let v173 : BitVec 32 := Scalar.remsi v172 c16_i32_144
  let c1_i32_147 : BitVec 32 := 1#32
  let v174 : BitVec 32 := Scalar.muli v173 c1_i32_147
  let v175 : BitVec 32 := Scalar.addi c0_i32_148 v174
  v175.toNat
def k0_dev27 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_151 : BitVec 32 := 12#32
  let v182 : BitVec 32 := Scalar.addi v2 c12_i32_151
  let c16_i32_152 : BitVec 32 := 16#32
  let v183 : BitVec 32 := Scalar.remsi v182 c16_i32_152
  let c1_i32_155 : BitVec 32 := 1#32
  let v184 : BitVec 32 := Scalar.muli v183 c1_i32_155
  let v185 : BitVec 32 := Scalar.addi c0_i32_156 v184
  v185.toNat
def k0_dev28 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_159 : BitVec 32 := 13#32
  let v192 : BitVec 32 := Scalar.addi v2 c13_i32_159
  let c16_i32_160 : BitVec 32 := 16#32
  let v193 : BitVec 32 := Scalar.remsi v192 c16_i32_160
  let c1_i32_163 : BitVec 32 := 1#32
  let v194 : BitVec 32 := Scalar.muli v193 c1_i32_163
  let v195 : BitVec 32 := Scalar.addi c0_i32_164 v194
  v195.toNat
def k0_dev29 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_167 : BitVec 32 := 14#32
  let v202 : BitVec 32 := Scalar.addi v2 c14_i32_167
  let c16_i32_168 : BitVec 32 := 16#32
  let v203 : BitVec 32 := Scalar.remsi v202 c16_i32_168
  let c1_i32_171 : BitVec 32 := 1#32
  let v204 : BitVec 32 := Scalar.muli v203 c1_i32_171
  let v205 : BitVec 32 := Scalar.addi c0_i32_172 v204
  v205.toNat
def k0_dev30 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_175 : BitVec 32 := 15#32
  let v212 : BitVec 32 := Scalar.addi v2 c15_i32_175
  let c16_i32_176 : BitVec 32 := 16#32
  let v213 : BitVec 32 := Scalar.remsi v212 c16_i32_176
  let c1_i32_179 : BitVec 32 := 1#32
  let v214 : BitVec 32 := Scalar.muli v213 c1_i32_179
  let v215 : BitVec 32 := Scalar.addi c0_i32_180 v214
  v215.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  h_S1x256 : 0 < S1x256.numel
  shapeCasts_S1x256_S1x256 : S1x256.ShapeCasts S1x256
  hamt_15 : (15#32 : BitVec 32).msb = false
  inb_S15_S1_0 : ∀ a, (![0] : Fin 1 → Nat) a + S1.size a ≤ S15.size a
  squeezes_S1_S_ : S1.Squeezes S_
  inb_S15_S1_1 : ∀ a, (![1] : Fin 1 → Nat) a + S1.size a ≤ S15.size a
  inb_S15_S1_2 : ∀ a, (![2] : Fin 1 → Nat) a + S1.size a ≤ S15.size a
  inb_S15_S1_3 : ∀ a, (![3] : Fin 1 → Nat) a + S1.size a ≤ S15.size a
  inb_S15_S1_4 : ∀ a, (![4] : Fin 1 → Nat) a + S1.size a ≤ S15.size a
  inb_S15_S1_5 : ∀ a, (![5] : Fin 1 → Nat) a + S1.size a ≤ S15.size a
  inb_S15_S1_6 : ∀ a, (![6] : Fin 1 → Nat) a + S1.size a ≤ S15.size a
  inb_S15_S1_7 : ∀ a, (![7] : Fin 1 → Nat) a + S1.size a ≤ S15.size a
  inb_S15_S1_8 : ∀ a, (![8] : Fin 1 → Nat) a + S1.size a ≤ S15.size a
  inb_S15_S1_9 : ∀ a, (![9] : Fin 1 → Nat) a + S1.size a ≤ S15.size a
  inb_S15_S1_10 : ∀ a, (![10] : Fin 1 → Nat) a + S1.size a ≤ S15.size a
  inb_S15_S1_11 : ∀ a, (![11] : Fin 1 → Nat) a + S1.size a ≤ S15.size a
  inb_S15_S1_12 : ∀ a, (![12] : Fin 1 → Nat) a + S1.size a ≤ S15.size a
  inb_S15_S1_13 : ∀ a, (![13] : Fin 1 → Nat) a + S1.size a ≤ S15.size a
  inb_S15_S1_14 : ∀ a, (![14] : Fin 1 → Nat) a + S1.size a ≤ S15.size a
  inb_S16x256_S16x256_0_0 : ∀ a, (![0, 0] : Fin 2 → Nat) a + S16x256.size a ≤ S16x256.size a
  h_S16x256 : 0 < S16x256.numel
  reduces_S16x256_S256 : S16x256.Reduces [0] S256
  inb_S1x256_S1x256_0_0 : ∀ a, (![0, 0] : Fin 2 → Nat) a + S1x256.size a ≤ S1x256.size a
  hcc0_scratch1 : 2 + S15.numel ≤ 32
  hcc0_scratch2 : 17 + S15.numel ≤ 32
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1x256.size a ≤ S16x256.size a
  k0_off2_inb : ∀ d0 : Dev nD, ∀ a, (k0_off2 d0) a + S1x256.size a ≤ S16x256.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole

variable [Facts₀]

abbrev cc0_scratch1 : DmaSems sig S15 := SemArray.consecutive 2 S15 hcc0_scratch1
abbrev cc0_scratch2 : DmaSems sig S15 := SemArray.consecutive 17 S15 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S_, .f32⟩
  | .hbm, ⟨2, _⟩ => ⟨S256, .f32⟩
  | .hbm, ⟨3, _⟩ => ⟨S1x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S8192x256_S256_d0 : S8192x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.Spec.lean ====
import proofs.«900607_g7700000000000608_dist_sum_ax0_shard0_i_m512_n256_v7x_i16_bf16_1_alg».proof.Proof.Gen.KernelIdeal.Skeleton
import Idealize.ShloMosaic.Lib.ValueIdx

/-!
The all-gather's values, as pure terms.

Each of the sixteen devices holds a 512×256 block of `x`. A device first reduces its block along the rows to one row of
256 partial sums; the sixteen rows are gathered, row `j` from device `j`, into a 16×256 table on every device; the
result is the table reduced along its rows. So every device ends with the column sums of all 8192 rows.
-/

noncomputable section

namespace Cert.KernelIdeal.Spec

open Idealize.ShloMosaic Cert.KernelIdeal Cert.KernelIdeal.Gen

variable {F : FTy → Type} [FloatOps F]

/-- Device `j`'s row of partial sums: its block reduced along the rows. -/
def partialRow (x : Vec F S512x256 .f32) : FVec F S1x256 .f32 := k0_pay1 x

/-- The gathered table: row `j` is device `j`'s row of partial sums. -/
def gathered (xs : Dev nD → Vec F S512x256 .f32) : Vec F S16x256 .f32 :=
  fun i => partialRow (xs ⟨(i 0).val, (i 0).isLt⟩) (ValueIdx.ix2 (⟨0, Nat.one_pos⟩ : Fin 1) (⟨(i 1).val, (i 1).isLt⟩ : Fin 256))

/-- What every device ends with: the gathered table reduced along its rows. -/
def result (xs : Dev nD → Vec F S512x256 .f32) : FVec F S1x256 .f32 := k0_pay2 (gathered xs)

end Cert.KernelIdeal.Spec

end
-- ==== Proof.KernelIdeal.Sched.lean ====
import proofs.«900607_g7700000000000608_dist_sum_ax0_shard0_i_m512_n256_v7x_i16_bf16_1_alg».proof.Proof.Spec
import proofs.«900607_g7700000000000608_dist_sum_ax0_shard0_i_m512_n256_v7x_i16_bf16_1_alg».proof.Proof.Gen.KernelIdeal
import proofs.«900607_g7700000000000608_dist_sum_ax0_shard0_i_m512_n256_v7x_i16_bf16_1_alg».proof.Proof.Gen.KernelIdeal.Skeleton
import proofs.«900607_g7700000000000608_dist_sum_ax0_shard0_i_m512_n256_v7x_i16_bf16_1_alg».proof.Proof.Gen.KernelIdeal.Launch
import proofs.«900607_g7700000000000608_dist_sum_ax0_shard0_i_m512_n256_v7x_i16_bf16_1_alg».proof.Proof.Gen.KernelIdeal.Points
import Idealize.ShloMosaic.Lib.Pipeline.Launch
import Idealize.ShloMosaic.Lib.Pipeline.Kit
import Idealize.ShloMosaic.Lib.Tactic

/-!
The all-gather's protocol.

Sixteen devices. Device `c` and offset `h` (fifteen of them, standing for the distances 1 … 15 round the mesh) name the
device `peer c h` that `c` signals and sends to, and `from c h`, the one that signals and sends to `c` at that offset.

On every device: a barrier semaphore, fifteen send semaphores and fifteen receive semaphores. A device's barrier has
one unit duty per offset; the duty at offset `h` is paid by `from c h`, and hands `c` row `c` of THAT device's table —
the row `c` will write there. Send semaphore `h` has one duty, paid when the transfer to `peer c h` has read its source:
it gives back the share of `c`'s own row that the transfer borrowed. Receive semaphore `h` has one duty, paid when the
transfer from `from c h` has landed: it hands `c` row `from c h` of its own table, holding that device's partial sums.
Every row is stated against ONE table, `gath`: row `j` holds device `j`'s partial sums.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties: an offset) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices at an offset -/

/-- The device `h + 1` places after `c` round the mesh. -/
def peer (c : Dev nD) (h : Fin 15) : Dev nD := ⟨(c.val + (h.val + 1)) % 16, Nat.mod_lt _ (by decide)⟩
/-- The device `h + 1` places before `c`: the one whose `peer · h` is `c`. -/
def «from» (c : Dev nD) (h : Fin 15) : Dev nD := ⟨(c.val + (15 - h.val)) % 16, Nat.mod_lt _ (by decide)⟩

theorem from_peer (c : Dev nD) (h : Fin 15) : «from» (peer c h) h = c := by revert c h; decide
theorem peer_from (c : Dev nD) (h : Fin 15) : peer («from» c h) h = c := by revert c h; decide
theorem peer_ne (c : Dev nD) (h : Fin 15) : peer c h ≠ c := by revert c h; decide
theorem from_ne (c : Dev nD) (h : Fin 15) : «from» c h ≠ c := by revert c h; decide
theorem peer_inj (c : Dev nD) : Function.Injective (peer c) := by revert c; decide
theorem from_inj (c : Dev nD) : Function.Injective («from» c) := by revert c; decide
/-- Every other device is at exactly one offset. -/
theorem exists_peer (c j : Dev nD) (hj : j ≠ c) : ∃ h, peer c h = j := by revert c j; decide
theorem exists_from (c j : Dev nD) (hj : j ≠ c) : ∃ h, «from» c h = j := by revert c j; decide

/-- Going `h + 1` places on is a permutation of the mesh. -/
def shift (h : Fin 15) : Dev nD ≃ Dev nD := ⟨fun c => peer c h, fun c => «from» c h, fun c => from_peer c h, fun c => peer_from c h⟩

/-- The kernel's `device_id` chains: signal `h` and transfer `h` both name `peer c h`. -/
theorem dev1_eq (c : Dev nD) : (⟨k0_dev1 c, k0_dev1_lt c⟩ : Dev nD) = peer c ⟨0, by decide⟩ := Fin.ext (k0_dev1_eq c)
theorem dev2_eq (c : Dev nD) : (⟨k0_dev2 c, k0_dev2_lt c⟩ : Dev nD) = peer c ⟨1, by decide⟩ := Fin.ext (k0_dev2_eq c)
theorem dev3_eq (c : Dev nD) : (⟨k0_dev3 c, k0_dev3_lt c⟩ : Dev nD) = peer c ⟨2, by decide⟩ := Fin.ext (k0_dev3_eq c)
theorem dev4_eq (c : Dev nD) : (⟨k0_dev4 c, k0_dev4_lt c⟩ : Dev nD) = peer c ⟨3, by decide⟩ := Fin.ext (k0_dev4_eq c)
theorem dev5_eq (c : Dev nD) : (⟨k0_dev5 c, k0_dev5_lt c⟩ : Dev nD) = peer c ⟨4, by decide⟩ := Fin.ext (k0_dev5_eq c)
theorem dev6_eq (c : Dev nD) : (⟨k0_dev6 c, k0_dev6_lt c⟩ : Dev nD) = peer c ⟨5, by decide⟩ := Fin.ext (k0_dev6_eq c)
theorem dev7_eq (c : Dev nD) : (⟨k0_dev7 c, k0_dev7_lt c⟩ : Dev nD) = peer c ⟨6, by decide⟩ := Fin.ext (k0_dev7_eq c)
theorem dev8_eq (c : Dev nD) : (⟨k0_dev8 c, k0_dev8_lt c⟩ : Dev nD) = peer c ⟨7, by decide⟩ := Fin.ext (k0_dev8_eq c)
theorem dev9_eq (c : Dev nD) : (⟨k0_dev9 c, k0_dev9_lt c⟩ : Dev nD) = peer c ⟨8, by decide⟩ := Fin.ext (k0_dev9_eq c)
theorem dev10_eq (c : Dev nD) : (⟨k0_dev10 c, k0_dev10_lt c⟩ : Dev nD) = peer c ⟨9, by decide⟩ := Fin.ext (k0_dev10_eq c)
theorem dev11_eq (c : Dev nD) : (⟨k0_dev11 c, k0_dev11_lt c⟩ : Dev nD) = peer c ⟨10, by decide⟩ := Fin.ext (k0_dev11_eq c)
theorem dev12_eq (c : Dev nD) : (⟨k0_dev12 c, k0_dev12_lt c⟩ : Dev nD) = peer c ⟨11, by decide⟩ := Fin.ext (k0_dev12_eq c)
theorem dev13_eq (c : Dev nD) : (⟨k0_dev13 c, k0_dev13_lt c⟩ : Dev nD) = peer c ⟨12, by decide⟩ := Fin.ext (k0_dev13_eq c)
theorem dev14_eq (c : Dev nD) : (⟨k0_dev14 c, k0_dev14_lt c⟩ : Dev nD) = peer c ⟨13, by decide⟩ := Fin.ext (k0_dev14_eq c)
theorem dev15_eq (c : Dev nD) : (⟨k0_dev15 c, k0_dev15_lt c⟩ : Dev nD) = peer c ⟨14, by decide⟩ := Fin.ext (k0_dev15_eq c)
theorem dev16_eq (c : Dev nD) : (⟨k0_dev16 c, k0_dev16_lt c⟩ : Dev nD) = peer c ⟨0, by decide⟩ := Fin.ext (k0_dev16_eq c)
theorem dev17_eq (c : Dev nD) : (⟨k0_dev17 c, k0_dev17_lt c⟩ : Dev nD) = peer c ⟨1, by decide⟩ := Fin.ext (k0_dev17_eq c)
theorem dev18_eq (c : Dev nD) : (⟨k0_dev18 c, k0_dev18_lt c⟩ : Dev nD) = peer c ⟨2, by decide⟩ := Fin.ext (k0_dev18_eq c)
theorem dev19_eq (c : Dev nD) : (⟨k0_dev19 c, k0_dev19_lt c⟩ : Dev nD) = peer c ⟨3, by decide⟩ := Fin.ext (k0_dev19_eq c)
theorem dev20_eq (c : Dev nD) : (⟨k0_dev20 c, k0_dev20_lt c⟩ : Dev nD) = peer c ⟨4, by decide⟩ := Fin.ext (k0_dev20_eq c)
theorem dev21_eq (c : Dev nD) : (⟨k0_dev21 c, k0_dev21_lt c⟩ : Dev nD) = peer c ⟨5, by decide⟩ := Fin.ext (k0_dev21_eq c)
theorem dev22_eq (c : Dev nD) : (⟨k0_dev22 c, k0_dev22_lt c⟩ : Dev nD) = peer c ⟨6, by decide⟩ := Fin.ext (k0_dev22_eq c)
theorem dev23_eq (c : Dev nD) : (⟨k0_dev23 c, k0_dev23_lt c⟩ : Dev nD) = peer c ⟨7, by decide⟩ := Fin.ext (k0_dev23_eq c)
theorem dev24_eq (c : Dev nD) : (⟨k0_dev24 c, k0_dev24_lt c⟩ : Dev nD) = peer c ⟨8, by decide⟩ := Fin.ext (k0_dev24_eq c)
theorem dev25_eq (c : Dev nD) : (⟨k0_dev25 c, k0_dev25_lt c⟩ : Dev nD) = peer c ⟨9, by decide⟩ := Fin.ext (k0_dev25_eq c)
theorem dev26_eq (c : Dev nD) : (⟨k0_dev26 c, k0_dev26_lt c⟩ : Dev nD) = peer c ⟨10, by decide⟩ := Fin.ext (k0_dev26_eq c)
theorem dev27_eq (c : Dev nD) : (⟨k0_dev27 c, k0_dev27_lt c⟩ : Dev nD) = peer c ⟨11, by decide⟩ := Fin.ext (k0_dev27_eq c)
theorem dev28_eq (c : Dev nD) : (⟨k0_dev28 c, k0_dev28_lt c⟩ : Dev nD) = peer c ⟨12, by decide⟩ := Fin.ext (k0_dev28_eq c)
theorem dev29_eq (c : Dev nD) : (⟨k0_dev29 c, k0_dev29_lt c⟩ : Dev nD) = peer c ⟨13, by decide⟩ := Fin.ext (k0_dev29_eq c)
theorem dev30_eq (c : Dev nD) : (⟨k0_dev30 c, k0_dev30_lt c⟩ : Dev nD) = peer c ⟨14, by decide⟩ := Fin.ext (k0_dev30_eq c)

/-! ## The memrefs, the semaphores, the cells -/

abbrev xM : Memref sig .tc .vmem S512x256 .f32 := Memref.whole cc0_stg0_0
abbrev oM : Memref sig .tc .vmem S1x256 .f32 := Memref.whole cc0_stg1_0
abbrev gM : Memref sig .tc .vmem S16x256 .f32 := Memref.whole cc0_scratch0

/-- Row `j` of the table, as the kernel slices it: at the printed offset function of device `j`. -/
abbrev rowM (j : Dev nD) : Memref sig .tc .vmem S1x256 .f32 :=
  gM.slice (Rect.unit (s := S16x256) (k0_off2 j) S1x256.size (k0_off2_inb j)) (fun _ => rfl)

/-- The runtime's barrier semaphore of collective id 0 (unscoped); send semaphore `h` and receive semaphore `h` (scoped). -/
abbrev barS : Sem sig := (SemArray.scalar (sig.barrier 0 rfl) : Sems sig S_).sem
abbrev sendS (h : Fin 15) : DmaSem sig := ⟨2 + h.val, by show 2 + h.val < 32; omega⟩
abbrev recvS (h : Fin 15) : DmaSem sig := ⟨17 + h.val, by show 17 + h.val < 32; omega⟩

abbrev barCell (c : Dev nD) : GSem nD τ sig := ((c : Thread nD τ), .reg barS)
abbrev sendCell (c : Dev nD) (h : Fin 15) : GSem nD τ sig := ((c : Thread nD τ), .dma (sendS h))
abbrev recvCell (c : Dev nD) (h : Fin 15) : GSem nD τ sig := ((c : Thread nD τ), .dma (recvS h))

/-- The kernel's OWN (scoped) semaphores, as the launch theorem indexes them: the fifteen send, then the fifteen receive. -/
abbrev osem : Fin 30 → SemLoc sig := fun k => .dma ⟨2 + k.val, by show 2 + k.val < 32; omega⟩
/-- All thirty-one of a device's cells: the barrier, then the own ones. -/
abbrev csem : Fin 31 → SemLoc sig := fun k => if h : k.val = 0 then .reg barS else .dma ⟨1 + k.val, by show 1 + k.val < 32; omega⟩
abbrev kcell (ck : Dev nD × Fin 31) : GSem nD τ sig := ((ck.1 : Thread nD τ), csem ck.2)

/-- One transfer's credit: a row. -/
abbrev N : ℕ := (rowM (0 : Dev nD) : Memref sig .tc .vmem S1x256 .f32).view.dmaCredit

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The gathered table: row `j` holds device `j`'s partial sums. The same on every device. -/
def gath : (cc0_scratch0 : Ref sig .tc).ty.Contents (Elt F) := Spec.gathered (fun j => xstg m ρ j)

/-- The result: the table reduced along its rows. The same on every device. -/
def outAt : (cc0_stg1_0 : Ref sig .tc).ty.Contents (Elt F) := Spec.result (fun j => xstg m ρ j)

/-- The table's buffer on device `c`, and row `j`'s elements of it. -/
abbrev gLoc (c : Dev nD) : Loc nD τ sig := (gM : Memref sig .tc .vmem S16x256 .f32).view.loc (c : Thread nD τ)
abbrev rowSet (c : Dev nD) (j : Dev nD) : Finset (Idx (gLoc c)) := (rowM j : Memref sig .tc .vmem S1x256 .f32).view.set

/-- Share `q` of row `j` of device `c`'s table, holding `f` there. -/
def rowPts (c j : Dev nD) (q : PosShare TreeShare) (f : Buf (Elt F) (gLoc c)) : sProp 𝕄 :=
  gLoc c ↦[rowSet c j]{q} f

/-! ## Shares of a device's own row

After it has written its row a device keeps the left half of it, to read the whole table with at the end, and cuts the
right half by successive halving into the fifteen shares its fifteen transfers borrow, and a last piece it keeps. -/

abbrev keepQ : PosShare TreeShare := fullShare.left
/-- What is left of the right half after `n` shares have been cut off it. -/
def restQ : ℕ → PosShare TreeShare
  | 0 => fullShare.right
  | n + 1 => (restQ n).right
/-- The share transfer `h` borrows. -/
def lendQ (h : Fin 15) : PosShare TreeShare := (restQ h.val).left

/-! ## The schedule -/

abbrev IsBar (g : GSem nD τ sig) : Prop := g.1.2 = .tc ∧ g.2 = .reg barS
abbrev IsOwn (g : GSem nD τ sig) : Prop := g.1.2 = .tc ∧ ∃ k : Fin 30, g.2 = osem k

/-- What the barrier signal at offset `d` hands device `c`: row `c` of the signaller's table, whatever it holds. -/
def barPay (c : Dev nD) (d : Fin 15) : sProp 𝕄 := iprop(∃ f, rowPts (F := F) («from» c d) c fullShare f)
/-- What send semaphore `h` gives back: the borrowed share of the device's own row. -/
def sendPay (c : Dev nD) (h : Fin 15) : sProp 𝕄 := rowPts c c (lendQ h) (gath m ρ)
/-- What receive semaphore `h` hands over: the sender's row of the table, landed. -/
def recvPay (c : Dev nD) (h : Fin 15) : sProp 𝕄 := rowPts c («from» c h) fullShare (gath m ρ)

/-- One round, round 0. A barrier cell: fifteen unit duties, one per offset. A send or a receive cell: the one duty `0`,
    of a row's credit. -/
def agRd : Rounds.Schedule (GSem nD τ sig) (Fin 15) 𝕄 where
  duties g r := if r = 0 ∧ IsBar g then Finset.univ else if r = 0 ∧ IsOwn g then {0} else ∅
  unitless _ := False
  amount g _ _ := if g.2 = .reg barS then 1 else N
  payload g _ d :=
    if g.2 = .reg barS then barPay g.1.1 d
    else match g.2 with
      | .dma q =>
        if 2 ≤ q.val ∧ q.val < 17 then sendPay m ρ g.1.1 ⟨(q.val - 2) % 15, Nat.mod_lt _ (by decide)⟩
        else if 17 ≤ q.val then recvPay m ρ g.1.1 ⟨(q.val - 17) % 15, Nat.mod_lt _ (by decide)⟩
        else iprop(emp)
      | _ => iprop(emp)
  amount_pos g _ _ _ := by
    by_cases h : g.2 = .reg barS
    · rw [if_pos h]; exact Nat.one_pos
    · rw [if_neg h]; exact View.dmaCredit_pos _ (by decide)

instance agRd_payload_storable (g : GSem nD τ sig) (r : ℕ) (d : Fin 15) :
    BI.Storable (upEmb : UEmb _ 𝕄) ((agRd (F := F) m ρ).payload g r d) := by
  dsimp only [agRd]
  unfold barPay sendPay recvPay rowPts
  (repeat' split) <;> infer_instance

section Tables
variable (c : Dev nD) (h : Fin 15)

theorem send_ne_bar : (SemLoc.dma (sendS h) : SemLoc sig) ≠ .reg barS := fun e => by cases e
theorem recv_ne_bar : (SemLoc.dma (recvS h) : SemLoc sig) ≠ .reg barS := fun e => by cases e
theorem isOwn_send : IsOwn (sendCell c h) := ⟨rfl, ⟨h.val, by omega⟩, rfl⟩
theorem isOwn_recv : IsOwn (recvCell c h) :=
  ⟨rfl, ⟨15 + h.val, by omega⟩, congrArg SemLoc.dma (Fin.ext (by show 17 + h.val = 2 + (15 + h.val); omega))⟩
theorem not_bar_send : ¬ IsBar (sendCell c h) := fun e => send_ne_bar h e.2
theorem not_bar_recv : ¬ IsBar (recvCell c h) := fun e => recv_ne_bar h e.2

theorem duties_bar : (agRd (F := F) m ρ).duties (barCell c) 0 = Finset.univ := by dsimp only [agRd]; exact if_pos ⟨rfl, rfl, rfl⟩
theorem duties_send : (agRd (F := F) m ρ).duties (sendCell c h) 0 = {0} := by
  dsimp only [agRd]; rw [if_neg (fun e => not_bar_send c h e.2)]; exact if_pos ⟨rfl, isOwn_send c h⟩
theorem duties_recv : (agRd (F := F) m ρ).duties (recvCell c h) 0 = {0} := by
  dsimp only [agRd]; rw [if_neg (fun e => not_bar_recv c h e.2)]; exact if_pos ⟨rfl, isOwn_recv c h⟩
theorem duties_later (g : GSem nD τ sig) : ∀ r, 1 ≤ r → (agRd (F := F) m ρ).duties g r = ∅ :=
  fun r hr => by dsimp only [agRd]; rw [if_neg fun e => by omega, if_neg fun e => by omega]

theorem amount_bar (d : Fin 15) : (agRd (F := F) m ρ).amount (barCell c) 0 d = 1 := by dsimp only [agRd]; exact if_pos rfl
theorem amount_send (d : Fin 15) : (agRd (F := F) m ρ).amount (sendCell c h) 0 d = N := by dsimp only [agRd]; exact if_neg (send_ne_bar h)
theorem amount_recv (d : Fin 15) : (agRd (F := F) m ρ).amount (recvCell c h) 0 d = N := by dsimp only [agRd]; exact if_neg (recv_ne_bar h)

theorem expect_bar : (agRd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (agRd (F := F) m ρ).expect (sendCell c h) 0 = N := by
  unfold Schedule.expect Schedule.amountOf; rw [duties_send, Finset.sum_singleton, amount_send]
theorem expect_recv : (agRd (F := F) m ρ).expect (recvCell c h) 0 = N := by
  unfold Schedule.expect Schedule.amountOf; rw [duties_recv, Finset.sum_singleton, amount_recv]

theorem payload_bar (d : Fin 15) : (agRd (F := F) m ρ).payload (barCell c) 0 d = barPay c d := by dsimp only [agRd]; rw [if_pos rfl]
theorem payload_send (d : Fin 15) : (agRd (F := F) m ρ).payload (sendCell c h) 0 d = sendPay m ρ c h := by
  dsimp only [agRd]
  rw [if_neg (send_ne_bar h), if_pos ⟨by show 2 ≤ 2 + h.val; omega, by show 2 + h.val < 17; omega⟩]
  exact congrArg (sendPay m ρ c) (Fin.ext (by show (2 + h.val - 2) % 15 = h.val; omega))
theorem payload_recv (d : Fin 15) : (agRd (F := F) m ρ).payload (recvCell c h) 0 d = recvPay m ρ c h := by
  dsimp only [agRd]
  rw [if_neg (recv_ne_bar h), if_neg (fun e => by have := e.2; change 17 + h.val < 17 at this; omega), if_pos (by show 17 ≤ 17 + h.val; omega)]
  exact congrArg (recvPay m ρ c) (Fin.ext (by show (17 + h.val - 17) % 15 = h.val; omega))

/-- The whole of the barrier cell's round: every offset's row. -/
theorem rest_bar : bigSep ((agRd (F := F) m ρ).duties (barCell c) 0 \ ∅) (fun d => (agRd (F := F) m ρ).payload (barCell c) 0 d)
    = bigSep Finset.univ (fun d => barPay (F := F) c d) := by
  rw [Finset.sdiff_empty, duties_bar]; exact bigSep_congr fun d _ => payload_bar m ρ c d
theorem rest_send : bigSep ((agRd (F := F) m ρ).duties (sendCell c h) 0 \ ∅) (fun d => (agRd (F := F) m ρ).payload (sendCell c h) 0 d) = sendPay m ρ c h := by
  rw [Finset.sdiff_empty, duties_send, bigSep_singleton, payload_send]
theorem rest_recv : bigSep ((agRd (F := F) m ρ).duties (recvCell c h) 0 \ ∅) (fun d => (agRd (F := F) m ρ).payload (recvCell c h) 0 d) = recvPay m ρ c h := by
  rw [Finset.sdiff_empty, duties_recv, bigSep_singleton, payload_recv]

end Tables

end Cert.KernelIdeal.AG

end
-- ==== Proof.KernelIdeal.Data.lean ====
import proofs.«900607_g7700000000000608_dist_sum_ax0_shard0_i_m512_n256_v7x_i16_bf16_1_alg».proof.Proof.KernelIdeal.Sched

/-!
What a device starts its body with and what it ends with: the interface between the body's proof and the launch.

At launch device `c` owes fifteen barrier units (one to each other device) and fifteen rows' credit (one to each other
device's receive semaphore at the offset it sends at). Barrier cells sit at level 1, receive cells at level 2, everything
else at level 0: a device waits on its barrier while it still owes receive credit only, and on a receive or send
semaphore owing nothing.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes; the levels -/

/-- The rows' credit device `c` owes the receive semaphores of the devices at the offsets in `S`. -/
def owedRecv (c : Dev nD) (S : Finset (Fin 15)) : CellTallies nD τ sig Unit := ∑ h ∈ S, tallyAt (recvCell (peer c h) h) () N
/-- The barrier units device `c` owes the devices at the offsets in `S`. -/
def owedBar (c : Dev nD) (S : Finset (Fin 15)) : CellTallies nD τ sig Unit := ∑ h ∈ S, tallyAt (barCell (peer c h)) () 1
/-- At launch: all of both. -/
def O₀ (c : Dev nD) : CellTallies nD τ sig Unit := owedRecv c Finset.univ + owedBar c Finset.univ

theorem owedBar_peel (c : Dev nD) {S : Finset (Fin 15)} {h : Fin 15} (hh : h ∈ S) :
    owedBar c S = owedBar c (S.erase h) + tallyAt (barCell (peer c h)) () 1 := (Finset.sum_erase_add S _ hh).symm
theorem owedRecv_peel (c : Dev nD) {S : Finset (Fin 15)} {h : Fin 15} (hh : h ∈ S) :
    owedRecv c S = owedRecv c (S.erase h) + tallyAt (recvCell (peer c h) h) () N := (Finset.sum_erase_add S _ hh).symm
theorem owedBar_empty (c : Dev nD) : owedBar c ∅ = 0 := Finset.sum_empty
theorem owedRecv_empty (c : Dev nD) : owedRecv c ∅ = 0 := Finset.sum_empty

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if ∃ h : Fin 15, g.2 = .dma (recvS h) then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells under one index -/

abbrev sIdx (h : Fin 15) : Fin 31 := ⟨1 + h.val, by omega⟩
abbrev rIdx (h : Fin 15) : Fin 31 := ⟨16 + h.val, by omega⟩

theorem kcell_bar (c : Dev nD) : kcell (c, (0 : Fin 31)) = barCell c := rfl
theorem kcell_send (c : Dev nD) (h : Fin 15) : kcell (c, sIdx h) = sendCell c h := by
  show ((c : Thread nD τ), csem (sIdx h)) = _
  unfold csem; rw [dif_neg (by show ¬ (1 + h.val = 0); omega)]
  exact congrArg (fun q => ((c : Thread nD τ), SemLoc.dma q)) (Fin.ext (by show 1 + (1 + h.val) = 2 + h.val; omega))
theorem kcell_recv (c : Dev nD) (h : Fin 15) : kcell (c, rIdx h) = recvCell c h := by
  show ((c : Thread nD τ), csem (rIdx h)) = _
  unfold csem; rw [dif_neg (by show ¬ (16 + h.val = 0); omega)]
  exact congrArg (fun q => ((c : Thread nD τ), SemLoc.dma q)) (Fin.ext (by show 1 + (16 + h.val) = 17 + h.val; omega))

/-! ## The ghost state a device's body starts from -/

/-- Every cell's invariant, under the names `K` the launch allocated them at, and that every cell has reached round 0:
    persistent, the same on every device. -/
def records (K : Dev nD × Fin 31 → ℕ) : sProp 𝕄 :=
  iprop((bigSep Finset.univ fun ck : Dev nD × Fin 31 => cellInv ER (agRd m ρ) (K ck) (kcell ck))
    ∗ bigSep Finset.univ fun ck : Dev nD × Fin 31 => reached ER (kcell ck) 0)

instance records_persistent (K : Dev nD × Fin 31 → ℕ) : BI.Persistent (records m ρ K) := by unfold records; infer_instance

/-- Device `c` at round 0 of each of its thirty-one cells. -/
def positions (c : Dev nD) : sProp 𝕄 :=
  iprop(atPos ER (barCell c) 0 ∅ 0
    ∗ bigSep Finset.univ fun h : Fin 15 => iprop(atPos ER (sendCell c h) 0 ∅ 0 ∗ atPos ER (recvCell c h) 0 ∅ 0))

/-- The tokens of the duties device `c` pays: per offset, the barrier duty `h` of `peer c h`, that device's receive duty
    at `h`, its own send duty at `h`. -/
def payToks (c : Dev nD) : sProp 𝕄 :=
  bigSep Finset.univ fun h : Fin 15 =>
    iprop(dutyTok ER (barCell (peer c h)) 0 h ∗ dutyTok ER (recvCell (peer c h) h) 0 (0 : Fin 15) ∗ dutyTok ER (sendCell c h) 0 (0 : Fin 15))

def ghost (K : Dev nD × Fin 31 → ℕ) (c : Dev nD) : sProp 𝕄 := iprop(records m ρ K ∗ positions c ∗ payToks c)

/-- The credit the launch deals device `c`: its barrier's fifteen units, each receive cell's row. -/
def credits (c : Dev nD) : sProp 𝕄 :=
  iprop(cred (tallyAt (barCell c) () 15) ∗ bigSep Finset.univ fun h : Fin 15 => cred (tallyAt (recvCell c h) () N))

def start (c : Dev nD) : sProp 𝕄 := iprop((∃ K, ghost m ρ K c) ∗ credits c ∗ levAts L lv)

/-- Before the point: that, and the table's buffer whole over whatever it holds. -/
def Φ₀ (c : Dev nD) : sProp 𝕄 := iprop(start m ρ c ∗ ∃ f : Buf (Elt F) (gLoc c), gLoc c ↦{fullShare} f)
/-- After the point: the table whole and gathered, the thirty own cells at zero, closed. -/
def Φ₁ (c : Dev nD) : sProp 𝕄 :=
  iprop((gLoc c ↦{fullShare} gath m ρ) ∗ bigSep Finset.univ fun k : Fin 30 => semVal ((c : Thread nD τ), osem k) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-! ## The body's pre and post -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 31 → ℕ) (c : Dev nD) : sProp 𝕄 :=
  iprop((ghost m ρ K c ∗ credits c ∗ levAts L lv ∗ ∃ f : Buf (Elt F) (gLoc c), gLoc c ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ))

end Cert.KernelIdeal.AG

end
-- ==== Proof.KernelIdeal.Rows.lean ====
import proofs.«900607_g7700000000000608_dist_sum_ax0_shard0_i_m512_n256_v7x_i16_bf16_1_alg».proof.Proof.KernelIdeal.Data
import Idealize.ShloMosaic.Lib.Pipeline.Value

/-!
Rows of the table, as sets of elements and as shares.

The sixteen rows partition the table's elements; a points-to on the whole table is the rows' points-tos side by side.
A device's own row is cut along shares: the half it keeps, the fifteen shares it lends, and a last piece. What a
device writes into its own row, and what a transfer lands in a row, agree with the gathered table there.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows partition the table -/

/-- An element of the table lies in the one-row rectangle at row `k` exactly when its row coordinate is `k`. -/
theorem mem_rowRect {off : Fin 2 → ℕ} {inb : ∀ a, off a + S1x256.size a ≤ S16x256.size a} {k : ℕ} (hoff : off = ![k, 0])
    (i : S16x256.Idx) : i ∈ (Rect.unit (s := S16x256) off S1x256.size inb).set ↔ (i 0).val = k := by
  subst hoff
  rw [Rect.mem_set_unit, Fin.forall_fin_two]
  have h1 : (i 1).val < 256 := (i 1).isLt
  show (k ≤ (i 0).val ∧ (i 0).val < k + 1) ∧ (0 ≤ (i 1).val ∧ (i 1).val < 0 + 256) ↔ (i 0).val = k
  omega

/-- Row `j`'s elements are those whose row coordinate is `j`. -/
theorem mem_rowSet (c j : Dev nD) (i : Idx (gLoc c)) : i ∈ rowSet c j ↔ ((i : S16x256.Idx) 0).val = j.val := by
  have h : rowSet c j = (Rect.unit (s := S16x256) (k0_off2 j) S1x256.size (k0_off2_inb j)).set :=
    View.set_slice_whole cc0_scratch0 _
  rw [h]
  exact mem_rowRect (k0_off2_eq j) i

theorem rowSet_disjoint (c : Dev nD) {j j' : Dev nD} (hj : j ≠ j') : Disjoint (rowSet c j) (rowSet c j') := by
  rw [Finset.disjoint_left]
  intro i hi hi'
  rw [mem_rowSet] at hi hi'
  exact hj (Fin.ext (hi.symm.trans hi'))
theorem rowSet_cover (c : Dev nD) : (Finset.univ : Finset (Idx (gLoc c))) = Finset.univ.biUnion (rowSet c) := by
  ext i
  simp only [Finset.mem_univ, Finset.mem_biUnion, true_and, true_iff]
  exact ⟨⟨((i : S16x256.Idx) 0).val, ((i : S16x256.Idx) 0).isLt⟩, (mem_rowSet c _ i).mpr rfl⟩

/-- The whole table at share `q` is its sixteen rows at share `q`. -/
theorem whole_eq_rows (c : Dev nD) (q : PosShare TreeShare) (f : Buf (Elt F) (gLoc c)) :
    ((gLoc c ↦{q} f) : sProp 𝕄) = bigSep Finset.univ (fun j : Dev nD => rowPts (F := F) c j q f) := by
  unfold rowPts
  rw [rowSet_cover c]
  exact pointsTo_biUnion Finset.univ (rowSet c) (fun j _ j' _ h => rowSet_disjoint c h)

/-- The table without device `c`'s own row: the rows at the fifteen offsets, either way round. -/
theorem rows_peers (c : Dev nD) (Φ : Dev nD → sProp 𝕄) :
    bigSep Finset.univ Φ = iprop(Φ c ∗ bigSep Finset.univ (fun h : Fin 15 => Φ (peer c h))) := by
  have hm : (Finset.univ : Finset (Dev nD)).erase c = Finset.univ.map ⟨peer c, peer_inj c⟩ := by
    ext j
    simp only [Finset.mem_erase, Finset.mem_univ, and_true, Finset.mem_map, true_and, Function.Embedding.coeFn_mk]
    exact ⟨fun hj => exists_peer c j hj, fun ⟨h, e⟩ => e ▸ peer_ne c h⟩
  rw [bigSep_univ_split c, hm, bigSep_map]
  rfl
theorem rows_froms (c : Dev nD) (Φ : Dev nD → sProp 𝕄) :
    bigSep Finset.univ Φ = iprop(Φ c ∗ bigSep Finset.univ (fun h : Fin 15 => Φ («from» c h))) := by
  have hm : (Finset.univ : Finset (Dev nD)).erase c = Finset.univ.map ⟨«from» c, from_inj c⟩ := by
    ext j
    simp only [Finset.mem_erase, Finset.mem_univ, and_true, Finset.mem_map, true_and, Function.Embedding.coeFn_mk]
    exact ⟨fun hj => exists_from c j hj, fun ⟨h, e⟩ => e ▸ from_ne c h⟩
  rw [bigSep_univ_split c, hm, bigSep_map]
  rfl

/-! ## Shares -/

/-- A row at a share is its two halves. -/
theorem rowPts_halves (c j : Dev nD) (q : PosShare TreeShare) (f : Buf (Elt F) (gLoc c)) :
    (rowPts (F := F) c j q f) ⊣⊢ iprop(rowPts (F := F) c j q.left f ∗ rowPts (F := F) c j q.right f) := by
  unfold rowPts; exact pointsTo_share (PosShare.mem_left_op_right q)

theorem rowPts_halves_eq (c j : Dev nD) (q : PosShare TreeShare) (f : Buf (Elt F) (gLoc c)) :
    rowPts (F := F) c j q f = iprop(rowPts (F := F) c j q.left f ∗ rowPts (F := F) c j q.right f) :=
  BI.equiv_iff.mp ⟨(rowPts_halves c j q f).1, (rowPts_halves c j q f).2⟩

/-- What is left after `n` shares have been cut off the right half, with those shares, is the right half. -/
theorem rowPts_rest (c j : Dev nD) (f : Buf (Elt F) (gLoc c)) (n : ℕ) :
    rowPts (F := F) c j (restQ 0) f
      = iprop((bigSep (Finset.range n) fun k => rowPts (F := F) c j (restQ k).left f) ∗ rowPts (F := F) c j (restQ n) f) := by
  induction n with
  | zero => rw [Finset.range_zero, bigSep_empty]; exact (BI.equiv_iff.mp BI.emp_sep).symm
  | succ n ih =>
    rw [Finset.range_add_one, bigSep_insert Finset.notMem_range_self, ih, rowPts_halves_eq c j (restQ n) f]
    exact BI.equiv_iff.mp ⟨BI.sep_assoc'.trans (BI.sep_mono_l BI.sep_comm), (BI.sep_mono_l BI.sep_comm).trans BI.sep_assoc⟩

/-- A row held whole is the kept half, the fifteen lent shares and the last piece. -/
theorem rowPts_cut (c j : Dev nD) (f : Buf (Elt F) (gLoc c)) :
    (rowPts (F := F) c j fullShare f) ⊣⊢
      iprop(rowPts (F := F) c j keepQ f ∗ (bigSep Finset.univ fun h : Fin 15 => rowPts (F := F) c j (lendQ h) f) ∗ rowPts (F := F) c j (restQ 15) f) := by
  have hfin : (bigSep Finset.univ fun h : Fin 15 => rowPts (F := F) c j (lendQ h) f)
      = bigSep (Finset.range 15) fun k => rowPts (F := F) c j (restQ k).left f := by
    have hr : (Finset.univ : Finset (Fin 15)).map Fin.valEmbedding = Finset.range 15 := by decide
    rw [← hr, bigSep_map]; rfl
  rw [hfin, ← rowPts_rest c j f 15]
  exact rowPts_halves c j fullShare f

/-! ## Contents -/

/-- Off a row's elements the contents do not matter. -/
theorem rowPts_congr (c j : Dev nD) (q : PosShare TreeShare) {f g : Buf (Elt F) (gLoc c)} (hfg : ∀ i ∈ rowSet c j, f i = g i) :
    rowPts (F := F) c j q f = rowPts (F := F) c j q g := pointsTo_congr hfg

/-- The rectangle the kernel loads and stores its own row through covers exactly that row's elements. -/
abbrev ownRect (c : Dev nD) : Rect S16x256 := Rect.unit (s := S16x256) (k0_off1 c) S1x256.size (k0_off1_inb c)
theorem ownRect_store_sub (c : Dev nD) : ((gM : Memref sig .tc .vmem S16x256 .f32).access (ownRect c) : View sig .tc _ _ _).setOn Finset.univ ⊆ rowSet c c := by
  intro i hi
  have h : ((gM : Memref sig .tc .vmem S16x256 .f32).access (ownRect c) : View sig .tc _ _ _).setOn Finset.univ = (ownRect c).set :=
    View.set_slice_whole cc0_scratch0 _
  rw [h] at hi
  exact (mem_rowSet c c i).mpr ((mem_rowRect (k0_off1_eq c) i).mp hi)
theorem ownRect_load_sub (c : Dev nD) : (gM : Memref sig .tc .vmem S16x256 .f32).view.setOn (ownRect c).toLoadRect.set ⊆ rowSet c c := by
  intro i hi
  have h : (gM : Memref sig .tc .vmem S16x256 .f32).view.setOn (ownRect c).toLoadRect.set = (ownRect c).set :=
    Finset.map_refl
  rw [h] at hi
  exact (mem_rowSet c c i).mpr ((mem_rowRect (k0_off1_eq c) i).mp hi)

/-- What device `c` writes into its own row is the gathered table's row `c`. -/
theorem own_row_written (c : Dev nD) (f : Buf (Elt F) (gLoc c)) :
    ∀ i ∈ rowSet c c, (((gM : Memref sig .tc .vmem S16x256 .f32).access (ownRect c) : View sig .tc _ _ _).write (Elt F) f (k0_pay1 (xstg m ρ c)) Finset.univ) i = gath m ρ i := by
  intro i hi
  rw [mem_rowSet] at hi
  -- the element's place in the row: column `i 1`
  have hy : ((gM : Memref sig .tc .vmem S16x256 .f32).access (ownRect c) : View sig .tc _ _ _).emb
      (ValueIdx.ix2 (⟨0, Nat.one_pos⟩ : Fin 1) (⟨((i : S16x256.Idx) 1).val, ((i : S16x256.Idx) 1).isLt⟩ : Fin 256)) = i := by
    have e := k0_off1_eq c
    refine funext fun a => Fin.ext ?_
    show k0_off1 c a + 1 * ((ValueIdx.ix2 (⟨0, Nat.one_pos⟩ : Fin 1) (⟨((i : S16x256.Idx) 1).val, ((i : S16x256.Idx) 1).isLt⟩ : Fin 256) : S1x256.Idx) a).val
      = ((i : S16x256.Idx) a).val
    rw [e]
    match a with
    | ⟨0, _⟩ => show c.val + 1 * 0 = ((i : S16x256.Idx) 0).val; omega
    | ⟨1, _⟩ => show 0 + 1 * ((i : S16x256.Idx) 1).val = ((i : S16x256.Idx) 1).val; omega
  rw [← hy, View.write_emb_of_mem _ _ (Finset.mem_univ _), hy]
  have hc : (⟨((i : S16x256.Idx) 0).val, ((i : S16x256.Idx) 0).isLt⟩ : Dev nD) = c := Fin.ext hi
  show k0_pay1 (xstg m ρ c) _ = k0_pay1 (xstg m ρ ⟨((i : S16x256.Idx) 0).val, ((i : S16x256.Idx) 0).isLt⟩) _
  rw [hc]

/-- What a transfer of row `j` lands on device `p`, read off the gathered table at the source, is the gathered table's row `j`. -/
theorem row_landed (p j : Dev nD) (fd : Buf (Elt F) (gLoc p)) :
    ∀ i ∈ rowSet p j, ((rowM j : Memref sig .tc .vmem S1x256 .f32).view.write (Elt F) fd ((rowM j : Memref sig .tc .vmem S1x256 .f32).view.read (Elt F) (gath m ρ)) Finset.univ) i = gath m ρ i := by
  intro i hi
  rw [View.write_read_eq_piecewise]
  exact Finset.piecewise_eq_of_mem _ _ _ hi

/-- Every row moves the same credit. -/
theorem row_credit (j : Dev nD) : (rowM j : Memref sig .tc .vmem S1x256 .f32).view.dmaCredit = N := rfl

/-- Reading the whole staged block, the whole table, and writing the whole result. -/
abbrev xRect : Rect S512x256 := Rect.unit (s := S512x256) ![0, 0] S512x256.size inb_S512x256_S512x256_0_0
abbrev gRect : Rect S16x256 := Rect.unit (s := S16x256) ![0, 0] S16x256.size inb_S16x256_S16x256_0_0
abbrev oRect : Rect S1x256 := Rect.unit (s := S1x256) ![0, 0] S1x256.size inb_S1x256_S1x256_0_0
/-- The offsets `![0, 0]` are zero on both axes. -/
theorem off_zero : (![0, 0] : Fin 2 → Nat) = fun _ => 0 := funext fun a => by fin_cases a <;> rfl
theorem read_x (f : (cc0_stg0_0 : Ref sig .tc).ty.Contents (Elt F)) : (xM : Memref sig .tc .vmem S512x256 .f32).view.readAt (Elt F) xRect.toLoadRect f = f :=
  Memref.readAt_unit_zero (Elt F) cc0_stg0_0 off_zero _ f
theorem read_g (f : (cc0_scratch0 : Ref sig .tc).ty.Contents (Elt F)) : (gM : Memref sig .tc .vmem S16x256 .f32).view.readAt (Elt F) gRect.toLoadRect f = f :=
  Memref.readAt_unit_zero (Elt F) cc0_scratch0 off_zero _ f
theorem write_out (f w : (cc0_stg1_0 : Ref sig .tc).ty.Contents (Elt F)) :
    ((oM : Memref sig .tc .vmem S1x256 .f32).access oRect : View sig .tc _ _ _).write (Elt F) f w Finset.univ = w :=
  Memref.write_access_unit_zero_univ (Elt F) cc0_stg1_0 off_zero _ f w

/-- info: 'Cert.KernelIdeal.AG.rowSet_disjoint' depends on axioms: [propext, Classical.choice, Quot.sound] -/
#guard_msgs in #print axioms rowSet_disjoint
/-- info: 'Cert.KernelIdeal.AG.rowSet_cover' depends on axioms: [propext, Classical.choice, Quot.sound] -/
#guard_msgs in #print axioms rowSet_cover
/-- info: 'Cert.KernelIdeal.AG.whole_eq_rows' depends on axioms: [propext, Classical.choice, Quot.sound] -/
#guard_msgs in #print axioms whole_eq_rows
/-- info: 'Cert.KernelIdeal.AG.rows_peers' depends on axioms: [propext, Classical.choice, Quot.sound] -/
#guard_msgs in #print axioms rows_peers
/-- info: 'Cert.KernelIdeal.AG.rows_froms' depends on axioms: [propext, Classical.choice, Quot.sound] -/
#guard_msgs in #print axioms rows_froms
/-- info: 'Cert.KernelIdeal.AG.rowPts_halves' depends on axioms: [propext, Classical.choice, Quot.sound] -/
#guard_msgs in #print axioms rowPts_halves
/-- info: 'Cert.KernelIdeal.AG.rowPts_cut' depends on axioms: [propext, Classical.choice, Quot.sound] -/
#guard_msgs in #print axioms rowPts_cut
/-- info: 'Cert.KernelIdeal.AG.rowPts_congr' depends on axioms: [propext, Classical.choice, Quot.sound] -/
#guard_msgs in #print axioms rowPts_congr
/-- info: 'Cert.KernelIdeal.AG.ownRect_store_sub' depends on axioms: [propext, Classical.choice, Quot.sound] -/
#guard_msgs in #print axioms ownRect_store_sub
/-- info: 'Cert.KernelIdeal.AG.ownRect_load_sub' depends on axioms: [propext, Classical.choice, Quot.sound] -/
#guard_msgs in #print axioms ownRect_load_sub
/-- info: 'Cert.KernelIdeal.AG.own_row_written' depends on axioms: [propext, Classical.choice, Quot.sound] -/
#guard_msgs in #print axioms own_row_written
/-- info: 'Cert.KernelIdeal.AG.row_landed' depends on axioms: [propext, Classical.choice, Quot.sound] -/
#guard_msgs in #print axioms row_landed
/-- info: 'Cert.KernelIdeal.AG.row_credit' depends on axioms: [propext, Classical.choice, Quot.sound] -/
#guard_msgs in #print axioms row_credit
/-- info: 'Cert.KernelIdeal.AG.read_x' depends on axioms: [propext, Classical.choice, Quot.sound] -/
#guard_msgs in #print axioms read_x
/-- info: 'Cert.KernelIdeal.AG.read_g' depends on axioms: [propext, Classical.choice, Quot.sound] -/
#guard_msgs in #print axioms read_g
/-- info: 'Cert.KernelIdeal.AG.write_out' depends on axioms: [propext, Classical.choice, Quot.sound] -/
#guard_msgs in #print axioms write_out

end Cert.KernelIdeal.AG

end
-- ==== Proof.KernelIdeal.Steps.lean ====
import proofs.«900607_g7700000000000608_dist_sum_ax0_shard0_i_m512_n256_v7x_i16_bf16_1_alg».proof.Proof.KernelIdeal.Data
import proofs.«900607_g7700000000000608_dist_sum_ax0_shard0_i_m512_n256_v7x_i16_bf16_1_alg».proof.Proof.KernelIdeal.Rows

/-!
The body's steps that another device takes part in, each once, at a symbolic device `c` and offset `h`: the barrier
signal to `peer c h`, the wait for the barrier's fifteen units, the transfer of the own row to `peer c h`, the wait for
the row from `from c h` to have landed, the wait for the transfer's source to have been read, and closing an own cell
once its one round is over.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : Dev nD × Fin 31 → ℕ) (c : Dev nD) (h : Fin 15)

/-- The invariant and the reached round of any cell, out of the records. -/
theorem inv_at (ck : Dev nD × Fin 31) : records m ρ K ⊢ cellInv ER (agRd m ρ) (K ck) (kcell ck) := by
  unfold records
  have h : (bigSep Finset.univ fun ck : Dev nD × Fin 31 => cellInv ER (agRd (F := F) m ρ) (K ck) (kcell ck)) ⊢ cellInv ER (agRd m ρ) (K ck) (kcell ck) :=
    bigSep_elim (Finset.mem_univ ck)
  iintro ⟨H, -⟩
  iapply h $$ H
theorem reached_at (ck : Dev nD × Fin 31) : records m ρ K ⊢ (reached ER (kcell ck) 0 : sProp 𝕄) := by
  unfold records
  have h : (bigSep Finset.univ fun ck : Dev nD × Fin 31 => (reached ER (kcell ck) 0 : sProp 𝕄)) ⊢ (reached ER (kcell ck) 0 : sProp 𝕄) :=
    bigSep_elim (Finset.mem_univ ck)
  iintro ⟨-, H⟩
  iapply h $$ H

/-- The same at a device's barrier, send and receive cells. -/
theorem inv_bar : records m ρ K ⊢ cellInv ER (agRd m ρ) (K (c, (0 : Fin 31))) (barCell c) := inv_at m ρ K (c, (0 : Fin 31))
theorem reached_bar : records m ρ K ⊢ (reached ER (barCell c) 0 : sProp 𝕄) := reached_at m ρ K (c, (0 : Fin 31))
theorem inv_send : records m ρ K ⊢ cellInv ER (agRd m ρ) (K (c, sIdx h)) (sendCell c h) := by
  have e := inv_at m ρ K (c, sIdx h); rwa [kcell_send] at e
theorem reached_send : records m ρ K ⊢ (reached ER (sendCell c h) 0 : sProp 𝕄) := by
  have e := reached_at m ρ K (c, sIdx h); rwa [kcell_send] at e
theorem inv_recv : records m ρ K ⊢ cellInv ER (agRd m ρ) (K (c, rIdx h)) (recvCell c h) := by
  have e := inv_at m ρ K (c, rIdx h); rwa [kcell_recv] at e
theorem reached_recv : records m ρ K ⊢ (reached ER (recvCell c h) 0 : sProp 𝕄) := by
  have e := reached_at m ρ K (c, rIdx h); rwa [kcell_recv] at e

/-- The barrier signal at offset `h`: it pays duty `h` of `peer c h`'s barrier with row `peer c h` of `c`'s own table, one
    unit off what `c` owes. The signal names its target `n`, equal to `peer c h`. -/
theorem wp_sig {α : Type} {Q : α → sProp 𝕄} {k : PUnit → Prog (TpuEff nD τ sig (Elt F) Λ₀ .tc) α}
    (n : Dev nD) (hn : n = peer c h) (O : CellTallies nD τ sig Unit) (W : Waits sig Unit) :
    iprop(records m ρ K ∗ owes (c : Thread nD τ) (O + tallyAt (barCell (peer c h)) () 1) W
        ∗ dutyTok ER (barCell (peer c h)) 0 h ∗ (∃ f, rowPts (F := F) c (peer c h) fullShare f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op ((.semSignal ((n : Dev nD) : Thread nD τ) barS 1)) k) Q) := by
  subst hn
  iintro ⟨#Hrec, HL, Htok, Hpay⟩
  iapply (Rounds.wp_signal 𝒱₀ ER (agRd m ρ) (c : Thread nD τ) none (dst := (peer c h : Thread nD τ)) (sem := barS) (r := 0) (d := h) (k' := 1)
    (κ := K (peer c h, 0)) (hd := by rw [duties_bar]; exact Finset.mem_univ _) (hk := amount_bar m ρ (peer c h) h) () O rfl)
  isplitr
  · iapply (inv_at m ρ K (peer c h, 0)); iexact Hrec
  isplitl [HL]; · iexact HL
  isplitl [Htok]; · iexact Htok
  isplitl [Hpay]
  · rw [payload_bar, barPay, from_peer]; iexact Hpay
  iapply (reached_at m ρ K (peer c h, 0)); iexact Hrec

/-- What device `c` owes in receive credit sits at receive cells only. -/
theorem owedRecv_pos {S : Finset (Fin 15)} {g : GSem nD τ sig} {u : Unit} (hg : 0 < owedRecv c S g u) :
    ∃ h' : Fin 15, g = recvCell (peer c h') h' := by
  by_contra hne
  have hne' : ∀ h' : Fin 15, g ≠ recvCell (peer c h') h' := fun h' e => hne ⟨h', e⟩
  have h0 : owedRecv c S g u = 0 := by
    unfold owedRecv
    rw [Finset.sum_apply, Finsupp.finset_sum_apply]
    refine Finset.sum_eq_zero fun h' _ => ?_
    rw [tallyAt_apply, if_neg (fun e => hne' h' e.1)]
  omega

/-- At its barrier wait a device owes receive credit only: receive cells, above its barrier cell. -/
theorem mayWait_bar (S : Finset (Fin 15)) :
    (levAts L lv : sProp 𝕄) ⊢ MayWait (c : Thread nD τ) (.reg barS) () (owedRecv c S) :=
  MayOwe.of_cut (L := L) (lev := lv) 1
    (fun p hp => by rw [Finset.mem_singleton.mp hp, L_tc]; exact Finset.mem_singleton_self _)
    (fun g u hg => by
      obtain ⟨h', rfl⟩ := owedRecv_pos c hg
      rw [L_tc]; exact Finset.mem_singleton_self _)
    (fun p hp => by rw [Finset.mem_singleton.mp hp]; dsimp only [lv]; rw [if_pos rfl])
    (fun g u hg => by
      obtain ⟨h', rfl⟩ := owedRecv_pos c hg
      dsimp only [lv]; rw [if_neg (recv_ne_bar h'), if_pos ⟨h', rfl⟩]; decide)

/-- The barrier wait, owing receive credit only: `c` comes back with, from every offset `d`, row `c` of `from c d`'s table. -/
theorem wp_bar_wait {α : Type} {Q : α → sProp 𝕄} {k : PUnit → Prog (TpuEff nD τ sig (Elt F) Λ₀ .tc) α}
    (S : Finset (Fin 15)) (W : Waits sig Unit) :
    iprop(records m ρ K ∗ cred (tallyAt (barCell c) () 15) ∗ owes (c : Thread nD τ) (owedRecv c S) W ∗ levAts L lv
        ∗ atPos ER (barCell c) 0 ∅ 0)
      ⊢ iprop(((owes (c : Thread nD τ) (owedRecv c S) (insert (SemLoc.reg barS, ()) W) ∗ atPos ER (barCell c) 1 ∅ 0
              ∗ bigSep Finset.univ (fun d : Fin 15 => barPay (F := F) c d)) -∗ wp frame (wpE (defs₀ (F := F)) 𝒱₀ (c : Thread nD τ) none) Set.univ (k ⟨⟩) Q)
          -∗ wp frame (wpE (defs₀ (F := F)) 𝒱₀ (c : Thread nD τ) none) Set.univ (.op ((.semWait barS 15)) k) Q) := by
  iintro ⟨#Hrec, Hc, HL, #Hlev, Hat⟩ Hk
  iapply (Rounds.wp_wait_rest_token 𝒱₀ ER (agRd m ρ) (c : Thread nD τ) none (κ := K (c, (0 : Fin 31)))
    (w := .semWait barS 15) (sm := .reg barS) (k' := 15) (Es := Set.univ)
    (wpE_semWait_eq 𝒱₀ (c : Thread nD τ) none Set.univ) (Set.mem_univ _) () (O := owedRecv c S) (W := W) (R := 0) (m := 0) (T := ∅)
    (by rw [expect_bar])) $$ [Hc HL Hat]
  · isplitr; · iapply (inv_bar m ρ K c); iexact Hrec
    isplitl [Hc]; · iexact Hc
    isplitl [HL]; · iexact HL
    isplitr; · iapply (mayWait_bar c S); iexact Hlev
    iexact Hat
  rw [rest_bar]
  iintro ⟨HL, Hat, -, Hpay⟩
  iapply Hk
  isplitl [HL]; · iexact HL
  isplitl [Hat]; · iexact Hat
  iexact Hpay

/-- The transfer at offset `h`: the lent share of the own row as its source, row `c` of `peer c h`'s table as its
    destination, a row's credit off what `c` owes; `c` gets the send cell's credit. -/
theorem wp_send_h {α : Type} {Q : α → sProp 𝕄} {k : PUnit → Prog (TpuEff nD τ sig (Elt F) Λ₀ .tc) α}
    (n : Dev nD) (hn : n = peer c h)
    {hsc : (rowM c : Memref sig (Dev.tc n : Thread nD τ).2.kind .vmem S1x256 .f32).view.ref.isScScratch = false}
    {hsrc : (rowM c : Memref sig .tc .vmem S1x256 .f32).view.WordExact} {hdst : (rowM c : Memref sig .tc .vmem S1x256 .f32).view.WordExact}
    {hsem : DmaTarget.Typed .vmem (.dma (recvS h)) (.remote (Dev.tc n : Thread nD τ) (rowM c : Memref sig .tc .vmem S1x256 .f32) (.dma (sendS h)) hsc)}
    (fd : Buf (Elt F) (gLoc (peer c h))) (O : CellTallies nD τ sig Unit) (W : Waits sig Unit) :
    iprop(records m ρ K ∗ rowPts c c (lendQ h) (gath m ρ) ∗ rowPts (peer c h) c fullShare fd
        ∗ owes (c : Thread nD τ) (O + tallyAt (recvCell (peer c h) h) () N) W
        ∗ dutyTok ER (sendCell c h) 0 (0 : Fin 15) ∗ dutyTok ER (recvCell (peer c h) h) 0 (0 : Fin 15))
      ⊢ iprop(((cred (tallyAt (sendCell c h) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op ((.enqueueDma (rowM c) (.remote (Dev.tc n : Thread nD τ) (rowM c) (.dma (sendS h)) hsc) (.dma (recvS h)) hsrc hdst hsem)) k) Q) := by
  subst hn
  unfold rowPts
  iintro ⟨#Hrec, Hsrc, Hdst, HL, HtS, HtR⟩
  iapply (Rounds.wp_send_pointsTo 𝒱₀ ER (agRd m ρ) (c : Thread nD τ) none
    (c' := (peer c h : Thread nD τ)) (src := rowM c) (dst := rowM c) (q := lendQ h) (fs := gath m ρ) (fd := fd)
    (sS := .dma (sendS h)) (sem := .dma (recvS h))
    (κ₁ := K (c, sIdx h)) (κ₂ := K (peer c h, rIdx h)) (r₁ := 0) (r₂ := 0) (d₁ := (0 : Fin 15)) (d₂ := (0 : Fin 15))
    (by rw [duties_send]; exact Finset.mem_singleton_self _) (by rw [duties_recv]; exact Finset.mem_singleton_self _)
    () () N (row_credit c) (amount_send m ρ c h 0) (amount_recv m ρ (peer c h) h 0) O rfl
    (by rw [payload_send]; exact BI.Entails.refl _)
    (by rw [payload_recv]; unfold recvPay; rw [from_peer]
        exact BIBase.Entails.of_eq (rowPts_congr (peer c h) c fullShare (row_landed m ρ (peer c h) c fd))))
  isplitr; · iapply (inv_send m ρ K c h); iexact Hrec
  isplitr; · iapply (inv_recv m ρ K (peer c h) h); iexact Hrec
  isplitl [Hsrc]; · iexact Hsrc
  isplitl [Hdst]; · iexact Hdst
  isplitl [HL]; · iexact HL
  isplitl [HtS]; · iexact HtS
  isplitr; · iapply (reached_send m ρ K c h); iexact Hrec
  isplitl [HtR]; · iexact HtR
  iapply (reached_recv m ρ K (peer c h) h); iexact Hrec

/-- The wait on receive semaphore `h`, owing nothing: row `from c h` of `c`'s table comes back, gathered. -/
theorem wp_recv_wait {α : Type} {Q : α → sProp 𝕄} {k : PUnit → Prog (TpuEff nD τ sig (Elt F) Λ₀ .tc) α}
    (W : Waits sig Unit) {src dst : Memref sig .tc .vmem S1x256 .f32} (hcr : dst.view.dmaCredit = N)
    {hsrc : src.view.WordExact} {hdst : dst.view.WordExact} :
    iprop(records m ρ K ∗ cred (tallyAt (recvCell c h) () N) ∗ owes (c : Thread nD τ) 0 W ∗ atPos ER (recvCell c h) 0 ∅ 0)
      ⊢ iprop(((owes (c : Thread nD τ) 0 (insert (SemLoc.dma (recvS h), ()) W) ∗ atPos ER (recvCell c h) 1 ∅ 0
              ∗ rowPts c («from» c h) fullShare (gath m ρ)) -∗ wp frame (wpE (defs₀ (F := F)) 𝒱₀ (c : Thread nD τ) none) Set.univ (k ⟨⟩) Q)
          -∗ wp frame (wpE (defs₀ (F := F)) 𝒱₀ (c : Thread nD τ) none) Set.univ (.op ((.waitDma2 (recvS h) src dst hsrc hdst)) k) Q) := by
  rw [← hcr]
  iintro ⟨#Hrec, Hc, HL, Hat⟩ Hk
  iapply (Rounds.wp_wait_rest_token 𝒱₀ ER (agRd m ρ) (c : Thread nD τ) none (κ := K (c, rIdx h))
    (w := .waitDma2 (recvS h) src dst hsrc hdst) (sm := .dma (recvS h)) (k' := dst.view.dmaCredit) (Es := Set.univ)
    (wpE_waitDma2_eq 𝒱₀ (c : Thread nD τ) none Set.univ) (Set.mem_univ _) () (O := 0) (W := W) (R := 0) (m := 0) (T := ∅)
    (by rw [expect_recv]; exact (zero_add _).trans hcr)) $$ [Hc HL Hat]
  · isplitr; · iapply (inv_recv m ρ K c h); iexact Hrec
    isplitl [Hc]; · iexact Hc
    isplitl [HL]; · iexact HL
    isplitr; · rw [MayWait_zero]; try iempintro
    iexact Hat
  rw [rest_recv, recvPay]
  iintro ⟨HL, Hat, -, Hpay⟩
  iapply Hk
  isplitl [HL]; · iexact HL
  isplitl [Hat]; · iexact Hat
  iexact Hpay

/-- The wait on send semaphore `h`, owing nothing: the lent share of the own row comes back. -/
theorem wp_send_wait {α : Type} {Q : α → sProp 𝕄} {k : PUnit → Prog (TpuEff nD τ sig (Elt F) Λ₀ .tc) α}
    (W : Waits sig Unit) {src dst : Memref sig .tc .vmem S1x256 .f32} (hcr : dst.view.dmaCredit = N)
    {hsrc : src.view.WordExact} {hdst : dst.view.WordExact} :
    iprop(records m ρ K ∗ cred (tallyAt (sendCell c h) () N) ∗ owes (c : Thread nD τ) 0 W ∗ atPos ER (sendCell c h) 0 ∅ 0)
      ⊢ iprop(((owes (c : Thread nD τ) 0 (insert (SemLoc.dma (sendS h), ()) W) ∗ atPos ER (sendCell c h) 1 ∅ 0
              ∗ rowPts c c (lendQ h) (gath m ρ)) -∗ wp frame (wpE (defs₀ (F := F)) 𝒱₀ (c : Thread nD τ) none) Set.univ (k ⟨⟩) Q)
          -∗ wp frame (wpE (defs₀ (F := F)) 𝒱₀ (c : Thread nD τ) none) Set.univ (.op ((.waitDma2 (sendS h) src dst hsrc hdst)) k) Q) := by
  rw [← hcr]
  iintro ⟨#Hrec, Hc, HL, Hat⟩ Hk
  iapply (Rounds.wp_wait_rest_token 𝒱₀ ER (agRd m ρ) (c : Thread nD τ) none (κ := K (c, sIdx h))
    (w := .waitDma2 (sendS h) src dst hsrc hdst) (sm := .dma (sendS h)) (k' := dst.view.dmaCredit) (Es := Set.univ)
    (wpE_waitDma2_eq 𝒱₀ (c : Thread nD τ) none Set.univ) (Set.mem_univ _) () (O := 0) (W := W) (R := 0) (m := 0) (T := ∅)
    (by rw [expect_send]; exact (zero_add _).trans hcr)) $$ [Hc HL Hat]
  · isplitr; · iapply (inv_send m ρ K c h); iexact Hrec
    isplitl [Hc]; · iexact Hc
    isplitl [HL]; · iexact HL
    isplitr; · rw [MayWait_zero]; try iempintro
    iexact Hat
  rw [rest_send, sendPay]
  iintro ⟨HL, Hat, -, Hpay⟩
  iapply Hk
  isplitl [HL]; · iexact HL
  isplitl [Hat]; · iexact Hat
  iexact Hpay

/-- An own cell whose one round is over is closed: its counter stands at zero for good. -/
theorem close_send : iprop(records m ρ K ∗ atPos ER (sendCell c h) 1 ∅ 0) ⊢ (|={Set.univ}=> semVal (sendCell c h) 0 : sProp 𝕄) := by
  iintro ⟨#Hrec, Hat⟩
  iapply (Rounds.cell_close ER (agRd m ρ) (g := sendCell c h) (κ := K (c, sIdx h)) (Es := Set.univ) (Set.mem_univ _) (fun hu => hu) (R := 1)
    (duties_later m ρ (sendCell c h)))
  isplitr; · iapply (inv_send m ρ K c h); iexact Hrec
  iexact Hat
theorem close_recv : iprop(records m ρ K ∗ atPos ER (recvCell c h) 1 ∅ 0) ⊢ (|={Set.univ}=> semVal (recvCell c h) 0 : sProp 𝕄) := by
  iintro ⟨#Hrec, Hat⟩
  iapply (Rounds.cell_close ER (agRd m ρ) (g := recvCell c h) (κ := K (c, rIdx h)) (Es := Set.univ) (Set.mem_univ _) (fun hu => hu) (R := 1)
    (duties_later m ρ (recvCell c h)))
  isplitr; · iapply (inv_recv m ρ K c h); iexact Hrec
  iexact Hat

/-- info: 'Cert.KernelIdeal.AG.inv_at' depends on axioms: [propext, Classical.choice, Quot.sound] -/
#guard_msgs in #print axioms inv_at

/-- info: 'Cert.KernelIdeal.AG.reached_at' depends on axioms: [propext, Classical.choice, Quot.sound] -/
#guard_msgs in #print axioms reached_at

/-- info: 'Cert.KernelIdeal.AG.inv_bar' depends on axioms: [propext, Classical.choice, Quot.sound] -/
#guard_msgs in #print axioms inv_bar

/-- info: 'Cert.KernelIdeal.AG.reached_bar' depends on axioms: [propext, Classical.choice, Quot.sound] -/
#guard_msgs in #print axioms reached_bar

/-- info: 'Cert.KernelIdeal.AG.inv_send' depends on axioms: [propext, Classical.choice, Quot.sound] -/
#guard_msgs in #print axioms inv_send

/-- info: 'Cert.KernelIdeal.AG.reached_send' depends on axioms: [propext, Classical.choice, Quot.sound] -/
#guard_msgs in #print axioms reached_send

/-- info: 'Cert.KernelIdeal.AG.inv_recv' depends on axioms: [propext, Classical.choice, Quot.sound] -/
#guard_msgs in #print axioms inv_recv

/-- info: 'Cert.KernelIdeal.AG.reached_recv' depends on axioms: [propext, Classical.choice, Quot.sound] -/
#guard_msgs in #print axioms reached_recv

/-- info: 'Cert.KernelIdeal.AG.wp_sig' depends on axioms: [propext, Classical.choice, Quot.sound] -/
#guard_msgs in #print axioms wp_sig

/-- info: 'Cert.KernelIdeal.AG.owedRecv_pos' depends on axioms: [propext, Classical.choice, Quot.sound] -/
#guard_msgs in #print axioms owedRecv_pos

/-- info: 'Cert.KernelIdeal.AG.mayWait_bar' depends on axioms: [propext, Classical.choice, Quot.sound] -/
#guard_msgs in #print axioms mayWait_bar

/-- info: 'Cert.KernelIdeal.AG.wp_bar_wait' depends on axioms: [propext, Classical.choice, Quot.sound] -/
#guard_msgs in #print axioms wp_bar_wait

/-- info: 'Cert.KernelIdeal.AG.wp_send_h' depends on axioms: [propext, Classical.choice, Quot.sound] -/
#guard_msgs in #print axioms wp_send_h

/-- info: 'Cert.KernelIdeal.AG.wp_recv_wait' depends on axioms: [propext, Classical.choice, Quot.sound] -/
#guard_msgs in #print axioms wp_recv_wait

/-- info: 'Cert.KernelIdeal.AG.wp_send_wait' depends on axioms: [propext, Classical.choice, Quot.sound] -/
#guard_msgs in #print axioms wp_send_wait

/-- info: 'Cert.KernelIdeal.AG.close_send' depends on axioms: [propext, Classical.choice, Quot.sound] -/
#guard_msgs in #print axioms close_send

/-- info: 'Cert.KernelIdeal.AG.close_recv' depends on axioms: [propext, Classical.choice, Quot.sound] -/
#guard_msgs in #print axioms close_recv

end Steps

end Cert.KernelIdeal.AG

end
-- ==== Proof.KernelIdeal.BodyAux.lean ====
import proofs.«900607_g7700000000000608_dist_sum_ax0_shard0_i_m512_n256_v7x_i16_bf16_1_alg».proof.Proof.KernelIdeal.Steps

/-!
Small facts the body's run leans on: one element out of a big separating conjunction; the other fifteen devices counted
either way round; a device's thirty own cells as its send cells and its receive cells; which semaphore a slot of a
semaphore array names; what the input window holds when the body starts; what the device owes going in and coming out.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Big separating conjunctions -/

/-- One element out of a big separating conjunction. -/
theorem bigSep_take {I : Type} [DecidableEq I] {S : Finset I} {i : I} (hi : i ∈ S) (Φ : I → sProp 𝕄) :
    bigSep S Φ = iprop(Φ i ∗ bigSep (S.erase i) Φ) := bigSep_erase hi

/-- Offset `d` backwards is offset `14 - d` forwards. -/
theorem peer_rev (c : Dev nD) (d : Fin 15) : peer c (Fin.rev d) = «from» c d := by revert c d; decide

/-- The other fifteen devices, counted by who sends to `c` or by whom `c` sends to: the same fifteen. -/
theorem others_reindex (c : Dev nD) (Φ : Dev nD → sProp 𝕄) :
    bigSep Finset.univ (fun d : Fin 15 => Φ («from» c d)) = bigSep Finset.univ (fun h : Fin 15 => Φ (peer c h)) := by
  refine (bigSep_congr fun d _ => ?_).trans (bigSep_univ_equiv (Fin.revPerm : Fin 15 ≃ Fin 15) (fun h : Fin 15 => Φ (peer c h))).symm
  show Φ («from» c d) = Φ (peer c (Fin.rev d))
  rw [peer_rev]

/-- A device's thirty own cells are its fifteen send cells and its fifteen receive cells. -/
theorem own_cells_split (c : Dev nD) (Φ : GSem nD τ sig → sProp 𝕄) :
    bigSep Finset.univ (fun k : Fin 30 => Φ ((c : Thread nD τ), osem k))
      = iprop(bigSep Finset.univ (fun h : Fin 15 => Φ (sendCell c h)) ∗ bigSep Finset.univ (fun h : Fin 15 => Φ (recvCell c h))) := by
  rw [bigSep_univ_equiv (finSumFinEquiv : Fin 15 ⊕ Fin 15 ≃ Fin 30) (fun k : Fin 30 => Φ ((c : Thread nD τ), osem k)), bigSep_univ_sum]
  have hs : ∀ h : Fin 15, (((c : Thread nD τ), osem ((finSumFinEquiv : Fin 15 ⊕ Fin 15 ≃ Fin 30) (Sum.inl h))) : GSem nD τ sig) = sendCell c h :=
    fun h => congrArg (fun q => ((c : Thread nD τ), SemLoc.dma q)) (Fin.ext (by rw [finSumFinEquiv_apply_left]; rfl))
  have hr : ∀ h : Fin 15, (((c : Thread nD τ), osem ((finSumFinEquiv : Fin 15 ⊕ Fin 15 ≃ Fin 30) (Sum.inr h))) : GSem nD τ sig) = recvCell c h :=
    fun h => congrArg (fun q => ((c : Thread nD τ), SemLoc.dma q))
      (Fin.ext (by rw [finSumFinEquiv_apply_right]; show 2 + (15 + h.val) = 17 + h.val; omega))
  rw [bigSep_congr fun h _ => congrArg Φ (hs h), bigSep_congr fun h _ => congrArg Φ (hr h)]
  rfl

/-! ## The semaphore arrays -/

/-- Of fifteen consecutive semaphores from `base`, the one-slot slice at `h`, squeezed, names semaphore `base + h`. -/
theorem slot_val (base : ℕ) (hb : base + S15.numel ≤ 32) (h : Fin 15)
    (inb : ∀ a, (![h.val] : Fin 1 → Nat) a + S1.size a ≤ S15.size a) :
    ((((SemArray.consecutive base S15 hb : DmaSems sig S15).slice (Rect.unit (s := S15) ![h.val] S1.size inb)).squeeze S_ squeezes_S1_S_).sem).val
      = base + h.val := by
  have key : ∀ x : S1.Idx, (S15.rowMajor ((Rect.unit (s := S15) ![h.val] S1.size inb).emb x)).val = h.val := by
    intro x
    rw [Shape.rowMajor_val_one, Rect.emb_apply]
    have hx : (x 0).val < 1 := (x 0).isLt
    show h.val + 1 * (x 0).val = h.val
    omega
  exact congrArg (base + ·) (key _)

/-- Slot `h` of the send array is send semaphore `h`; slot `h` of the receive array is receive semaphore `h`. -/
theorem send_sem_eq (h : Fin 15) (inb : ∀ a, (![h.val] : Fin 1 → Nat) a + S1.size a ≤ S15.size a) :
    ((cc0_scratch1.slice (Rect.unit (s := S15) ![h.val] S1.size inb)).squeeze S_ squeezes_S1_S_).sem = sendS h :=
  Fin.ext (slot_val 2 hcc0_scratch1 h inb)
theorem recv_sem_eq (h : Fin 15) (inb : ∀ a, (![h.val] : Fin 1 → Nat) a + S1.size a ≤ S15.size a) :
    ((cc0_scratch2.slice (Rect.unit (s := S15) ![h.val] S1.size inb)).squeeze S_ squeezes_S1_S_).sem = recvS h :=
  Fin.ext (slot_val 17 hcc0_scratch2 h inb)

/-! ## What the pipeline hands the body -/

/-- What the pipeline hands the body for the input window is the staged block. -/
theorem before_x (c : Dev nD) (d) : (dats m ρ 0 c).before (0 : Fin 2) t₀ d = xstg m ρ c := by
  unfold Dat.before
  rw [if_pos (show (cfg0.win (0 : Fin 2)).fetch t₀ = true from rfl)]
  rfl

/-- What the device owes going into the point, and coming out of it: the launch's tallies, then nothing, over whatever
    waits are recorded. -/
theorem owesAt_eq (c : Dev nD) (t : Fin (cfg0.N + 1)) :
    (dats m ρ 0 c).owesAt () t = (iprop(∃ W : Waits sig Unit, owes (c : Thread nD τ) ((dats m ρ 0 c).owed t) W) : sProp 𝕄) := by
  have h₁ : (dats m ρ 0 c).owesAt () t ⊢ (iprop(∃ W : Waits sig Unit, owes (c : Thread nD τ) ((dats m ρ 0 c).owed t) W) : sProp 𝕄) := by
    unfold Dat.owesAt Pipeline.owesWithin
    iintro ⟨%W, %hW, H⟩; iexists W; iexact H
  have h₂ : (iprop(∃ W : Waits sig Unit, owes (c : Thread nD τ) ((dats m ρ 0 c).owed t) W) : sProp 𝕄) ⊢ (dats m ρ 0 c).owesAt () t := by
    unfold Dat.owesAt Pipeline.owesWithin
    iintro ⟨%W, H⟩; iexists W; isplitr
    · ipureintro; exact fun _ _ => Or.inl trivial
    · iexact H
  exact BI.equiv_iff.mp ⟨h₁, h₂⟩
theorem owesAt_in (c : Dev nD) :
    (dats m ρ 0 c).owesAt () t₀.castSucc = (iprop(∃ W : Waits sig Unit, owes (c : Thread nD τ) (O₀ c) W) : sProp 𝕄) :=
  owesAt_eq m ρ c t₀.castSucc
theorem owesAt_out (c : Dev nD) :
    (dats m ρ 0 c).owesAt () t₀.succ = (iprop(∃ W : Waits sig Unit, owes (c : Thread nD τ) 0 W) : sProp 𝕄) :=
  owesAt_eq m ρ c t₀.succ

/-- info: 'Cert.KernelIdeal.AG.bigSep_take' depends on axioms: [propext, Classical.choice, Quot.sound] -/
#guard_msgs in #print axioms bigSep_take
/-- info: 'Cert.KernelIdeal.AG.others_reindex' depends on axioms: [propext, Classical.choice, Quot.sound] -/
#guard_msgs in #print axioms others_reindex
/-- info: 'Cert.KernelIdeal.AG.own_cells_split' depends on axioms: [propext, Classical.choice, Quot.sound] -/
#guard_msgs in #print axioms own_cells_split
/-- info: 'Cert.KernelIdeal.AG.send_sem_eq' depends on axioms: [propext, Classical.choice, Quot.sound] -/
#guard_msgs in #print axioms send_sem_eq
/-- info: 'Cert.KernelIdeal.AG.recv_sem_eq' depends on axioms: [propext, Classical.choice, Quot.sound] -/
#guard_msgs in #print axioms recv_sem_eq
/-- info: 'Cert.KernelIdeal.AG.before_x' depends on axioms: [propext, Classical.choice, Quot.sound] -/
#guard_msgs in #print axioms before_x
/-- info: 'Cert.KernelIdeal.AG.owesAt_in' depends on axioms: [propext, Classical.choice, Quot.sound] -/
#guard_msgs in #print axioms owesAt_in
/-- info: 'Cert.KernelIdeal.AG.owesAt_out' depends on axioms: [propext, Classical.choice, Quot.sound] -/
#guard_msgs in #print axioms owesAt_out

end Cert.KernelIdeal.AG

end
-- ==== Proof.KernelIdeal.BodyAuxB.lean ====
import proofs.«900607_g7700000000000608_dist_sum_ax0_shard0_i_m512_n256_v7x_i16_bf16_1_alg».proof.Proof.KernelIdeal.Steps

/-!
One offset's step of each kind — the barrier signal, the transfer, the wait for a landing, the wait for a source —
stated over what the offsets still to come hold and what the offsets done have left: the first offset still to come
is taken out, stepped, and put with those done.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The offsets still to come, and those done -/

/-- The offsets from `k` on. -/
def rem (k : ℕ) : Finset (Fin 15) := Finset.univ.filter fun h => k ≤ h.val
/-- The offsets before `k`. -/
def don (k : ℕ) : Finset (Fin 15) := Finset.univ.filter fun h => h.val < k

theorem rem_zero : rem 0 = Finset.univ := by
  ext h; simp only [rem, Finset.mem_filter, Finset.mem_univ, true_and, Nat.zero_le]
theorem rem_end : rem 15 = ∅ := by
  ext h; simp only [rem, Finset.mem_filter, Finset.mem_univ, true_and, Finset.notMem_empty, iff_false]; omega
theorem don_zero : don 0 = ∅ := by
  ext h; simp only [don, Finset.mem_filter, Finset.mem_univ, true_and, Finset.notMem_empty, iff_false]; omega
theorem don_end : don 15 = Finset.univ := by
  ext h; simp only [don, Finset.mem_filter, Finset.mem_univ, true_and, iff_true]; exact h.isLt
theorem rem_succ (k : ℕ) (hk : k < 15) : rem k = insert (⟨k, hk⟩ : Fin 15) (rem (k + 1)) := by
  ext h; simp only [rem, Finset.mem_filter, Finset.mem_univ, true_and, Finset.mem_insert, Fin.ext_iff]; omega
theorem not_mem_rem (k : ℕ) (hk : k < 15) : (⟨k, hk⟩ : Fin 15) ∉ rem (k + 1) := by
  simp only [rem, Finset.mem_filter, Finset.mem_univ, true_and]; omega
theorem don_succ (k : ℕ) (hk : k < 15) : don (k + 1) = insert (⟨k, hk⟩ : Fin 15) (don k) := by
  ext h; simp only [don, Finset.mem_filter, Finset.mem_univ, true_and, Finset.mem_insert, Fin.ext_iff]; omega
theorem not_mem_don (k : ℕ) (hk : k < 15) : (⟨k, hk⟩ : Fin 15) ∉ don k := by
  simp only [don, Finset.mem_filter, Finset.mem_univ, true_and]; omega

/-- The first of the offsets still to come, and the others. -/
theorem bigSep_rem (k : ℕ) (hk : k < 15) (Φ : Fin 15 → sProp 𝕄) :
    bigSep (rem k) Φ = iprop(Φ ⟨k, hk⟩ ∗ bigSep (rem (k + 1)) Φ) := by
  rw [rem_succ k hk, bigSep_insert (not_mem_rem k hk)]; rfl
/-- The last of the offsets done, and those before it. -/
theorem bigSep_don (k : ℕ) (hk : k < 15) (Φ : Fin 15 → sProp 𝕄) :
    bigSep (don (k + 1)) Φ = iprop(Φ ⟨k, hk⟩ ∗ bigSep (don k) Φ) := by
  rw [don_succ k hk, bigSep_insert (not_mem_don k hk)]; rfl

theorem owedBar_rem (c : Dev nD) (k : ℕ) (hk : k < 15) :
    owedBar c (rem k) = owedBar c (rem (k + 1)) + tallyAt (barCell (peer c ⟨k, hk⟩)) () 1 := by
  unfold owedBar; rw [rem_succ k hk, Finset.sum_insert (not_mem_rem k hk), add_comm]
theorem owedRecv_rem (c : Dev nD) (k : ℕ) (hk : k < 15) :
    owedRecv c (rem k) = owedRecv c (rem (k + 1)) + tallyAt (recvCell (peer c ⟨k, hk⟩) ⟨k, hk⟩) () N := by
  unfold owedRecv; rw [rem_succ k hk, Finset.sum_insert (not_mem_rem k hk), add_comm]

/-! ## One offset's step of each kind, over what the offsets still to come hold -/

section StepsB
variable (K : Dev nD × Fin 31 → ℕ) (c : Dev nD)

/-- The barrier signal at offset `k`: the first of the signals still to be sent. -/
theorem sig_step (k k1 : ℕ) (hk : k < 15) (e : k1 = k + 1) (n : Dev nD) (hn : n = peer c ⟨k, hk⟩)
    (f0 : Buf (Elt F) (gLoc c)) (W : Waits sig Unit)
    {α : Type} {Q : α → sProp 𝕄} {k' : PUnit → Prog (TpuEff nD τ sig (Elt F) Λ₀ .tc) α} :
    iprop(records m ρ K
        ∗ owes (c : Thread nD τ) (owedRecv c (rem 0) + owedBar c (rem k)) W
        ∗ bigSep (rem k) (fun h => dutyTok ER (barCell (peer c h)) 0 h)
        ∗ bigSep (rem k) (fun h => rowPts (F := F) c (peer c h) fullShare f0))
      ⊢ iprop(((owes (c : Thread nD τ) (owedRecv c (rem 0) + owedBar c (rem k1)) W
              ∗ bigSep (rem k1) (fun h => dutyTok ER (barCell (peer c h)) 0 h)
              ∗ bigSep (rem k1) (fun h => rowPts (F := F) c (peer c h) fullShare f0))
            -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal ((n : Dev nD) : Thread nD τ) barS 1) k') Q) := by
  subst e
  rw [bigSep_rem k hk, bigSep_rem k hk, owedBar_rem c k hk, ← add_assoc]
  iintro ⟨#Hrec, Howe, ⟨Ht, HTB⟩, ⟨Hrow, HRW⟩⟩ Hk
  iapply (wp_sig m ρ K c ⟨k, hk⟩ n hn (owedRecv c (rem 0) + owedBar c (rem (k + 1))) W) $$ [Howe Ht Hrow]
  · isplitr; · iexact Hrec
    isplitl [Howe]; · iexact Howe
    isplitl [Ht]; · iexact Ht
    iexists f0; iexact Hrow
  iintro Howe
  iapply Hk
  isplitl [Howe]; · iexact Howe
  isplitl [HTB]; · iexact HTB
  iexact HRW

/-- The transfer at offset `k`: the first of the transfers still to be started. -/
theorem send_step (k k1 : ℕ) (hk : k < 15) (e : k1 = k + 1) (n : Dev nD) (hn : n = peer c ⟨k, hk⟩)
    {hsc : (rowM c : Memref sig (Dev.tc n : Thread nD τ).2.kind .vmem S1x256 .f32).view.ref.isScScratch = false}
    {hsrc : (rowM c : Memref sig .tc .vmem S1x256 .f32).view.WordExact} {hdst : (rowM c : Memref sig .tc .vmem S1x256 .f32).view.WordExact}
    {hsem : DmaTarget.Typed .vmem (.dma (recvS ⟨k, hk⟩)) (.remote (Dev.tc n : Thread nD τ) (rowM c : Memref sig .tc .vmem S1x256 .f32) (.dma (sendS ⟨k, hk⟩)) hsc)}
    (W : Waits sig Unit)
    {α : Type} {Q : α → sProp 𝕄} {k' : PUnit → Prog (TpuEff nD τ sig (Elt F) Λ₀ .tc) α} :
    iprop(records m ρ K
        ∗ owes (c : Thread nD τ) (owedRecv c (rem k)) W
        ∗ bigSep (rem k) (fun h => dutyTok ER (sendCell c h) 0 (0 : Fin 15))
        ∗ bigSep (rem k) (fun h => dutyTok ER (recvCell (peer c h) h) 0 (0 : Fin 15))
        ∗ bigSep (rem k) (fun h => rowPts c c (lendQ h) (gath m ρ))
        ∗ bigSep (rem k) (fun h => iprop(∃ fd, rowPts (F := F) (peer c h) c fullShare fd))
        ∗ bigSep (don k) (fun h => (cred (tallyAt (sendCell c h) () N) : sProp 𝕄)))
      ⊢ iprop(((owes (c : Thread nD τ) (owedRecv c (rem k1)) W
              ∗ bigSep (rem k1) (fun h => dutyTok ER (sendCell c h) 0 (0 : Fin 15))
              ∗ bigSep (rem k1) (fun h => dutyTok ER (recvCell (peer c h) h) 0 (0 : Fin 15))
              ∗ bigSep (rem k1) (fun h => rowPts c c (lendQ h) (gath m ρ))
              ∗ bigSep (rem k1) (fun h => iprop(∃ fd, rowPts (F := F) (peer c h) c fullShare fd))
              ∗ bigSep (don k1) (fun h => (cred (tallyAt (sendCell c h) () N) : sProp 𝕄)))
            -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma (rowM c) (.remote (Dev.tc n : Thread nD τ) (rowM c) (.dma (sendS ⟨k, hk⟩)) hsc) (.dma (recvS ⟨k, hk⟩)) hsrc hdst hsem) k') Q) := by
  subst e
  rw [bigSep_rem k hk, bigSep_rem k hk, bigSep_rem k hk, bigSep_rem k hk, bigSep_don k hk, owedRecv_rem c k hk]
  iintro ⟨#Hrec, Howe, ⟨Hts, HTS⟩, ⟨Htr, HTR⟩, ⟨Hl, HLD⟩, ⟨⟨%fd, Hd⟩, HDST⟩, HCS⟩ Hk
  iapply (wp_send_h m ρ K c ⟨k, hk⟩ n hn (hsc := hsc) (hsrc := hsrc) (hdst := hdst) (hsem := hsem) fd (owedRecv c (rem (k + 1))) W) $$ [Howe Hts Htr Hl Hd]
  · isplitr; · iexact Hrec
    isplitl [Hl]; · iexact Hl
    isplitl [Hd]; · iexact Hd
    isplitl [Howe]; · iexact Howe
    isplitl [Hts]; · iexact Hts
    iexact Htr
  iintro ⟨Hc, Howe⟩
  iapply Hk
  isplitl [Howe]; · iexact Howe
  isplitl [HTS]; · iexact HTS
  isplitl [HTR]; · iexact HTR
  isplitl [HLD]; · iexact HLD
  isplitl [HDST]; · iexact HDST
  isplitl [Hc]; · iexact Hc
  iexact HCS

/-- The wait on receive semaphore `k`: the first of the landings still awaited. -/
theorem recv_wait_step (k k1 : ℕ) (hk : k < 15) (e : k1 = k + 1)
    {src dst : Memref sig .tc .vmem S1x256 .f32} (hcr : dst.view.dmaCredit = N)
    {hsrc : src.view.WordExact} {hdst : dst.view.WordExact}
    {α : Type} {Q : α → sProp 𝕄} {k' : PUnit → Prog (TpuEff nD τ sig (Elt F) Λ₀ .tc) α} :
    iprop(records m ρ K
        ∗ (∃ W, owes (c : Thread nD τ) 0 W)
        ∗ bigSep (rem k) (fun h => (cred (tallyAt (recvCell c h) () N) : sProp 𝕄))
        ∗ bigSep (rem k) (fun h => atPos ER (recvCell c h) 0 ∅ 0)
        ∗ bigSep (don k) (fun h => atPos ER (recvCell c h) 1 ∅ 0)
        ∗ bigSep (don k) (fun h => rowPts c («from» c h) fullShare (gath m ρ)))
      ⊢ iprop((((∃ W, owes (c : Thread nD τ) 0 W)
              ∗ bigSep (rem k1) (fun h => (cred (tallyAt (recvCell c h) () N) : sProp 𝕄))
              ∗ bigSep (rem k1) (fun h => atPos ER (recvCell c h) 0 ∅ 0)
              ∗ bigSep (don k1) (fun h => atPos ER (recvCell c h) 1 ∅ 0)
              ∗ bigSep (don k1) (fun h => rowPts c («from» c h) fullShare (gath m ρ)))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (recvS ⟨k, hk⟩) src dst hsrc hdst) k') Q) := by
  subst e
  rw [bigSep_rem k hk, bigSep_rem k hk, bigSep_don k hk, bigSep_don k hk]
  iintro ⟨#Hrec, ⟨%W, Howe⟩, ⟨Hc, HCR⟩, ⟨Hp, HPR⟩, HPD, HRD⟩ Hk
  iapply (wp_recv_wait m ρ K c ⟨k, hk⟩ W hcr (hsrc := hsrc) (hdst := hdst)) $$ [Howe Hc Hp]
  · isplitr; · iexact Hrec
    isplitl [Hc]; · iexact Hc
    isplitl [Howe]; · iexact Howe
    iexact Hp
  iintro ⟨Howe, Hp, Hrow⟩
  iapply Hk
  isplitl [Howe]; · iexists _; iexact Howe
  isplitl [HCR]; · iexact HCR
  isplitl [HPR]; · iexact HPR
  isplitl [Hp HPD]; · isplitl [Hp]; · iexact Hp
                      iexact HPD
  isplitl [Hrow]; · iexact Hrow
  iexact HRD

/-- The wait on send semaphore `k`: the first of the sources still awaited. -/
theorem send_wait_step (k k1 : ℕ) (hk : k < 15) (e : k1 = k + 1)
    {src dst : Memref sig .tc .vmem S1x256 .f32} (hcr : dst.view.dmaCredit = N)
    {hsrc : src.view.WordExact} {hdst : dst.view.WordExact}
    {α : Type} {Q : α → sProp 𝕄} {k' : PUnit → Prog (TpuEff nD τ sig (Elt F) Λ₀ .tc) α} :
    iprop(records m ρ K
        ∗ (∃ W, owes (c : Thread nD τ) 0 W)
        ∗ bigSep (rem k) (fun h => (cred (tallyAt (sendCell c h) () N) : sProp 𝕄))
        ∗ bigSep (rem k) (fun h => atPos ER (sendCell c h) 0 ∅ 0)
        ∗ bigSep (don k) (fun h => atPos ER (sendCell c h) 1 ∅ 0)
        ∗ bigSep (don k) (fun h => rowPts c c (lendQ h) (gath m ρ)))
      ⊢ iprop((((∃ W, owes (c : Thread nD τ) 0 W)
              ∗ bigSep (rem k1) (fun h => (cred (tallyAt (sendCell c h) () N) : sProp 𝕄))
              ∗ bigSep (rem k1) (fun h => atPos ER (sendCell c h) 0 ∅ 0)
              ∗ bigSep (don k1) (fun h => atPos ER (sendCell c h) 1 ∅ 0)
              ∗ bigSep (don k1) (fun h => rowPts c c (lendQ h) (gath m ρ)))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (sendS ⟨k, hk⟩) src dst hsrc hdst) k') Q) := by
  subst e
  rw [bigSep_rem k hk, bigSep_rem k hk, bigSep_don k hk, bigSep_don k hk]
  iintro ⟨#Hrec, ⟨%W, Howe⟩, ⟨Hc, HCR⟩, ⟨Hp, HPR⟩, HPD, HRD⟩ Hk
  iapply (wp_send_wait m ρ K c ⟨k, hk⟩ W hcr (hsrc := hsrc) (hdst := hdst)) $$ [Howe Hc Hp]
  · isplitr; · iexact Hrec
    isplitl [Hc]; · iexact Hc
    isplitl [Howe]; · iexact Howe
    iexact Hp
  iintro ⟨Howe, Hp, Hrow⟩
  iapply Hk
  isplitl [Howe]; · iexists _; iexact Howe
  isplitl [HCR]; · iexact HCR
  isplitl [HPR]; · iexact HPR
  isplitl [Hp HPD]; · isplitl [Hp]; · iexact Hp
                      iexact HPD
  isplitl [Hrow]; · iexact Hrow
  iexact HRD

end StepsB

/-- info: 'Cert.KernelIdeal.AG.send_wait_step' depends on axioms: [propext, Classical.choice, Quot.sound] -/
#guard_msgs in #print axioms send_wait_step

end Cert.KernelIdeal.AG

end
-- ==== Proof.KernelIdeal.BodyAuxC.lean ====
import proofs.«900607_g7700000000000608_dist_sum_ax0_shard0_i_m512_n256_v7x_i16_bf16_1_alg».proof.Proof.KernelIdeal.Steps
import proofs.«900607_g7700000000000608_dist_sum_ax0_shard0_i_m512_n256_v7x_i16_bf16_1_alg».proof.Proof.KernelIdeal.BodyAux

/-!
The rows' bookkeeping round the body's local steps, and closing the own cells: entailments with no program in them.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Bookkeeping
variable (K : Dev nD × Fin 31 → ℕ) (c : Dev nD)

/-- The table whole is the own row and the fifteen rows at the offsets signalled to. -/
theorem table_peers (f : Buf (Elt F) (gLoc c)) :
    ((gLoc c ↦{fullShare} f) : sProp 𝕄)
      = iprop(rowPts (F := F) c c fullShare f ∗ bigSep Finset.univ (fun h : Fin 15 => rowPts (F := F) c (peer c h) fullShare f)) :=
  (whole_eq_rows c fullShare f).trans (rows_peers c _)

/-- What the barrier hands over, counted by the offsets sent at: for each, some contents of row `c` of that device's table. -/
theorem bar_rows :
    bigSep Finset.univ (fun d : Fin 15 => barPay (F := F) c d)
      ⊢ bigSep Finset.univ (fun h : Fin 15 => iprop(∃ fd, rowPts (F := F) (peer c h) c fullShare fd)) := by
  have e := others_reindex (F := F) c (fun j : Dev nD => (iprop(∃ f, rowPts (F := F) j c fullShare f) : sProp 𝕄))
  unfold barPay
  exact Entails.of_eq e

/-- The own row, once written, cut into the half kept, the fifteen shares lent and the last piece, all over the gathered table. -/
theorem own_row_cut (f : Buf (Elt F) (gLoc c)) :
    rowPts (F := F) c c fullShare (((gM : Memref sig .tc .vmem S16x256 .f32).access (ownRect c) : View sig .tc _ _ _).write (Elt F) f (k0_pay1 (xstg m ρ c)) Finset.univ)
      ⊢ iprop(rowPts c c keepQ (gath m ρ) ∗ (bigSep Finset.univ fun h : Fin 15 => rowPts c c (lendQ h) (gath m ρ)) ∗ rowPts c c (restQ 15) (gath m ρ)) := by
  rw [rowPts_congr c c fullShare (own_row_written m ρ c f)]
  exact (rowPts_cut c c (gath m ρ)).1

/-- The other fifteen rows, each at a share, are their left halves and their right halves. -/
theorem others_halves (q : PosShare TreeShare) (g : Buf (Elt F) (gLoc c)) :
    bigSep Finset.univ (fun h : Fin 15 => rowPts (F := F) c («from» c h) q g)
      = iprop(bigSep Finset.univ (fun h : Fin 15 => rowPts (F := F) c («from» c h) q.left g)
          ∗ bigSep Finset.univ (fun h : Fin 15 => rowPts (F := F) c («from» c h) q.right g)) :=
  (bigSep_congr fun h _ => rowPts_halves_eq c («from» c h) q g).trans (bigSep_sep _ _ _)

/-- The table at a share is the own row and the other fifteen rows at that share. -/
theorem table_froms (q : PosShare TreeShare) (g : Buf (Elt F) (gLoc c)) :
    ((gLoc c ↦{q} g) : sProp 𝕄)
      = iprop(rowPts (F := F) c c q g ∗ bigSep Finset.univ (fun h : Fin 15 => rowPts (F := F) c («from» c h) q g)) :=
  (whole_eq_rows c q g).trans (rows_froms c _)

/-- The kept half of the own row and the other fifteen rows landed: the whole table at the kept share, and the others' right halves. -/
theorem table_read_share :
    iprop(rowPts c c keepQ (gath m ρ) ∗ bigSep Finset.univ (fun h : Fin 15 => rowPts c («from» c h) fullShare (gath m ρ)))
      ⊢ iprop((gLoc c ↦{keepQ} gath m ρ) ∗ bigSep Finset.univ (fun h : Fin 15 => rowPts c («from» c h) fullShare.right (gath m ρ))) := by
  rw [others_halves c fullShare (gath m ρ), table_froms c keepQ (gath m ρ)]
  iintro ⟨HK, HL, HR⟩
  isplitl [HK HL]
  · isplitl [HK]
    · iexact HK
    · iexact HL
  · iexact HR

/-- All shares back: the table whole over the gathered contents. -/
theorem table_whole_back :
    iprop((gLoc c ↦{keepQ} gath m ρ) ∗ bigSep Finset.univ (fun h : Fin 15 => rowPts c («from» c h) fullShare.right (gath m ρ))
        ∗ (bigSep Finset.univ fun h : Fin 15 => rowPts c c (lendQ h) (gath m ρ)) ∗ rowPts c c (restQ 15) (gath m ρ))
      ⊢ ((gLoc c ↦{fullShare} gath m ρ) : sProp 𝕄) := by
  rw [table_froms c fullShare (gath m ρ), others_halves c fullShare (gath m ρ), table_froms c keepQ (gath m ρ)]
  iintro ⟨⟨HK, HL⟩, HR, HLend, HRest⟩
  isplitl [HK HLend HRest]
  · iapply (rowPts_cut c c (gath m ρ)).2
    isplitl [HK]
    · iexact HK
    · isplitl [HLend]
      · iexact HLend
      · iexact HRest
  · isplitl [HL]
    · iexact HL
    · iexact HR

/-- A persistent assertion beside a big separating conjunction serves every summand. -/
theorem bigSep_pers_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The thirty own cells, each one round over, closed. -/
theorem close_all :
    iprop(records m ρ K ∗ bigSep Finset.univ (fun h : Fin 15 => atPos ER (sendCell c h) 1 ∅ 0)
        ∗ bigSep Finset.univ (fun h : Fin 15 => atPos ER (recvCell c h) 1 ∅ 0))
      ⊢ (|={Set.univ}=> bigSep Finset.univ (fun k : Fin 30 => semVal ((c : Thread nD τ), osem k) 0) : sProp 𝕄) := by
  rw [own_cells_split (F := F) c (fun g => (semVal g 0 : sProp 𝕄))]
  iintro ⟨#HR, HS, HV⟩
  imod (show iprop(records m ρ K ∗ bigSep Finset.univ (fun h : Fin 15 => (atPos ER (sendCell c h) 1 ∅ 0 : sProp 𝕄)))
      ⊢ (|={Set.univ}=> bigSep Finset.univ (fun h : Fin 15 => semVal (sendCell c h) 0) : sProp 𝕄) from
        (bigSep_pers_each (R := records m ρ K) fun h _ => close_send m ρ K c h).trans (bigSep_fupd _ _)) $$ [HS] with HS'
  · isplitr; · iexact HR
    iexact HS
  imod (show iprop(records m ρ K ∗ bigSep Finset.univ (fun h : Fin 15 => (atPos ER (recvCell c h) 1 ∅ 0 : sProp 𝕄)))
      ⊢ (|={Set.univ}=> bigSep Finset.univ (fun h : Fin 15 => semVal (recvCell c h) 0) : sProp 𝕄) from
        (bigSep_pers_each (R := records m ρ K) fun h _ => close_recv m ρ K c h).trans (bigSep_fupd _ _)) $$ [HV] with HV'
  · isplitr; · iexact HR
    iexact HV
  imodintro
  isplitl [HS']; · iexact HS'
  iexact HV'

end Bookkeeping

end Cert.KernelIdeal.AG

end
-- ==== Proof.KernelIdeal.Body.lean ====
import proofs.«900607_g7700000000000608_dist_sum_ax0_shard0_i_m512_n256_v7x_i16_bf16_1_alg».proof.Proof.KernelIdeal.Steps
import proofs.«900607_g7700000000000608_dist_sum_ax0_shard0_i_m512_n256_v7x_i16_bf16_1_alg».proof.Proof.KernelIdeal.BodyAux
import proofs.«900607_g7700000000000608_dist_sum_ax0_shard0_i_m512_n256_v7x_i16_bf16_1_alg».proof.Proof.KernelIdeal.BodyAuxB
import proofs.«900607_g7700000000000608_dist_sum_ax0_shard0_i_m512_n256_v7x_i16_bf16_1_alg».proof.Proof.KernelIdeal.BodyAuxC

/-!
One device's body, from what the launch hands it to what it hands back: the fifteen barrier signals, the own row written,
the barrier wait, the fifteen transfers, the fifteen landings awaited, the table read and reduced into the result, the
fifteen sources awaited, the own cells closed.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Run
variable (K : Dev nD × Fin 31 → ℕ) (c : Dev nD)

/-- The device's own id, read. -/
theorem wp_devId {α : Type} {Q : α → sProp 𝕄} {k : Dev nD → Prog (TpuEff nD τ sig (Elt F) Λ₀ .tc) α} :
    wp frame (wpE (defs₀ (F := F)) 𝒱₀ (c : Thread nD τ) none) Set.univ (k c) Q ⊢ wp frame (wpE (defs₀ (F := F)) 𝒱₀ (c : Thread nD τ) none) Set.univ (.op .deviceId k) Q := by
  rw [wp_deviceId]

end Run

section Run2
variable (c : Dev nD)

/-- Nothing is held for the offsets done when none is. -/
theorem start_don (Φ : Fin 15 → sProp 𝕄) {Q : sProp 𝕄} : iprop(bigSep (don 0) Φ -∗ Q) ⊢ Q := by
  rw [don_zero, bigSep_empty]; iintro H; iapply H; iempintro

/-- A program that has returned. -/
theorem wp_ret_intro {α : Type} {Q : α → sProp 𝕄} (a : α) :
    Q a ⊢ wp frame (wpE (defs₀ (F := F)) 𝒱₀ (c : Thread nD τ) none) Set.univ (.ret a) Q := fupd_intro

/-- The own row read through the kernel's rectangle. -/
theorem wp_own_load {α : Type} {Q : α → sProp 𝕄} (f : Buf (Elt F) (gLoc c))
    {hl : (gM : Memref sig .tc .vmem S16x256 .f32).view.LoadsAt (ownRect c).toLoadRect}
    {k : ((ownRect c).toLoadRect.shape.Idx → Elt F .f32) → Prog (TpuEff nD τ sig (Elt F) Λ₀ .tc) α} :
    rowPts (F := F) c c fullShare f
      ⊢ iprop((rowPts (F := F) c c fullShare f -∗ wp frame (wpE (defs₀ (F := F)) 𝒱₀ (c : Thread nD τ) none) Set.univ (k ((gM : Memref sig .tc .vmem S16x256 .f32).view.readAt (Elt F) (ownRect c).toLoadRect f)) Q)
          -∗ wp frame (wpE (defs₀ (F := F)) 𝒱₀ (c : Thread nD τ) none) Set.univ (.op (.load gM (ownRect c).toLoadRect hl) k) Q) := by
  unfold rowPts
  exact wp_load 𝒱₀ (c : Thread nD τ) none Set.univ (Q := Q) (m := gM) (r := (ownRect c).toLoadRect) (hl := hl) (k := k) (S := rowSet c c) (q := fullShare) (f := f) (ownRect_load_sub c)

/-- The own row written through the kernel's rectangle. -/
theorem wp_own_store {α : Type} {Q : α → sProp 𝕄} (f : Buf (Elt F) (gLoc c)) {w : (ownRect c).shape.Idx → Elt F .f32}
    {hx : ((gM : Memref sig .tc .vmem S16x256 .f32).access (ownRect c)).Stores Finset.univ}
    {hm : (Finset.univ : Finset (ownRect c).shape.Idx) = Finset.univ ∨ ∀ a, (ownRect c).stride a = 1}
    {k : PUnit → Prog (TpuEff nD τ sig (Elt F) Λ₀ .tc) α} :
    rowPts (F := F) c c fullShare f
      ⊢ iprop((rowPts (F := F) c c fullShare (((gM : Memref sig .tc .vmem S16x256 .f32).access (ownRect c) : View sig .tc _ _ _).write (Elt F) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store gM (ownRect c) w Finset.univ hx hm) k) Q) := by
  unfold rowPts
  exact wp_store 𝒱₀ (c : Thread nD τ) none Set.univ (Q := Q) (m := gM) (r := ownRect c) (w := w) (Mk := Finset.univ) (hx := hx) (hm := hm) (k := k) (S := rowSet c c) (f := f) (ownRect_store_sub c)

end Run2

set_option hygiene false in
/-- The barrier signal at offset `k` (`k1 = k + 1`), its target named by the equation `e`. -/
macro "sig_at " k:num k1:num e:term : tactic => `(tactic| (
  iapply (sig_step m ρ K c $k $k1 (by decide) rfl _ $e f0 W0) $$ [Howe HTB HRW]
  (· isplitr
     (· iexact Hrec)
     isplitl [Howe]
     (· iexact Howe)
     isplitl [HTB]
     (· iexact HTB)
     iexact HRW)
  iintro ⟨Howe, HTB, HRW⟩))

set_option hygiene false in
/-- The transfer at offset `k` (`k1 = k + 1`), its target named by the equation `e`. -/
macro "send_at " k:num k1:num e:term : tactic => `(tactic| (
  iapply (send_step m ρ K c $k $k1 (by decide) rfl _ $e (insert (SemLoc.reg barS, ()) W0)) $$ [Howe HTS HTR HLD HDST HCS]
  (· isplitr
     (· iexact Hrec)
     isplitl [Howe]
     (· iexact Howe)
     isplitl [HTS]
     (· iexact HTS)
     isplitl [HTR]
     (· iexact HTR)
     isplitl [HLD]
     (· iexact HLD)
     isplitl [HDST]
     (· iexact HDST)
     iexact HCS)
  iintro ⟨Howe, HTS, HTR, HLD, HDST, HCS⟩))

set_option hygiene false in
/-- The wait for the landing at offset `k` (`k1 = k + 1`). -/
macro "recv_wait_at " k:num k1:num : tactic => `(tactic| (
  iapply (recv_wait_step m ρ K c $k $k1 (by decide) rfl (row_credit c)) $$ [HW Hcr HPR HPD HRD]
  (· isplitr
     (· iexact Hrec)
     isplitl [HW]
     (· iexact HW)
     isplitl [Hcr]
     (· iexact Hcr)
     isplitl [HPR]
     (· iexact HPR)
     isplitl [HPD]
     (· iexact HPD)
     iexact HRD)
  iintro ⟨HW, Hcr, HPR, HPD, HRD⟩))

set_option hygiene false in
/-- The wait for the source at offset `k` (`k1 = k + 1`). -/
macro "send_wait_at " k:num k1:num : tactic => `(tactic| (
  iapply (send_wait_step m ρ K c $k $k1 (by decide) rfl (row_credit c)) $$ [HW HCS HPS HQD HLD]
  (· isplitr
     (· iexact Hrec)
     isplitl [HW]
     (· iexact HW)
     isplitl [HCS]
     (· iexact HCS)
     isplitl [HPS]
     (· iexact HPS)
     isplitl [HQD]
     (· iexact HQD)
     iexact HLD)
  iintro ⟨HW, HCS, HPS, HQD, HLD⟩))

/-- The body on device `c`, run from `bodyPre` to `bodyPost`. -/
theorem sound_body (K : Dev nD × Fin 31 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost credits positions payToks
  simp only [owesAt_in, before_x, bigSep_sep', whole_eq_rows, rows_peers c]
  unfold O₀
  rw [← rem_zero]
  iintro ⟨⟨⟨⟨#Hrec, ⟨Hbar, HPS, HPR⟩, HTB, HTR, HTS⟩, ⟨Hcb, Hcr⟩, Hlev, ⟨%f0, Hown, HRW⟩⟩, ⟨%W0, Howe⟩, ⟨%d0, Hx⟩, ⟨%d1, Ho⟩⟩, HK⟩
  rw [cc0_body_eq_skeleton]
  unfold cc0_body_skel
  rw [k0_part3_eq_skeleton, k0_part11_eq_skeleton]
  iapply (wp_devId c)
  -- the fifteen barrier signals: each gives a row of the table away
  sig_at 0 1 (dev1_eq c)
  sig_at 1 2 (dev2_eq c)
  sig_at 2 3 (dev3_eq c)
  sig_at 3 4 (dev4_eq c)
  sig_at 4 5 (dev5_eq c)
  sig_at 5 6 (dev6_eq c)
  sig_at 6 7 (dev7_eq c)
  sig_at 7 8 (dev8_eq c)
  sig_at 8 9 (dev9_eq c)
  sig_at 9 10 (dev10_eq c)
  sig_at 10 11 (dev11_eq c)
  sig_at 11 12 (dev12_eq c)
  sig_at 12 13 (dev13_eq c)
  sig_at 13 14 (dev14_eq c)
  sig_at 14 15 (dev15_eq c)
  -- no barrier unit is owed any more
  rw [rem_end, owedBar_empty, add_zero]
  simp only [bigSep_empty]
  iclear HTB HRW
  -- the staged block of x, read whole
  icases Hx with ⟨%fx, %hfx, Hx⟩
  subst hfx
  iapply (wp_load 𝒱₀ (c : Thread nD τ) none Set.univ (S := Finset.univ) (Finset.subset_univ _)) $$ [Hx]
  · iexact Hx
  iintro Hx
  rw [read_x]
  -- the own row: read, then written with the block's partial sums
  iapply (wp_own_load c f0) $$ [Hown]
  · iexact Hown
  iintro Hown
  iapply (wp_own_store c f0) $$ [Hown]
  · iexact Hown
  iintro Hown
  ihave Hcut := (own_row_cut m ρ c f0) $$ Hown
  icases Hcut with ⟨Hkeep, HLD, Hrest⟩
  -- the barrier wait: row c of every other device's table comes back
  iapply (wp_bar_wait m ρ K c (rem 0) W0) $$ [Hcb Howe Hlev Hbar]
  · isplitr; · iexact Hrec
    isplitl [Hcb]; · iexact Hcb
    isplitl [Howe]; · iexact Howe
    isplitl [Hlev]; · iexact Hlev
    iexact Hbar
  iintro ⟨Howe, Hbar, Hpay⟩
  ihave HDST := (bar_rows c) $$ Hpay
  rw [← rem_zero]
  iapply (start_don (fun h : Fin 15 => (cred (tallyAt (sendCell c h) () N) : sProp 𝕄)))
  iintro HCS
  -- the fifteen transfers of the own row, each into row c of its target's table
  send_at 0 1 (dev16_eq c)
  send_at 1 2 (dev17_eq c)
  send_at 2 3 (dev18_eq c)
  send_at 3 4 (dev19_eq c)
  send_at 4 5 (dev20_eq c)
  send_at 5 6 (dev21_eq c)
  send_at 6 7 (dev22_eq c)
  send_at 7 8 (dev23_eq c)
  send_at 8 9 (dev24_eq c)
  send_at 9 10 (dev25_eq c)
  send_at 10 11 (dev26_eq c)
  send_at 11 12 (dev27_eq c)
  send_at 12 13 (dev28_eq c)
  send_at 13 14 (dev29_eq c)
  send_at 14 15 (dev30_eq c)
  -- no row's credit is owed any more; the transfers' tokens and rows are all spent
  rw [rem_end, owedRecv_empty]
  simp only [bigSep_empty]
  iclear HTS HTR HLD HDST
  ihave HW : iprop(∃ W, owes (c : Thread nD τ) 0 W) $$ [Howe]
  · iexists _; iexact Howe
  rw [don_end, ← rem_zero]
  iapply (start_don (fun h : Fin 15 => atPos ER (recvCell c h) 1 ∅ 0))
  iintro HPD
  iapply (start_don (fun h : Fin 15 => rowPts c («from» c h) fullShare (gath m ρ)))
  iintro HRD
  -- the fifteen landings awaited: each brings its sender's row
  recv_wait_at 0 1
  recv_wait_at 1 2
  recv_wait_at 2 3
  recv_wait_at 3 4
  recv_wait_at 4 5
  recv_wait_at 5 6
  recv_wait_at 6 7
  recv_wait_at 7 8
  recv_wait_at 8 9
  recv_wait_at 9 10
  recv_wait_at 10 11
  recv_wait_at 11 12
  recv_wait_at 12 13
  recv_wait_at 13 14
  recv_wait_at 14 15
  -- the table read whole through the kept share, reduced, and the result written
  rw [rem_end, don_end]
  simp only [bigSep_empty]
  iclear Hcr HPR
  ihave Hread := (table_read_share m ρ c) $$ [Hkeep HRD]
  · isplitl [Hkeep]; · iexact Hkeep
    iexact HRD
  icases Hread with ⟨Hg, HRR⟩
  iapply (wp_load 𝒱₀ (c : Thread nD τ) none Set.univ (m := gM) (S := Finset.univ) (q := keepQ) (f := gath m ρ) (Finset.subset_univ _)) $$ [Hg]
  · iexact Hg
  iintro Hg
  icases Ho with ⟨%fo, %hfo, Ho⟩
  iapply (wp_load 𝒱₀ (c : Thread nD τ) none Set.univ (m := oM) (S := Finset.univ) (Finset.subset_univ _)) $$ [Ho]
  · iexact Ho
  iintro Ho
  iapply (wp_store 𝒱₀ (c : Thread nD τ) none Set.univ (m := oM) (S := Finset.univ) (Finset.subset_univ _)) $$ [Ho]
  · iexact Ho
  iintro Ho
  rw [read_g, write_out]
  -- the fifteen sources awaited: each gives its lent share of the own row back
  rw [← rem_zero]
  iapply (start_don (fun h : Fin 15 => atPos ER (sendCell c h) 1 ∅ 0))
  iintro HQD
  iapply (start_don (fun h : Fin 15 => rowPts c c (lendQ h) (gath m ρ)))
  iintro HLD
  send_wait_at 0 1
  send_wait_at 1 2
  send_wait_at 2 3
  send_wait_at 3 4
  send_wait_at 4 5
  send_wait_at 5 6
  send_wait_at 6 7
  send_wait_at 7 8
  send_wait_at 8 9
  send_wait_at 9 10
  send_wait_at 10 11
  send_wait_at 11 12
  send_wait_at 12 13
  send_wait_at 13 14
  send_wait_at 14 15
  -- every share back: the table whole and gathered; the thirty own cells closed; the return
  rw [rem_end, don_end, rem_zero]
  simp only [bigSep_empty]
  iclear HCS HPS
  ihave Hall := (table_whole_back m ρ c) $$ [Hg HRR HLD Hrest]
  · isplitl [Hg]; · iexact Hg
    isplitl [HRR]; · iexact HRR
    isplitl [HLD]; · iexact HLD
    iexact Hrest
  ihave Hcl := (close_all m ρ K c) $$ [HQD HPD]
  · isplitr; · iexact Hrec
    isplitl [HQD]; · iexact HQD
    iexact HPD
  imod Hcl
  iapply (wp_ret_intro c PUnit.unit)
  iapply HK
  unfold bodyPost Φ₁
  rw [owesAt_out]
  isplitl [Hall Hcl]
  · isplitl [Hall]; · iexact Hall
    iexact Hcl
  isplitl [HW]; · iexact HW
  isplitl [Hx]
  · iexists _; isplitr; · ipureintro; rfl
    iexact Hx
  iexists _; isplitr; · ipureintro; rfl
  iexact Ho

/-- info: 'Cert.KernelIdeal.AG.sound_body' depends on axioms: [propext, Classical.choice, Quot.sound] -/
#guard_msgs in #print axioms sound_body

end Cert.KernelIdeal.AG

end
-- ==== Proof.KernelIdeal.Launch.lean ====
import proofs.«900607_g7700000000000608_dist_sum_ax0_shard0_i_m512_n256_v7x_i16_bf16_1_alg».proof.Proof.KernelIdeal.Body

/-!
The launch of the all-gather and sum on the mesh of sixteen devices.

The rounds library's launch element is dealt cell by cell and token by token: every device gets the round state, the
position and the reached-mark of its thirty-one cells and the duty tokens of its own cells. One update, made for all
devices at once, allocates every cell's invariant and deals the tokens round the mesh: at offset `h` the token of
duty `h` of a device's barrier cell and the token of its receive cell `h` go to the device `h + 1` places before it,
the one that pays them; the token of its send cell `h` stays. The launch credit comes out the same way: summed over the
payers, each barrier cell is owed fifteen units and each receive cell one row.
-/

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the library hands the body at the one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The cells and the tokens of the launch element -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 31 → SemLoc sig) := by
  intro k k' e
  by_cases hk : k.val = 0 <;> by_cases hk' : k'.val = 0
  · exact Fin.ext (hk.trans hk'.symm)
  · unfold csem at e; rw [dif_pos hk, dif_neg hk'] at e; cases e
  · unfold csem at e; rw [dif_neg hk, dif_pos hk'] at e; cases e
  · unfold csem at e; rw [dif_neg hk, dif_neg hk'] at e
    have e' : 1 + k.val = 1 + k'.val := congrArg Fin.val (SemLoc.dma.inj e)
    exact Fin.ext (by omega)

theorem kcell_injective : Function.Injective (kcell : Dev nD × Fin 31 → GSem nD τ sig) := by
  rintro ⟨c, k⟩ ⟨c', k'⟩ e
  have h1 : c = c' := by have := congrArg (fun g : GSem nD τ sig => g.1.1) e; exact this
  subst h1
  have h2 : csem k = csem k' := congrArg Prod.snd e
  rw [csem_injective h2]
/-- Every device's thirty-one cells. -/
def agCells : Finset (GSem nD τ sig) := Finset.univ.map ⟨kcell, kcell_injective⟩

/-- A device's own cells' duty tokens as minted, by offset: the barrier's duty at that offset, the one duty of the
    receive cell there, the one duty of the send cell there. -/
abbrev tokOf (x : Dev nD × Fin 15 × Fin 3) : GSem nD τ sig × ℕ × Fin 15 := match x.2.2 with
  | 0 => (barCell x.1, 0, x.2.1) | 1 => (recvCell x.1 x.2.1, 0, 0) | 2 => (sendCell x.1 x.2.1, 0, 0)

theorem tokOf_injective : Function.Injective (tokOf : Dev nD × Fin 15 × Fin 3 → GSem nD τ sig × ℕ × Fin 15) := by
  rintro ⟨c, h, j⟩ ⟨c', h', j'⟩ e
  have h1 : c = c' := by
    have := congrArg (fun x : GSem nD τ sig × ℕ × Fin 15 => x.1.1.1) e
    fin_cases j <;> fin_cases j' <;> exact this
  subst h1
  have e2 := congrArg (fun x : GSem nD τ sig × ℕ × Fin 15 => x.1.2) e
  have e3 := congrArg (fun x : GSem nD τ sig × ℕ × Fin 15 => x.2.2) e
  have key : h = h' ∧ j = j' := by
    fin_cases j <;> fin_cases j'
    · exact ⟨e3, rfl⟩
    · exact absurd e2 (fun e' => by cases e')
    · exact absurd e2 (fun e' => by cases e')
    · exact absurd e2 (fun e' => by cases e')
    · have e' : 17 + h.val = 17 + h'.val := congrArg Fin.val (SemLoc.dma.inj e2)
      exact ⟨Fin.ext (by omega), rfl⟩
    · have e' : 17 + h.val = 2 + h'.val := congrArg Fin.val (SemLoc.dma.inj e2)
      exact absurd e' (by omega)
    · exact absurd e2 (fun e' => by cases e')
    · have e' : 2 + h.val = 17 + h'.val := congrArg Fin.val (SemLoc.dma.inj e2)
      exact absurd e' (by omega)
    · have e' : 2 + h.val = 2 + h'.val := congrArg Fin.val (SemLoc.dma.inj e2)
      exact ⟨Fin.ext (by omega), rfl⟩
  rw [key.1, key.2]
def agToks : Finset (GSem nD τ sig × ℕ × Fin 15) := Finset.univ.map ⟨tokOf, tokOf_injective⟩

/-- The launch element: the pipeline's copy beside the protocol's. -/
def u₀ : UU :=
  (initOf (Pipeline.cells cfgs cellOf_inj) (Pipeline.launchToks cfgs cellOf_inj), initOf agCells agToks)

/-- The duty tokens of device `c`'s own cells, offset by offset. -/
def toks (c : Dev nD) : sProp 𝕄 :=
  bigSep Finset.univ fun h : Fin 15 =>
    iprop(dutyTok ER (barCell c) 0 h ∗ dutyTok ER (recvCell c h) 0 (0 : Fin 15) ∗ dutyTok ER (sendCell c h) 0 (0 : Fin 15))

/-- What the launch element deals device `c`. -/
def G (c : Dev nD) : sProp 𝕄 :=
  iprop((bigSep Finset.univ fun k : Fin 31 => roundState ER (agRd m ρ) (kcell (c, k)) 0)
    ∗ (bigSep Finset.univ fun k : Fin 31 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ag : BI.own (ER (initOf agCells agToks)) ⊢ (|==> bigSep Finset.univ (G m ρ) : sProp 𝕄) := by
  have hX (Φ : GSem nD τ sig → sProp 𝕄) : bigSep agCells Φ = bigSep Finset.univ fun c : Dev nD => bigSep Finset.univ fun k : Fin 31 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by
      unfold toks; rw [bigSep_univ_prod]
      exact bigSep_congr fun h _ => by rw [bigSep_fin3]; rfl
  iintro HX
  imod (Rounds.fund ER (agRd m ρ) agCells agToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt round the mesh -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem erase_zero31 : (Finset.univ : Finset (Fin 31)).erase 0 = Finset.univ.map (Fin.succEmb 30) := by decide

theorem csem_succ (k : Fin 30) : csem k.succ = osem k := by
  unfold csem
  rw [dif_neg (by show ¬ (k.val + 1 = 0); omega)]
  exact congrArg SemLoc.dma (Fin.ext (by show 1 + (k.val + 1) = 2 + k.val; omega))

/-- A device's thirty-one cells: the barrier, then at each offset the send and the receive cell. -/
def sEmb : Fin 15 ↪ Fin 31 := ⟨sIdx, fun a b e => Fin.ext (by have e' : 1 + a.val = 1 + b.val := congrArg Fin.val e; omega)⟩
def rEmb : Fin 15 ↪ Fin 31 := ⟨rIdx, fun a b e => Fin.ext (by have e' : 16 + a.val = 16 + b.val := congrArg Fin.val e; omega)⟩
theorem univ31 : (Finset.univ : Finset (Fin 31)) = insert 0 (Finset.univ.map sEmb ∪ Finset.univ.map rEmb) := by decide
theorem zero_notMem31 : (0 : Fin 31) ∉ Finset.univ.map sEmb ∪ Finset.univ.map rEmb := by decide
theorem disjoint31 : Disjoint (Finset.univ.map sEmb) (Finset.univ.map rEmb) := by decide

theorem bigSep_fin31 (Φ : Fin 31 → sProp 𝕄) :
    bigSep Finset.univ Φ = iprop(Φ 0 ∗ bigSep Finset.univ fun h : Fin 15 => iprop(Φ (sIdx h) ∗ Φ (rIdx h))) := by
  rw [univ31, bigSep_insert zero_notMem31, bigSep_union disjoint31, bigSep_map, bigSep_map, bigSep_sep']
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 31 => semVal (kcell (c, k)) 0 : sProp 𝕄) := by
  have hS : (bigSep Finset.univ fun k : Fin 30 => (semVal (((c : Thread nD τ), osem k) : GSem nD τ sig) 0 : sProp 𝕄))
      = bigSep Finset.univ fun k : Fin 30 => semVal (kcell (c, Fin.succEmb 30 k)) 0 :=
    bigSep_congr fun k _ => by
      show (semVal (((c : Thread nD τ), osem k) : GSem nD τ sig) 0 : sProp 𝕄) = semVal (((c : Thread nD τ), csem k.succ) : GSem nD τ sig) 0
      rw [csem_succ]
  rw [unscopedSems0_eq, bigSep_univ_at _ (0 : Fin 31), erase_zero31, bigSep_map, ← hS]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (agRd m ρ) κ (kcell (c, k))))
          ∗ (bigSep Finset.univ fun k : Fin 31 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 31 => semVal (kcell (c, k)) 0) ∗ bigSep Finset.univ fun k : Fin 31 => roundState ER (agRd m ρ) (kcell (c, k)) 0)
      ⊢ (|={Set.univ}=> bigSep Finset.univ fun k => iprop(∃ κ : ℕ, cellInv ER (agRd m ρ) κ (kcell (c, k))) : sProp 𝕄) from by
        rw [← bigSep_sep']
        exact (bigSep_mono fun k _ => (Rounds.body_intro ER (agRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 31 → ℕ) (c : Dev nD) : iprop(records m ρ K ∗ positions c ∗ payToks c) ⊢ G' m ρ c := by
  unfold G' ghost
  iintro H; iexists K; iexact H

/-- A device's positions, cell by cell. -/
theorem positions_eq (c : Dev nD) : (bigSep Finset.univ fun k : Fin 31 => (atPos ER (kcell (c, k)) 0 ∅ 0 : sProp 𝕄)) = positions c := by
  unfold positions
  rw [bigSep_fin31]
  refine congrArg₂ _ rfl (bigSep_congr fun h _ => ?_)
  show iprop(atPos ER (kcell (c, sIdx h)) 0 ∅ 0 ∗ atPos ER (kcell (c, rIdx h)) 0 ∅ 0) = _
  rw [kcell_send, kcell_recv]

/-- Summing over the mesh first or over the offsets first. -/
theorem bigSep_swap (Φ : Dev nD → Fin 15 → sProp 𝕄) :
    (bigSep Finset.univ fun c : Dev nD => bigSep Finset.univ fun h : Fin 15 => Φ c h)
      = bigSep Finset.univ fun h : Fin 15 => bigSep Finset.univ fun c : Dev nD => Φ c h := by
  rw [← bigSep_univ_prod (fun ch : Dev nD × Fin 15 => Φ ch.1 ch.2), ← bigSep_univ_prod (fun hc : Fin 15 × Dev nD => Φ hc.2 hc.1),
    bigSep_univ_equiv (Equiv.prodComm (Dev nD) (Fin 15)) (fun hc : Fin 15 × Dev nD => Φ hc.2 hc.1)]
  rfl

/-- The tokens dealt round the mesh: at offset `h` a barrier's duty `h` and the receive cell's duty go `h + 1` places
    back, to the device that pays them; the send cell's duty stays. -/
theorem toks_around : (bigSep Finset.univ fun c : Dev nD => (toks c : sProp 𝕄)) ⊢ bigSep Finset.univ fun c : Dev nD => payToks c := by
  have key (h : Fin 15) :
      (bigSep Finset.univ fun c : Dev nD =>
          iprop(dutyTok ER (barCell c) 0 h ∗ dutyTok ER (recvCell c h) 0 (0 : Fin 15) ∗ dutyTok ER (sendCell c h) 0 (0 : Fin 15)) : sProp 𝕄)
        ⊢ bigSep Finset.univ fun c : Dev nD =>
          iprop(dutyTok ER (barCell (peer c h)) 0 h ∗ dutyTok ER (recvCell (peer c h) h) 0 (0 : Fin 15) ∗ dutyTok ER (sendCell c h) 0 (0 : Fin 15)) := by
    rw [bigSep_sep', bigSep_sep', bigSep_sep', bigSep_sep',
      bigSep_univ_equiv (shift h) (fun c : Dev nD => (dutyTok ER (barCell c) 0 h : sProp 𝕄)),
      bigSep_univ_equiv (shift h) (fun c : Dev nD => (dutyTok ER (recvCell c h) 0 (0 : Fin 15) : sProp 𝕄))]
    iintro H; iexact H
  unfold toks payToks
  rw [bigSep_swap, bigSep_swap]
  exact bigSep_mono fun h _ => key h

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (agRd m ρ) κ (kcell (c, k))))
          ∗ (bigSep Finset.univ fun k : Fin 31 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 31 => iprop(∃ κ : ℕ, cellInv ER (agRd m ρ) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← bigSep_univ_prod (fun ck : Dev nD × Fin 31 => (reached ER (kcell ck) 0 : sProp 𝕄))]
  iintro ⟨HI, ⟨Hat, #HR⟩, Htok⟩
  ihave HK := (BI.bigSep_exists_pi Finset.univ (fun (ck : Dev nD × Fin 31) (κ : ℕ) => (cellInv ER (agRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 31 => (atPos ER (kcell (c, k)) 0 ∅ 0 : sProp 𝕄)) payToks).symm).trans
      (bigSep_mono fun c _ => show _ ⊢ iprop(positions c ∗ payToks c) from Entails.of_eq (by rw [positions_eq])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit

Device `d` owes, at each offset `h`, one barrier unit and one row's receive credit to `peer d h`. Going `h + 1` places on
is a permutation of the mesh, so each device's barrier cell is owed one unit per offset and its receive cell `h` one row. -/

theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

theorem bar_units (c : Dev nD) :
    (bigSep Finset.univ fun _ : Fin 15 => (cred (tallyAt (barCell c) () 1) : sProp 𝕄)) ⊢ cred (tallyAt (barCell c) () 15) := by
  rw [← Pipeline.cred_finsetSum Finset.univ (fun _ : Fin 15 => (tallyAt (barCell c) () 1 : CellTallies nD τ sig Unit)),
    Finset.sum_const, Finset.card_univ, Fintype.card_fin, nsmul_tallyAt]

theorem creds (c : Dev nD) : (Pipeline.launchCred O₀ c : sProp 𝕄) ⊢ credits c := by
  have h1 := Pipeline.launchCred_add (Name := ℕ) (U := UU) (Lvl := ℕ) (Val := Elt F) (τ := τ)
    (fun d : Dev nD => owedRecv d Finset.univ) (fun d : Dev nD => owedBar d Finset.univ) c
  have h2 := Pipeline.launchCred_sum (Name := ℕ) (U := UU) (Lvl := ℕ) (Val := Elt F) (τ := τ) Finset.univ
    (fun (h : Fin 15) (d : Dev nD) => (tallyAt (recvCell (peer d h) h) () N : CellTallies nD τ sig Unit)) c
  have h3 := Pipeline.launchCred_sum (Name := ℕ) (U := UU) (Lvl := ℕ) (Val := Elt F) (τ := τ) Finset.univ
    (fun (h : Fin 15) (d : Dev nD) => (tallyAt (barCell (peer d h)) () 1 : CellTallies nD τ sig Unit)) c
  refine (show (Pipeline.launchCred O₀ c : sProp 𝕄) ⊢ _ from Entails.of_eq h1).trans ?_
  refine (BIClass.sep_mono (show (Pipeline.launchCred (fun d : Dev nD => owedRecv d Finset.univ) c : sProp 𝕄) ⊢ _ from Entails.of_eq h2)
    (show (Pipeline.launchCred (fun d : Dev nD => owedBar d Finset.univ) c : sProp 𝕄) ⊢ _ from Entails.of_eq h3)).trans ?_
  have hB : (bigSep Finset.univ fun h : Fin 15 =>
        Pipeline.launchCred (fun d : Dev nD => (tallyAt (barCell (peer d h)) () 1 : CellTallies nD τ sig Unit)) c : sProp 𝕄)
      ⊢ bigSep Finset.univ fun _ : Fin 15 => cred (tallyAt (barCell c) () 1) :=
    bigSep_mono fun (h : Fin 15) _ => Pipeline.launchCred_tallyAt (Name := ℕ) (U := UU) (Lvl := ℕ) (Val := Elt F) (τ := τ) (SemLoc.reg barS)
      (fun d => peer d h) (fun d => «from» d h) (fun d => peer_from d h) (fun d => from_peer d h) () 1 c
  have hR : (bigSep Finset.univ fun h : Fin 15 =>
        Pipeline.launchCred (fun d : Dev nD => (tallyAt (recvCell (peer d h) h) () N : CellTallies nD τ sig Unit)) c : sProp 𝕄)
      ⊢ bigSep Finset.univ fun h : Fin 15 => cred (tallyAt (recvCell c h) () N) :=
    bigSep_mono fun (h : Fin 15) _ => Pipeline.launchCred_tallyAt (Name := ℕ) (U := UU) (Lvl := ℕ) (Val := Elt F) (τ := τ) (SemLoc.dma (recvS h))
      (fun d => peer d h) (fun d => «from» d h) (fun d => peer_from d h) (fun d => from_peer d h) () N c
  unfold credits
  iintro ⟨HR, HB⟩
  isplitl [HB]
  · iapply (bar_units (F := F) c)
    iapply hB
    iexact HB
  · iapply hR
    iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ Pipeline.ownSems0
  iintro ⟨Hr, Hz⟩
  isplitr; · iempintro
  isplitl [Hz]; · iexact Hz
  iexists (gath m ρ); iexact Hr

/-- What a device owes at launch sits on a receive cell or a barrier cell of another device. -/
theorem O₀_pos {c : Dev nD} {g : GSem nD τ sig} {u : Unit} (h : 0 < O₀ c g u) :
    (∃ k : Fin 15, g = recvCell (peer c k) k) ∨ ∃ k : Fin 15, g = barCell (peer c k) := by
  rcases Pipeline.add_pos_cases (show 0 < (owedRecv c Finset.univ + owedBar c Finset.univ) g u from h) with h1 | h1
  · obtain ⟨k, -, hk⟩ := Pipeline.sum_pos_exists h1
    exact Or.inl ⟨k, (Pipeline.tallyAt_pos hk).1⟩
  · obtain ⟨k, -, hk⟩ := Pipeline.sum_pos_exists h1
    exact Or.inr ⟨k, (Pipeline.tallyAt_pos hk).1⟩

/-- A wait on a staging semaphore (level 0) is allowed whatever of the launch dues is still owed: they all sit on barrier
    cells (level 1) and receive cells (level 2). -/
theorem mayWait_stage (c : Dev nD) (q : DmaSem sig) (hq : ¬ ∃ h : Fin 15, (SemLoc.dma q : SemLoc sig) = .dma (recvS h))
    (O : CellTallies nD τ sig Unit) (hO : O = O₀ c ∨ O = 0) :
    (levAts L lv : sProp 𝕄) ⊢ MayWait (c : Thread nD τ) (.dma q) () O := by
  rcases hO with rfl | rfl
  · have hlv : lv ((c : Thread nD τ), SemLoc.dma q) () = 0 := by
      dsimp only [lv]; rw [if_neg (fun e => by cases e), if_neg hq]
    refine Pipeline.mayWait_of_levAts (by rw [L_tc]; exact Finset.mem_singleton_self _) fun g u hg => ?_
    rcases O₀_pos hg with ⟨k, rfl⟩ | ⟨k, rfl⟩
    · refine ⟨by rw [L_tc]; exact Finset.mem_singleton_self _, ?_⟩
      rw [hlv]; dsimp only [lv]; rw [if_neg (recv_ne_bar k), if_pos ⟨k, rfl⟩]; decide
    · refine ⟨by rw [L_tc]; exact Finset.mem_singleton_self _, ?_⟩
      rw [hlv]; dsimp only [lv]; rw [if_pos rfl]; decide
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The arrays after the last point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main — the sixteen kernels meeting on the barrier semaphore, each sending its row of partial sums to the
    fifteen others, then reducing its gathered table — terminates, and every final state has each window's array at the
    contents the proof data computes. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ag m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run: the one block is the whole array, written back once, at the one point. -/
theorem finalA_out (c : Dev nD) : finalA m ρ c (1 : Fin 2) = outAt m ρ := by
  show (dats m ρ 0 c).arrAt (1 : Fin 2) ((t₀ : Fin cfg0.N).val + 1) = _
  rw [Dat.arrAt_succ, flush0_1, if_pos rfl]
  have h1 := View.read_write_univ (v := ((cfg0.win (1 : Fin 2)).blk t₀).view) (Val := Elt F) ((dats m ρ 0 c).arrAt (1 : Fin 2) (t₀ : Fin cfg0.N).val) ((dats m ρ 0 c).flushed (1 : Fin 2) t₀)
  have h2 := Memref.read_access_unit_zero (Elt F) main_v1 (off := fun a => (cfg0.win (1 : Fin 2)).index t₀ a * (cfg0.win (1 : Fin 2)).size a)
    (funext fun a => Nat.zero_mul _) (fun a => Pipeline.Clip.inb ((cfg0.win (1 : Fin 2)).hclip (cfg0.grid.coords t₀) a))
    (((cfg0.win (1 : Fin 2)).blk t₀).view.write (Elt F) ((dats m ρ 0 c).arrAt (1 : Fin 2) (t₀ : Fin cfg0.N).val) ((dats m ρ 0 c).flushed (1 : Fin 2) t₀) Finset.univ)
  exact h2.symm.trans h1

theorem run_value : θ_run defs (onTc (τ := τ) (main (F := F))) ⟨m, fun _ => 0, ρ⟩ (fun r => ∀ c : Dev nD,
    r.2.mem ((c.tc : Thread nD τ).loc main_v1) = outAt m ρ ∧ r.2.mem ((c.tc : Thread nD τ).loc main_arg0) = m ((c.tc : Thread nD τ).loc main_arg0)) :=
  (θ_run defs _ _).mono (fun _ h c => ⟨((h c) (1 : Fin 2)).trans (finalA_out m ρ c), ((h c) (0 : Fin 2)).trans (finalA_x m ρ c)⟩) (run_main m ρ)

/-- info: 'Cert.KernelIdeal.AG.run_value' depends on axioms: [propext, Classical.choice, Quot.sound] -/
#guard_msgs in #print axioms run_value

end Cert.KernelIdeal.AG

end
-- ==== Proof.Kernel.Spec.lean ====
import proofs.«900607_g7700000000000608_dist_sum_ax0_shard0_i_m512_n256_v7x_i16_bf16_1_alg».proof.Proof.Gen.Kernel.Skeleton
import Idealize.ShloMosaic.Lib.ValueIdx

/-!
The all-gather's values, as pure terms.

Each of the sixteen devices holds a 512×256 block of `x`. A device first reduces its block along the rows to one row of
256 partial sums; the sixteen rows are gathered, row `j` from device `j`, into a 16×256 table on every device; the
result is the table reduced along its rows. So every device ends with the column sums of all 8192 rows.
-/

noncomputable section

namespace Cert.Kernel.Spec

open Idealize.ShloMosaic Cert.Kernel Cert.Kernel.Gen

variable {F : FTy → Type} [FloatOps F]

/-- Device `j`'s row of partial sums: its block reduced along the rows. -/
def partialRow (x : Vec F S512x256 .f32) : FVec F S1x256 .f32 := k0_pay1 x

/-- The gathered table: row `j` is device `j`'s row of partial sums. -/
def gathered (xs : Dev nD → Vec F S512x256 .f32) : Vec F S16x256 .f32 :=
  fun i => partialRow (xs ⟨(i 0).val, (i 0).isLt⟩) (ValueIdx.ix2 (⟨0, Nat.one_pos⟩ : Fin 1) (⟨(i 1).val, (i 1).isLt⟩ : Fin 256))

/-- What every device ends with: the gathered table reduced along its rows. -/
def result (xs : Dev nD → Vec F S512x256 .f32) : FVec F S1x256 .f32 := k0_pay2 (gathered xs)

end Cert.Kernel.Spec

end
-- ==== Proof.Kernel.Sched.lean ====
import proofs.«900607_g7700000000000608_dist_sum_ax0_shard0_i_m512_n256_v7x_i16_bf16_1_alg».proof.Proof.Kernel.Spec
import proofs.«900607_g7700000000000608_dist_sum_ax0_shard0_i_m512_n256_v7x_i16_bf16_1_alg».proof.Proof.Gen.Kernel
import proofs.«900607_g7700000000000608_dist_sum_ax0_shard0_i_m512_n256_v7x_i16_bf16_1_alg».proof.Proof.Gen.Kernel.Skeleton
import proofs.«900607_g7700000000000608_dist_sum_ax0_shard0_i_m512_n256_v7x_i16_bf16_1_alg».proof.Proof.Gen.Kernel.Launch
import proofs.«900607_g7700000000000608_dist_sum_ax0_shard0_i_m512_n256_v7x_i16_bf16_1_alg».proof.Proof.Gen.Kernel.Points
import Idealize.ShloMosaic.Lib.Pipeline.Launch
import Idealize.ShloMosaic.Lib.Pipeline.Kit
import Idealize.ShloMosaic.Lib.Tactic

/-!
The all-gather's protocol.

Sixteen devices. Device `c` and offset `h` (fifteen of them, standing for the distances 1 … 15 round the mesh) name the
device `peer c h` that `c` signals and sends to, and `from c h`, the one that signals and sends to `c` at that offset.

On every device: a barrier semaphore, fifteen send semaphores and fifteen receive semaphores. A device's barrier has
one unit duty per offset; the duty at offset `h` is paid by `from c h`, and hands `c` row `c` of THAT device's table —
the row `c` will write there. Send semaphore `h` has one duty, paid when the transfer to `peer c h` has read its source:
it gives back the share of `c`'s own row that the transfer borrowed. Receive semaphore `h` has one duty, paid when the
transfer from `from c h` has landed: it hands `c` row `from c h` of its own table, holding that device's partial sums.
Every row is stated against ONE table, `gath`: row `j` holds device `j`'s partial sums.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties: an offset) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices at an offset -/

/-- The device `h + 1` places after `c` round the mesh. -/
def peer (c : Dev nD) (h : Fin 15) : Dev nD := ⟨(c.val + (h.val + 1)) % 16, Nat.mod_lt _ (by decide)⟩
/-- The device `h + 1` places before `c`: the one whose `peer · h` is `c`. -/
def «from» (c : Dev nD) (h : Fin 15) : Dev nD := ⟨(c.val + (15 - h.val)) % 16, Nat.mod_lt _ (by decide)⟩

theorem from_peer (c : Dev nD) (h : Fin 15) : «from» (peer c h) h = c := by revert c h; decide
theorem peer_from (c : Dev nD) (h : Fin 15) : peer («from» c h) h = c := by revert c h; decide
theorem peer_ne (c : Dev nD) (h : Fin 15) : peer c h ≠ c := by revert c h; decide
theorem from_ne (c : Dev nD) (h : Fin 15) : «from» c h ≠ c := by revert c h; decide
theorem peer_inj (c : Dev nD) : Function.Injective (peer c) := by revert c; decide
theorem from_inj (c : Dev nD) : Function.Injective («from» c) := by revert c; decide
/-- Every other device is at exactly one offset. -/
theorem exists_peer (c j : Dev nD) (hj : j ≠ c) : ∃ h, peer c h = j := by revert c j; decide
theorem exists_from (c j : Dev nD) (hj : j ≠ c) : ∃ h, «from» c h = j := by revert c j; decide

/-- Going `h + 1` places on is a permutation of the mesh. -/
def shift (h : Fin 15) : Dev nD ≃ Dev nD := ⟨fun c => peer c h, fun c => «from» c h, fun c => from_peer c h, fun c => peer_from c h⟩

/-- The kernel's `device_id` chains: signal `h` and transfer `h` both name `peer c h`. -/
theorem dev1_eq (c : Dev nD) : (⟨k0_dev1 c, k0_dev1_lt c⟩ : Dev nD) = peer c ⟨0, by decide⟩ := Fin.ext (k0_dev1_eq c)
theorem dev2_eq (c : Dev nD) : (⟨k0_dev2 c, k0_dev2_lt c⟩ : Dev nD) = peer c ⟨1, by decide⟩ := Fin.ext (k0_dev2_eq c)
theorem dev3_eq (c : Dev nD) : (⟨k0_dev3 c, k0_dev3_lt c⟩ : Dev nD) = peer c ⟨2, by decide⟩ := Fin.ext (k0_dev3_eq c)
theorem dev4_eq (c : Dev nD) : (⟨k0_dev4 c, k0_dev4_lt c⟩ : Dev nD) = peer c ⟨3, by decide⟩ := Fin.ext (k0_dev4_eq c)
theorem dev5_eq (c : Dev nD) : (⟨k0_dev5 c, k0_dev5_lt c⟩ : Dev nD) = peer c ⟨4, by decide⟩ := Fin.ext (k0_dev5_eq c)
theorem dev6_eq (c : Dev nD) : (⟨k0_dev6 c, k0_dev6_lt c⟩ : Dev nD) = peer c ⟨5, by decide⟩ := Fin.ext (k0_dev6_eq c)
theorem dev7_eq (c : Dev nD) : (⟨k0_dev7 c, k0_dev7_lt c⟩ : Dev nD) = peer c ⟨6, by decide⟩ := Fin.ext (k0_dev7_eq c)
theorem dev8_eq (c : Dev nD) : (⟨k0_dev8 c, k0_dev8_lt c⟩ : Dev nD) = peer c ⟨7, by decide⟩ := Fin.ext (k0_dev8_eq c)
theorem dev9_eq (c : Dev nD) : (⟨k0_dev9 c, k0_dev9_lt c⟩ : Dev nD) = peer c ⟨8, by decide⟩ := Fin.ext (k0_dev9_eq c)
theorem dev10_eq (c : Dev nD) : (⟨k0_dev10 c, k0_dev10_lt c⟩ : Dev nD) = peer c ⟨9, by decide⟩ := Fin.ext (k0_dev10_eq c)
theorem dev11_eq (c : Dev nD) : (⟨k0_dev11 c, k0_dev11_lt c⟩ : Dev nD) = peer c ⟨10, by decide⟩ := Fin.ext (k0_dev11_eq c)
theorem dev12_eq (c : Dev nD) : (⟨k0_dev12 c, k0_dev12_lt c⟩ : Dev nD) = peer c ⟨11, by decide⟩ := Fin.ext (k0_dev12_eq c)
theorem dev13_eq (c : Dev nD) : (⟨k0_dev13 c, k0_dev13_lt c⟩ : Dev nD) = peer c ⟨12, by decide⟩ := Fin.ext (k0_dev13_eq c)
theorem dev14_eq (c : Dev nD) : (⟨k0_dev14 c, k0_dev14_lt c⟩ : Dev nD) = peer c ⟨13, by decide⟩ := Fin.ext (k0_dev14_eq c)
theorem dev15_eq (c : Dev nD) : (⟨k0_dev15 c, k0_dev15_lt c⟩ : Dev nD) = peer c ⟨14, by decide⟩ := Fin.ext (k0_dev15_eq c)
theorem dev16_eq (c : Dev nD) : (⟨k0_dev16 c, k0_dev16_lt c⟩ : Dev nD) = peer c ⟨0, by decide⟩ := Fin.ext (k0_dev16_eq c)
theorem dev17_eq (c : Dev nD) : (⟨k0_dev17 c, k0_dev17_lt c⟩ : Dev nD) = peer c ⟨1, by decide⟩ := Fin.ext (k0_dev17_eq c)
theorem dev18_eq (c : Dev nD) : (⟨k0_dev18 c, k0_dev18_lt c⟩ : Dev nD) = peer c ⟨2, by decide⟩ := Fin.ext (k0_dev18_eq c)
theorem dev19_eq (c : Dev nD) : (⟨k0_dev19 c, k0_dev19_lt c⟩ : Dev nD) = peer c ⟨3, by decide⟩ := Fin.ext (k0_dev19_eq c)
theorem dev20_eq (c : Dev nD) : (⟨k0_dev20 c, k0_dev20_lt c⟩ : Dev nD) = peer c ⟨4, by decide⟩ := Fin.ext (k0_dev20_eq c)
theorem dev21_eq (c : Dev nD) : (⟨k0_dev21 c, k0_dev21_lt c⟩ : Dev nD) = peer c ⟨5, by decide⟩ := Fin.ext (k0_dev21_eq c)
theorem dev22_eq (c : Dev nD) : (⟨k0_dev22 c, k0_dev22_lt c⟩ : Dev nD) = peer c ⟨6, by decide⟩ := Fin.ext (k0_dev22_eq c)
theorem dev23_eq (c : Dev nD) : (⟨k0_dev23 c, k0_dev23_lt c⟩ : Dev nD) = peer c ⟨7, by decide⟩ := Fin.ext (k0_dev23_eq c)
theorem dev24_eq (c : Dev nD) : (⟨k0_dev24 c, k0_dev24_lt c⟩ : Dev nD) = peer c ⟨8, by decide⟩ := Fin.ext (k0_dev24_eq c)
theorem dev25_eq (c : Dev nD) : (⟨k0_dev25 c, k0_dev25_lt c⟩ : Dev nD) = peer c ⟨9, by decide⟩ := Fin.ext (k0_dev25_eq c)
theorem dev26_eq (c : Dev nD) : (⟨k0_dev26 c, k0_dev26_lt c⟩ : Dev nD) = peer c ⟨10, by decide⟩ := Fin.ext (k0_dev26_eq c)
theorem dev27_eq (c : Dev nD) : (⟨k0_dev27 c, k0_dev27_lt c⟩ : Dev nD) = peer c ⟨11, by decide⟩ := Fin.ext (k0_dev27_eq c)
theorem dev28_eq (c : Dev nD) : (⟨k0_dev28 c, k0_dev28_lt c⟩ : Dev nD) = peer c ⟨12, by decide⟩ := Fin.ext (k0_dev28_eq c)
theorem dev29_eq (c : Dev nD) : (⟨k0_dev29 c, k0_dev29_lt c⟩ : Dev nD) = peer c ⟨13, by decide⟩ := Fin.ext (k0_dev29_eq c)
theorem dev30_eq (c : Dev nD) : (⟨k0_dev30 c, k0_dev30_lt c⟩ : Dev nD) = peer c ⟨14, by decide⟩ := Fin.ext (k0_dev30_eq c)

/-! ## The memrefs, the semaphores, the cells -/

abbrev xM : Memref sig .tc .vmem S512x256 .f32 := Memref.whole cc0_stg0_0
abbrev oM : Memref sig .tc .vmem S1x256 .f32 := Memref.whole cc0_stg1_0
abbrev gM : Memref sig .tc .vmem S16x256 .f32 := Memref.whole cc0_scratch0

/-- Row `j` of the table, as the kernel slices it: at the printed offset function of device `j`. -/
abbrev rowM (j : Dev nD) : Memref sig .tc .vmem S1x256 .f32 :=
  gM.slice (Rect.unit (s := S16x256) (k0_off2 j) S1x256.size (k0_off2_inb j)) (fun _ => rfl)

/-- The runtime's barrier semaphore of collective id 0 (unscoped); send semaphore `h` and receive semaphore `h` (scoped). -/
abbrev barS : Sem sig := (SemArray.scalar (sig.barrier 0 rfl) : Sems sig S_).sem
abbrev sendS (h : Fin 15) : DmaSem sig := ⟨2 + h.val, by show 2 + h.val < 32; omega⟩
abbrev recvS (h : Fin 15) : DmaSem sig := ⟨17 + h.val, by show 17 + h.val < 32; omega⟩

abbrev barCell (c : Dev nD) : GSem nD τ sig := ((c : Thread nD τ), .reg barS)
abbrev sendCell (c : Dev nD) (h : Fin 15) : GSem nD τ sig := ((c : Thread nD τ), .dma (sendS h))
abbrev recvCell (c : Dev nD) (h : Fin 15) : GSem nD τ sig := ((c : Thread nD τ), .dma (recvS h))

/-- The kernel's OWN (scoped) semaphores, as the launch theorem indexes them: the fifteen send, then the fifteen receive. -/
abbrev osem : Fin 30 → SemLoc sig := fun k => .dma ⟨2 + k.val, by show 2 + k.val < 32; omega⟩
/-- All thirty-one of a device's cells: the barrier, then the own ones. -/
abbrev csem : Fin 31 → SemLoc sig := fun k => if h : k.val = 0 then .reg barS else .dma ⟨1 + k.val, by show 1 + k.val < 32; omega⟩
abbrev kcell (ck : Dev nD × Fin 31) : GSem nD τ sig := ((ck.1 : Thread nD τ), csem ck.2)

/-- One transfer's credit: a row. -/
abbrev N : ℕ := (rowM (0 : Dev nD) : Memref sig .tc .vmem S1x256 .f32).view.dmaCredit

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The gathered table: row `j` holds device `j`'s partial sums. The same on every device. -/
def gath : (cc0_scratch0 : Ref sig .tc).ty.Contents (Elt F) := Spec.gathered (fun j => xstg m ρ j)

/-- The result: the table reduced along its rows. The same on every device. -/
def outAt : (cc0_stg1_0 : Ref sig .tc).ty.Contents (Elt F) := Spec.result (fun j => xstg m ρ j)

/-- The table's buffer on device `c`, and row `j`'s elements of it. -/
abbrev gLoc (c : Dev nD) : Loc nD τ sig := (gM : Memref sig .tc .vmem S16x256 .f32).view.loc (c : Thread nD τ)
abbrev rowSet (c : Dev nD) (j : Dev nD) : Finset (Idx (gLoc c)) := (rowM j : Memref sig .tc .vmem S1x256 .f32).view.set

/-- Share `q` of row `j` of device `c`'s table, holding `f` there. -/
def rowPts (c j : Dev nD) (q : PosShare TreeShare) (f : Buf (Elt F) (gLoc c)) : sProp 𝕄 :=
  gLoc c ↦[rowSet c j]{q} f

/-! ## Shares of a device's own row

After it has written its row a device keeps the left half of it, to read the whole table with at the end, and cuts the
right half by successive halving into the fifteen shares its fifteen transfers borrow, and a last piece it keeps. -/

abbrev keepQ : PosShare TreeShare := fullShare.left
/-- What is left of the right half after `n` shares have been cut off it. -/
def restQ : ℕ → PosShare TreeShare
  | 0 => fullShare.right
  | n + 1 => (restQ n).right
/-- The share transfer `h` borrows. -/
def lendQ (h : Fin 15) : PosShare TreeShare := (restQ h.val).left

/-! ## The schedule -/

abbrev IsBar (g : GSem nD τ sig) : Prop := g.1.2 = .tc ∧ g.2 = .reg barS
abbrev IsOwn (g : GSem nD τ sig) : Prop := g.1.2 = .tc ∧ ∃ k : Fin 30, g.2 = osem k

/-- What the barrier signal at offset `d` hands device `c`: row `c` of the signaller's table, whatever it holds. -/
def barPay (c : Dev nD) (d : Fin 15) : sProp 𝕄 := iprop(∃ f, rowPts (F := F) («from» c d) c fullShare f)
/-- What send semaphore `h` gives back: the borrowed share of the device's own row. -/
def sendPay (c : Dev nD) (h : Fin 15) : sProp 𝕄 := rowPts c c (lendQ h) (gath m ρ)
/-- What receive semaphore `h` hands over: the sender's row of the table, landed. -/
def recvPay (c : Dev nD) (h : Fin 15) : sProp 𝕄 := rowPts c («from» c h) fullShare (gath m ρ)

/-- One round, round 0. A barrier cell: fifteen unit duties, one per offset. A send or a receive cell: the one duty `0`,
    of a row's credit. -/
def agRd : Rounds.Schedule (GSem nD τ sig) (Fin 15) 𝕄 where
  duties g r := if r = 0 ∧ IsBar g then Finset.univ else if r = 0 ∧ IsOwn g then {0} else ∅
  unitless _ := False
  amount g _ _ := if g.2 = .reg barS then 1 else N
  payload g _ d :=
    if g.2 = .reg barS then barPay g.1.1 d
    else match g.2 with
      | .dma q =>
        if 2 ≤ q.val ∧ q.val < 17 then sendPay m ρ g.1.1 ⟨(q.val - 2) % 15, Nat.mod_lt _ (by decide)⟩
        else if 17 ≤ q.val then recvPay m ρ g.1.1 ⟨(q.val - 17) % 15, Nat.mod_lt _ (by decide)⟩
        else iprop(emp)
      | _ => iprop(emp)
  amount_pos g _ _ _ := by
    by_cases h : g.2 = .reg barS
    · rw [if_pos h]; exact Nat.one_pos
    · rw [if_neg h]; exact View.dmaCredit_pos _ (by decide)

instance agRd_payload_storable (g : GSem nD τ sig) (r : ℕ) (d : Fin 15) :
    BI.Storable (upEmb : UEmb _ 𝕄) ((agRd (F := F) m ρ).payload g r d) := by
  dsimp only [agRd]
  unfold barPay sendPay recvPay rowPts
  (repeat' split) <;> infer_instance

section Tables
variable (c : Dev nD) (h : Fin 15)

theorem send_ne_bar : (SemLoc.dma (sendS h) : SemLoc sig) ≠ .reg barS := fun e => by cases e
theorem recv_ne_bar : (SemLoc.dma (recvS h) : SemLoc sig) ≠ .reg barS := fun e => by cases e
theorem isOwn_send : IsOwn (sendCell c h) := ⟨rfl, ⟨h.val, by omega⟩, rfl⟩
theorem isOwn_recv : IsOwn (recvCell c h) :=
  ⟨rfl, ⟨15 + h.val, by omega⟩, congrArg SemLoc.dma (Fin.ext (by show 17 + h.val = 2 + (15 + h.val); omega))⟩
theorem not_bar_send : ¬ IsBar (sendCell c h) := fun e => send_ne_bar h e.2
theorem not_bar_recv : ¬ IsBar (recvCell c h) := fun e => recv_ne_bar h e.2

theorem duties_bar : (agRd (F := F) m ρ).duties (barCell c) 0 = Finset.univ := by dsimp only [agRd]; exact if_pos ⟨rfl, rfl, rfl⟩
theorem duties_send : (agRd (F := F) m ρ).duties (sendCell c h) 0 = {0} := by
  dsimp only [agRd]; rw [if_neg (fun e => not_bar_send c h e.2)]; exact if_pos ⟨rfl, isOwn_send c h⟩
theorem duties_recv : (agRd (F := F) m ρ).duties (recvCell c h) 0 = {0} := by
  dsimp only [agRd]; rw [if_neg (fun e => not_bar_recv c h e.2)]; exact if_pos ⟨rfl, isOwn_recv c h⟩
theorem duties_later (g : GSem nD τ sig) : ∀ r, 1 ≤ r → (agRd (F := F) m ρ).duties g r = ∅ :=
  fun r hr => by dsimp only [agRd]; rw [if_neg fun e => by omega, if_neg fun e => by omega]

theorem amount_bar (d : Fin 15) : (agRd (F := F) m ρ).amount (barCell c) 0 d = 1 := by dsimp only [agRd]; exact if_pos rfl
theorem amount_send (d : Fin 15) : (agRd (F := F) m ρ).amount (sendCell c h) 0 d = N := by dsimp only [agRd]; exact if_neg (send_ne_bar h)
theorem amount_recv (d : Fin 15) : (agRd (F := F) m ρ).amount (recvCell c h) 0 d = N := by dsimp only [agRd]; exact if_neg (recv_ne_bar h)

theorem expect_bar : (agRd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send : (agRd (F := F) m ρ).expect (sendCell c h) 0 = N := by
  unfold Schedule.expect Schedule.amountOf; rw [duties_send, Finset.sum_singleton, amount_send]
theorem expect_recv : (agRd (F := F) m ρ).expect (recvCell c h) 0 = N := by
  unfold Schedule.expect Schedule.amountOf; rw [duties_recv, Finset.sum_singleton, amount_recv]

theorem payload_bar (d : Fin 15) : (agRd (F := F) m ρ).payload (barCell c) 0 d = barPay c d := by dsimp only [agRd]; rw [if_pos rfl]
theorem payload_send (d : Fin 15) : (agRd (F := F) m ρ).payload (sendCell c h) 0 d = sendPay m ρ c h := by
  dsimp only [agRd]
  rw [if_neg (send_ne_bar h), if_pos ⟨by show 2 ≤ 2 + h.val; omega, by show 2 + h.val < 17; omega⟩]
  exact congrArg (sendPay m ρ c) (Fin.ext (by show (2 + h.val - 2) % 15 = h.val; omega))
theorem payload_recv (d : Fin 15) : (agRd (F := F) m ρ).payload (recvCell c h) 0 d = recvPay m ρ c h := by
  dsimp only [agRd]
  rw [if_neg (recv_ne_bar h), if_neg (fun e => by have := e.2; change 17 + h.val < 17 at this; omega), if_pos (by show 17 ≤ 17 + h.val; omega)]
  exact congrArg (recvPay m ρ c) (Fin.ext (by show (17 + h.val - 17) % 15 = h.val; omega))

/-- The whole of the barrier cell's round: every offset's row. -/
theorem rest_bar : bigSep ((agRd (F := F) m ρ).duties (barCell c) 0 \ ∅) (fun d => (agRd (F := F) m ρ).payload (barCell c) 0 d)
    = bigSep Finset.univ (fun d => barPay (F := F) c d) := by
  rw [Finset.sdiff_empty, duties_bar]; exact bigSep_congr fun d _ => payload_bar m ρ c d
theorem rest_send : bigSep ((agRd (F := F) m ρ).duties (sendCell c h) 0 \ ∅) (fun d => (agRd (F := F) m ρ).payload (sendCell c h) 0 d) = sendPay m ρ c h := by
  rw [Finset.sdiff_empty, duties_send, bigSep_singleton, payload_send]
theorem rest_recv : bigSep ((agRd (F := F) m ρ).duties (recvCell c h) 0 \ ∅) (fun d => (agRd (F := F) m ρ).payload (recvCell c h) 0 d) = recvPay m ρ c h := by
  rw [Finset.sdiff_empty, duties_recv, bigSep_singleton, payload_recv]

end Tables

end Cert.Kernel.AG

end
-- ==== Proof.Kernel.Data.lean ====
import proofs.«900607_g7700000000000608_dist_sum_ax0_shard0_i_m512_n256_v7x_i16_bf16_1_alg».proof.Proof.Kernel.Sched

/-!
What a device starts its body with and what it ends with: the interface between the body's proof and the launch.

At launch device `c` owes fifteen barrier units (one to each other device) and fifteen rows' credit (one to each other
device's receive semaphore at the offset it sends at). Barrier cells sit at level 1, receive cells at level 2, everything
else at level 0: a device waits on its barrier while it still owes receive credit only, and on a receive or send
semaphore owing nothing.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes; the levels -/

/-- The rows' credit device `c` owes the receive semaphores of the devices at the offsets in `S`. -/
def owedRecv (c : Dev nD) (S : Finset (Fin 15)) : CellTallies nD τ sig Unit := ∑ h ∈ S, tallyAt (recvCell (peer c h) h) () N
/-- The barrier units device `c` owes the devices at the offsets in `S`. -/
def owedBar (c : Dev nD) (S : Finset (Fin 15)) : CellTallies nD τ sig Unit := ∑ h ∈ S, tallyAt (barCell (peer c h)) () 1
/-- At launch: all of both. -/
def O₀ (c : Dev nD) : CellTallies nD τ sig Unit := owedRecv c Finset.univ + owedBar c Finset.univ

theorem owedBar_peel (c : Dev nD) {S : Finset (Fin 15)} {h : Fin 15} (hh : h ∈ S) :
    owedBar c S = owedBar c (S.erase h) + tallyAt (barCell (peer c h)) () 1 := (Finset.sum_erase_add S _ hh).symm
theorem owedRecv_peel (c : Dev nD) {S : Finset (Fin 15)} {h : Fin 15} (hh : h ∈ S) :
    owedRecv c S = owedRecv c (S.erase h) + tallyAt (recvCell (peer c h) h) () N := (Finset.sum_erase_add S _ hh).symm
theorem owedBar_empty (c : Dev nD) : owedBar c ∅ = 0 := Finset.sum_empty
theorem owedRecv_empty (c : Dev nD) : owedRecv c ∅ = 0 := Finset.sum_empty

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if ∃ h : Fin 15, g.2 = .dma (recvS h) then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells under one index -/

abbrev sIdx (h : Fin 15) : Fin 31 := ⟨1 + h.val, by omega⟩
abbrev rIdx (h : Fin 15) : Fin 31 := ⟨16 + h.val, by omega⟩

theorem kcell_bar (c : Dev nD) : kcell (c, (0 : Fin 31)) = barCell c := rfl
theorem kcell_send (c : Dev nD) (h : Fin 15) : kcell (c, sIdx h) = sendCell c h := by
  show ((c : Thread nD τ), csem (sIdx h)) = _
  unfold csem; rw [dif_neg (by show ¬ (1 + h.val = 0); omega)]
  exact congrArg (fun q => ((c : Thread nD τ), SemLoc.dma q)) (Fin.ext (by show 1 + (1 + h.val) = 2 + h.val; omega))
theorem kcell_recv (c : Dev nD) (h : Fin 15) : kcell (c, rIdx h) = recvCell c h := by
  show ((c : Thread nD τ), csem (rIdx h)) = _
  unfold csem; rw [dif_neg (by show ¬ (16 + h.val = 0); omega)]
  exact congrArg (fun q => ((c : Thread nD τ), SemLoc.dma q)) (Fin.ext (by show 1 + (16 + h.val) = 17 + h.val; omega))

/-! ## The ghost state a device's body starts from -/

/-- Every cell's invariant, under the names `K` the launch allocated them at, and that every cell has reached round 0:
    persistent, the same on every device. -/
def records (K : Dev nD × Fin 31 → ℕ) : sProp 𝕄 :=
  iprop((bigSep Finset.univ fun ck : Dev nD × Fin 31 => cellInv ER (agRd m ρ) (K ck) (kcell ck))
    ∗ bigSep Finset.univ fun ck : Dev nD × Fin 31 => reached ER (kcell ck) 0)

instance records_persistent (K : Dev nD × Fin 31 → ℕ) : BI.Persistent (records m ρ K) := by unfold records; infer_instance

/-- Device `c` at round 0 of each of its thirty-one cells. -/
def positions (c : Dev nD) : sProp 𝕄 :=
  iprop(atPos ER (barCell c) 0 ∅ 0
    ∗ bigSep Finset.univ fun h : Fin 15 => iprop(atPos ER (sendCell c h) 0 ∅ 0 ∗ atPos ER (recvCell c h) 0 ∅ 0))

/-- The tokens of the duties device `c` pays: per offset, the barrier duty `h` of `peer c h`, that device's receive duty
    at `h`, its own send duty at `h`. -/
def payToks (c : Dev nD) : sProp 𝕄 :=
  bigSep Finset.univ fun h : Fin 15 =>
    iprop(dutyTok ER (barCell (peer c h)) 0 h ∗ dutyTok ER (recvCell (peer c h) h) 0 (0 : Fin 15) ∗ dutyTok ER (sendCell c h) 0 (0 : Fin 15))

def ghost (K : Dev nD × Fin 31 → ℕ) (c : Dev nD) : sProp 𝕄 := iprop(records m ρ K ∗ positions c ∗ payToks c)

/-- The credit the launch deals device `c`: its barrier's fifteen units, each receive cell's row. -/
def credits (c : Dev nD) : sProp 𝕄 :=
  iprop(cred (tallyAt (barCell c) () 15) ∗ bigSep Finset.univ fun h : Fin 15 => cred (tallyAt (recvCell c h) () N))

def start (c : Dev nD) : sProp 𝕄 := iprop((∃ K, ghost m ρ K c) ∗ credits c ∗ levAts L lv)

/-- Before the point: that, and the table's buffer whole over whatever it holds. -/
def Φ₀ (c : Dev nD) : sProp 𝕄 := iprop(start m ρ c ∗ ∃ f : Buf (Elt F) (gLoc c), gLoc c ↦{fullShare} f)
/-- After the point: the table whole and gathered, the thirty own cells at zero, closed. -/
def Φ₁ (c : Dev nD) : sProp 𝕄 :=
  iprop((gLoc c ↦{fullShare} gath m ρ) ∗ bigSep Finset.univ fun k : Fin 30 => semVal ((c : Thread nD τ), osem k) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-! ## The body's pre and post -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 31 → ℕ) (c : Dev nD) : sProp 𝕄 :=
  iprop((ghost m ρ K c ∗ credits c ∗ levAts L lv ∗ ∃ f : Buf (Elt F) (gLoc c), gLoc c ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ))

end Cert.Kernel.AG

end
-- ==== Proof.Kernel.Rows.lean ====
import proofs.«900607_g7700000000000608_dist_sum_ax0_shard0_i_m512_n256_v7x_i16_bf16_1_alg».proof.Proof.Kernel.Data
import Idealize.ShloMosaic.Lib.Pipeline.Value

/-!
Rows of the table, as sets of elements and as shares.

The sixteen rows partition the table's elements; a points-to on the whole table is the rows' points-tos side by side.
A device's own row is cut along shares: the half it keeps, the fifteen shares it lends, and a last piece. What a
device writes into its own row, and what a transfer lands in a row, agree with the gathered table there.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows partition the table -/

/-- An element of the table lies in the one-row rectangle at row `k` exactly when its row coordinate is `k`. -/
theorem mem_rowRect {off : Fin 2 → ℕ} {inb : ∀ a, off a + S1x256.size a ≤ S16x256.size a} {k : ℕ} (hoff : off = ![k, 0])
    (i : S16x256.Idx) : i ∈ (Rect.unit (s := S16x256) off S1x256.size inb).set ↔ (i 0).val = k := by
  subst hoff
  rw [Rect.mem_set_unit, Fin.forall_fin_two]
  have h1 : (i 1).val < 256 := (i 1).isLt
  show (k ≤ (i 0).val ∧ (i 0).val < k + 1) ∧ (0 ≤ (i 1).val ∧ (i 1).val < 0 + 256) ↔ (i 0).val = k
  omega

/-- Row `j`'s elements are those whose row coordinate is `j`. -/
theorem mem_rowSet (c j : Dev nD) (i : Idx (gLoc c)) : i ∈ rowSet c j ↔ ((i : S16x256.Idx) 0).val = j.val := by
  have h : rowSet c j = (Rect.unit (s := S16x256) (k0_off2 j) S1x256.size (k0_off2_inb j)).set :=
    View.set_slice_whole cc0_scratch0 _
  rw [h]
  exact mem_rowRect (k0_off2_eq j) i

theorem rowSet_disjoint (c : Dev nD) {j j' : Dev nD} (hj : j ≠ j') : Disjoint (rowSet c j) (rowSet c j') := by
  rw [Finset.disjoint_left]
  intro i hi hi'
  rw [mem_rowSet] at hi hi'
  exact hj (Fin.ext (hi.symm.trans hi'))
theorem rowSet_cover (c : Dev nD) : (Finset.univ : Finset (Idx (gLoc c))) = Finset.univ.biUnion (rowSet c) := by
  ext i
  simp only [Finset.mem_univ, Finset.mem_biUnion, true_and, true_iff]
  exact ⟨⟨((i : S16x256.Idx) 0).val, ((i : S16x256.Idx) 0).isLt⟩, (mem_rowSet c _ i).mpr rfl⟩

/-- The whole table at share `q` is its sixteen rows at share `q`. -/
theorem whole_eq_rows (c : Dev nD) (q : PosShare TreeShare) (f : Buf (Elt F) (gLoc c)) :
    ((gLoc c ↦{q} f) : sProp 𝕄) = bigSep Finset.univ (fun j : Dev nD => rowPts (F := F) c j q f) := by
  unfold rowPts
  rw [rowSet_cover c]
  exact pointsTo_biUnion Finset.univ (rowSet c) (fun j _ j' _ h => rowSet_disjoint c h)

/-- The table without device `c`'s own row: the rows at the fifteen offsets, either way round. -/
theorem rows_peers (c : Dev nD) (Φ : Dev nD → sProp 𝕄) :
    bigSep Finset.univ Φ = iprop(Φ c ∗ bigSep Finset.univ (fun h : Fin 15 => Φ (peer c h))) := by
  have hm : (Finset.univ : Finset (Dev nD)).erase c = Finset.univ.map ⟨peer c, peer_inj c⟩ := by
    ext j
    simp only [Finset.mem_erase, Finset.mem_univ, and_true, Finset.mem_map, true_and, Function.Embedding.coeFn_mk]
    exact ⟨fun hj => exists_peer c j hj, fun ⟨h, e⟩ => e ▸ peer_ne c h⟩
  rw [bigSep_univ_split c, hm, bigSep_map]
  rfl
theorem rows_froms (c : Dev nD) (Φ : Dev nD → sProp 𝕄) :
    bigSep Finset.univ Φ = iprop(Φ c ∗ bigSep Finset.univ (fun h : Fin 15 => Φ («from» c h))) := by
  have hm : (Finset.univ : Finset (Dev nD)).erase c = Finset.univ.map ⟨«from» c, from_inj c⟩ := by
    ext j
    simp only [Finset.mem_erase, Finset.mem_univ, and_true, Finset.mem_map, true_and, Function.Embedding.coeFn_mk]
    exact ⟨fun hj => exists_from c j hj, fun ⟨h, e⟩ => e ▸ from_ne c h⟩
  rw [bigSep_univ_split c, hm, bigSep_map]
  rfl

/-! ## Shares -/

/-- A row at a share is its two halves. -/
theorem rowPts_halves (c j : Dev nD) (q : PosShare TreeShare) (f : Buf (Elt F) (gLoc c)) :
    (rowPts (F := F) c j q f) ⊣⊢ iprop(rowPts (F := F) c j q.left f ∗ rowPts (F := F) c j q.right f) := by
  unfold rowPts; exact pointsTo_share (PosShare.mem_left_op_right q)

theorem rowPts_halves_eq (c j : Dev nD) (q : PosShare TreeShare) (f : Buf (Elt F) (gLoc c)) :
    rowPts (F := F) c j q f = iprop(rowPts (F := F) c j q.left f ∗ rowPts (F := F) c j q.right f) :=
  BI.equiv_iff.mp ⟨(rowPts_halves c j q f).1, (rowPts_halves c j q f).2⟩

/-- What is left after `n` shares have been cut off the right half, with those shares, is the right half. -/
theorem rowPts_rest (c j : Dev nD) (f : Buf (Elt F) (gLoc c)) (n : ℕ) :
    rowPts (F := F) c j (restQ 0) f
      = iprop((bigSep (Finset.range n) fun k => rowPts (F := F) c j (restQ k).left f) ∗ rowPts (F := F) c j (restQ n) f) := by
  induction n with
  | zero => rw [Finset.range_zero, bigSep_empty]; exact (BI.equiv_iff.mp BI.emp_sep).symm
  | succ n ih =>
    rw [Finset.range_add_one, bigSep_insert Finset.notMem_range_self, ih, rowPts_halves_eq c j (restQ n) f]
    exact BI.equiv_iff.mp ⟨BI.sep_assoc'.trans (BI.sep_mono_l BI.sep_comm), (BI.sep_mono_l BI.sep_comm).trans BI.sep_assoc⟩

/-- A row held whole is the kept half, the fifteen lent shares and the last piece. -/
theorem rowPts_cut (c j : Dev nD) (f : Buf (Elt F) (gLoc c)) :
    (rowPts (F := F) c j fullShare f) ⊣⊢
      iprop(rowPts (F := F) c j keepQ f ∗ (bigSep Finset.univ fun h : Fin 15 => rowPts (F := F) c j (lendQ h) f) ∗ rowPts (F := F) c j (restQ 15) f) := by
  have hfin : (bigSep Finset.univ fun h : Fin 15 => rowPts (F := F) c j (lendQ h) f)
      = bigSep (Finset.range 15) fun k => rowPts (F := F) c j (restQ k).left f := by
    have hr : (Finset.univ : Finset (Fin 15)).map Fin.valEmbedding = Finset.range 15 := by decide
    rw [← hr, bigSep_map]; rfl
  rw [hfin, ← rowPts_rest c j f 15]
  exact rowPts_halves c j fullShare f

/-! ## Contents -/

/-- Off a row's elements the contents do not matter. -/
theorem rowPts_congr (c j : Dev nD) (q : PosShare TreeShare) {f g : Buf (Elt F) (gLoc c)} (hfg : ∀ i ∈ rowSet c j, f i = g i) :
    rowPts (F := F) c j q f = rowPts (F := F) c j q g := pointsTo_congr hfg

/-- The rectangle the kernel loads and stores its own row through covers exactly that row's elements. -/
abbrev ownRect (c : Dev nD) : Rect S16x256 := Rect.unit (s := S16x256) (k0_off1 c) S1x256.size (k0_off1_inb c)
theorem ownRect_store_sub (c : Dev nD) : ((gM : Memref sig .tc .vmem S16x256 .f32).access (ownRect c) : View sig .tc _ _ _).setOn Finset.univ ⊆ rowSet c c := by
  intro i hi
  have h : ((gM : Memref sig .tc .vmem S16x256 .f32).access (ownRect c) : View sig .tc _ _ _).setOn Finset.univ = (ownRect c).set :=
    View.set_slice_whole cc0_scratch0 _
  rw [h] at hi
  exact (mem_rowSet c c i).mpr ((mem_rowRect (k0_off1_eq c) i).mp hi)
theorem ownRect_load_sub (c : Dev nD) : (gM : Memref sig .tc .vmem S16x256 .f32).view.setOn (ownRect c).toLoadRect.set ⊆ rowSet c c := by
  intro i hi
  have h : (gM : Memref sig .tc .vmem S16x256 .f32).view.setOn (ownRect c).toLoadRect.set = (ownRect c).set :=
    Finset.map_refl
  rw [h] at hi
  exact (mem_rowSet c c i).mpr ((mem_rowRect (k0_off1_eq c) i).mp hi)

/-- What device `c` writes into its own row is the gathered table's row `c`. -/
theorem own_row_written (c : Dev nD) (f : Buf (Elt F) (gLoc c)) :
    ∀ i ∈ rowSet c c, (((gM : Memref sig .tc .vmem S16x256 .f32).access (ownRect c) : View sig .tc _ _ _).write (Elt F) f (k0_pay1 (xstg m ρ c)) Finset.univ) i = gath m ρ i := by
  intro i hi
  rw [mem_rowSet] at hi
  -- the element's place in the row: column `i 1`
  have hy : ((gM : Memref sig .tc .vmem S16x256 .f32).access (ownRect c) : View sig .tc _ _ _).emb
      (ValueIdx.ix2 (⟨0, Nat.one_pos⟩ : Fin 1) (⟨((i : S16x256.Idx) 1).val, ((i : S16x256.Idx) 1).isLt⟩ : Fin 256)) = i := by
    have e := k0_off1_eq c
    refine funext fun a => Fin.ext ?_
    show k0_off1 c a + 1 * ((ValueIdx.ix2 (⟨0, Nat.one_pos⟩ : Fin 1) (⟨((i : S16x256.Idx) 1).val, ((i : S16x256.Idx) 1).isLt⟩ : Fin 256) : S1x256.Idx) a).val
      = ((i : S16x256.Idx) a).val
    rw [e]
    match a with
    | ⟨0, _⟩ => show c.val + 1 * 0 = ((i : S16x256.Idx) 0).val; omega
    | ⟨1, _⟩ => show 0 + 1 * ((i : S16x256.Idx) 1).val = ((i : S16x256.Idx) 1).val; omega
  rw [← hy, View.write_emb_of_mem _ _ (Finset.mem_univ _), hy]
  have hc : (⟨((i : S16x256.Idx) 0).val, ((i : S16x256.Idx) 0).isLt⟩ : Dev nD) = c := Fin.ext hi
  show k0_pay1 (xstg m ρ c) _ = k0_pay1 (xstg m ρ ⟨((i : S16x256.Idx) 0).val, ((i : S16x256.Idx) 0).isLt⟩) _
  rw [hc]

/-- What a transfer of row `j` lands on device `p`, read off the gathered table at the source, is the gathered table's row `j`. -/
theorem row_landed (p j : Dev nD) (fd : Buf (Elt F) (gLoc p)) :
    ∀ i ∈ rowSet p j, ((rowM j : Memref sig .tc .vmem S1x256 .f32).view.write (Elt F) fd ((rowM j : Memref sig .tc .vmem S1x256 .f32).view.read (Elt F) (gath m ρ)) Finset.univ) i = gath m ρ i := by
  intro i hi
  rw [View.write_read_eq_piecewise]
  exact Finset.piecewise_eq_of_mem _ _ _ hi

/-- Every row moves the same credit. -/
theorem row_credit (j : Dev nD) : (rowM j : Memref sig .tc .vmem S1x256 .f32).view.dmaCredit = N := rfl

/-- Reading the whole staged block, the whole table, and writing the whole result. -/
abbrev xRect : Rect S512x256 := Rect.unit (s := S512x256) ![0, 0] S512x256.size inb_S512x256_S512x256_0_0
abbrev gRect : Rect S16x256 := Rect.unit (s := S16x256) ![0, 0] S16x256.size inb_S16x256_S16x256_0_0
abbrev oRect : Rect S1x256 := Rect.unit (s := S1x256) ![0, 0] S1x256.size inb_S1x256_S1x256_0_0
/-- The offsets `![0, 0]` are zero on both axes. -/
theorem off_zero : (![0, 0] : Fin 2 → Nat) = fun _ => 0 := funext fun a => by fin_cases a <;> rfl
theorem read_x (f : (cc0_stg0_0 : Ref sig .tc).ty.Contents (Elt F)) : (xM : Memref sig .tc .vmem S512x256 .f32).view.readAt (Elt F) xRect.toLoadRect f = f :=
  Memref.readAt_unit_zero (Elt F) cc0_stg0_0 off_zero _ f
theorem read_g (f : (cc0_scratch0 : Ref sig .tc).ty.Contents (Elt F)) : (gM : Memref sig .tc .vmem S16x256 .f32).view.readAt (Elt F) gRect.toLoadRect f = f :=
  Memref.readAt_unit_zero (Elt F) cc0_scratch0 off_zero _ f
theorem write_out (f w : (cc0_stg1_0 : Ref sig .tc).ty.Contents (Elt F)) :
    ((oM : Memref sig .tc .vmem S1x256 .f32).access oRect : View sig .tc _ _ _).write (Elt F) f w Finset.univ = w :=
  Memref.write_access_unit_zero_univ (Elt F) cc0_stg1_0 off_zero _ f w

/-- info: 'Cert.Kernel.AG.rowSet_disjoint' depends on axioms: [propext, Classical.choice, Quot.sound] -/
#guard_msgs in #print axioms rowSet_disjoint
/-- info: 'Cert.Kernel.AG.rowSet_cover' depends on axioms: [propext, Classical.choice, Quot.sound] -/
#guard_msgs in #print axioms rowSet_cover
/-- info: 'Cert.Kernel.AG.whole_eq_rows' depends on axioms: [propext, Classical.choice, Quot.sound] -/
#guard_msgs in #print axioms whole_eq_rows
/-- info: 'Cert.Kernel.AG.rows_peers' depends on axioms: [propext, Classical.choice, Quot.sound] -/
#guard_msgs in #print axioms rows_peers
/-- info: 'Cert.Kernel.AG.rows_froms' depends on axioms: [propext, Classical.choice, Quot.sound] -/
#guard_msgs in #print axioms rows_froms
/-- info: 'Cert.Kernel.AG.rowPts_halves' depends on axioms: [propext, Classical.choice, Quot.sound] -/
#guard_msgs in #print axioms rowPts_halves
/-- info: 'Cert.Kernel.AG.rowPts_cut' depends on axioms: [propext, Classical.choice, Quot.sound] -/
#guard_msgs in #print axioms rowPts_cut
/-- info: 'Cert.Kernel.AG.rowPts_congr' depends on axioms: [propext, Classical.choice, Quot.sound] -/
#guard_msgs in #print axioms rowPts_congr
/-- info: 'Cert.Kernel.AG.ownRect_store_sub' depends on axioms: [propext, Classical.choice, Quot.sound] -/
#guard_msgs in #print axioms ownRect_store_sub
/-- info: 'Cert.Kernel.AG.ownRect_load_sub' depends on axioms: [propext, Classical.choice, Quot.sound] -/
#guard_msgs in #print axioms ownRect_load_sub
/-- info: 'Cert.Kernel.AG.own_row_written' depends on axioms: [propext, Classical.choice, Quot.sound] -/
#guard_msgs in #print axioms own_row_written
/-- info: 'Cert.Kernel.AG.row_landed' depends on axioms: [propext, Classical.choice, Quot.sound] -/
#guard_msgs in #print axioms row_landed
/-- info: 'Cert.Kernel.AG.row_credit' depends on axioms: [propext, Classical.choice, Quot.sound] -/
#guard_msgs in #print axioms row_credit
/-- info: 'Cert.Kernel.AG.read_x' depends on axioms: [propext, Classical.choice, Quot.sound] -/
#guard_msgs in #print axioms read_x
/-- info: 'Cert.Kernel.AG.read_g' depends on axioms: [propext, Classical.choice, Quot.sound] -/
#guard_msgs in #print axioms read_g
/-- info: 'Cert.Kernel.AG.write_out' depends on axioms: [propext, Classical.choice, Quot.sound] -/
#guard_msgs in #print axioms write_out

end Cert.Kernel.AG

end
-- ==== Proof.Kernel.Steps.lean ====
import proofs.«900607_g7700000000000608_dist_sum_ax0_shard0_i_m512_n256_v7x_i16_bf16_1_alg».proof.Proof.Kernel.Data
import proofs.«900607_g7700000000000608_dist_sum_ax0_shard0_i_m512_n256_v7x_i16_bf16_1_alg».proof.Proof.Kernel.Rows

/-!
The body's steps that another device takes part in, each once, at a symbolic device `c` and offset `h`: the barrier
signal to `peer c h`, the wait for the barrier's fifteen units, the transfer of the own row to `peer c h`, the wait for
the row from `from c h` to have landed, the wait for the transfer's source to have been read, and closing an own cell
once its one round is over.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : Dev nD × Fin 31 → ℕ) (c : Dev nD) (h : Fin 15)

/-- The invariant and the reached round of any cell, out of the records. -/
theorem inv_at (ck : Dev nD × Fin 31) : records m ρ K ⊢ cellInv ER (agRd m ρ) (K ck) (kcell ck) := by
  unfold records
  have h : (bigSep Finset.univ fun ck : Dev nD × Fin 31 => cellInv ER (agRd (F := F) m ρ) (K ck) (kcell ck)) ⊢ cellInv ER (agRd m ρ) (K ck) (kcell ck) :=
    bigSep_elim (Finset.mem_univ ck)
  iintro ⟨H, -⟩
  iapply h $$ H
theorem reached_at (ck : Dev nD × Fin 31) : records m ρ K ⊢ (reached ER (kcell ck) 0 : sProp 𝕄) := by
  unfold records
  have h : (bigSep Finset.univ fun ck : Dev nD × Fin 31 => (reached ER (kcell ck) 0 : sProp 𝕄)) ⊢ (reached ER (kcell ck) 0 : sProp 𝕄) :=
    bigSep_elim (Finset.mem_univ ck)
  iintro ⟨-, H⟩
  iapply h $$ H

/-- The same at a device's barrier, send and receive cells. -/
theorem inv_bar : records m ρ K ⊢ cellInv ER (agRd m ρ) (K (c, (0 : Fin 31))) (barCell c) := inv_at m ρ K (c, (0 : Fin 31))
theorem reached_bar : records m ρ K ⊢ (reached ER (barCell c) 0 : sProp 𝕄) := reached_at m ρ K (c, (0 : Fin 31))
theorem inv_send : records m ρ K ⊢ cellInv ER (agRd m ρ) (K (c, sIdx h)) (sendCell c h) := by
  have e := inv_at m ρ K (c, sIdx h); rwa [kcell_send] at e
theorem reached_send : records m ρ K ⊢ (reached ER (sendCell c h) 0 : sProp 𝕄) := by
  have e := reached_at m ρ K (c, sIdx h); rwa [kcell_send] at e
theorem inv_recv : records m ρ K ⊢ cellInv ER (agRd m ρ) (K (c, rIdx h)) (recvCell c h) := by
  have e := inv_at m ρ K (c, rIdx h); rwa [kcell_recv] at e
theorem reached_recv : records m ρ K ⊢ (reached ER (recvCell c h) 0 : sProp 𝕄) := by
  have e := reached_at m ρ K (c, rIdx h); rwa [kcell_recv] at e

/-- The barrier signal at offset `h`: it pays duty `h` of `peer c h`'s barrier with row `peer c h` of `c`'s own table, one
    unit off what `c` owes. The signal names its target `n`, equal to `peer c h`. -/
theorem wp_sig {α : Type} {Q : α → sProp 𝕄} {k : PUnit → Prog (TpuEff nD τ sig (Elt F) Λ₀ .tc) α}
    (n : Dev nD) (hn : n = peer c h) (O : CellTallies nD τ sig Unit) (W : Waits sig Unit) :
    iprop(records m ρ K ∗ owes (c : Thread nD τ) (O + tallyAt (barCell (peer c h)) () 1) W
        ∗ dutyTok ER (barCell (peer c h)) 0 h ∗ (∃ f, rowPts (F := F) c (peer c h) fullShare f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op ((.semSignal ((n : Dev nD) : Thread nD τ) barS 1)) k) Q) := by
  subst hn
  iintro ⟨#Hrec, HL, Htok, Hpay⟩
  iapply (Rounds.wp_signal 𝒱₀ ER (agRd m ρ) (c : Thread nD τ) none (dst := (peer c h : Thread nD τ)) (sem := barS) (r := 0) (d := h) (k' := 1)
    (κ := K (peer c h, 0)) (hd := by rw [duties_bar]; exact Finset.mem_univ _) (hk := amount_bar m ρ (peer c h) h) () O rfl)
  isplitr
  · iapply (inv_at m ρ K (peer c h, 0)); iexact Hrec
  isplitl [HL]; · iexact HL
  isplitl [Htok]; · iexact Htok
  isplitl [Hpay]
  · rw [payload_bar, barPay, from_peer]; iexact Hpay
  iapply (reached_at m ρ K (peer c h, 0)); iexact Hrec

/-- What device `c` owes in receive credit sits at receive cells only. -/
theorem owedRecv_pos {S : Finset (Fin 15)} {g : GSem nD τ sig} {u : Unit} (hg : 0 < owedRecv c S g u) :
    ∃ h' : Fin 15, g = recvCell (peer c h') h' := by
  by_contra hne
  have hne' : ∀ h' : Fin 15, g ≠ recvCell (peer c h') h' := fun h' e => hne ⟨h', e⟩
  have h0 : owedRecv c S g u = 0 := by
    unfold owedRecv
    rw [Finset.sum_apply, Finsupp.finset_sum_apply]
    refine Finset.sum_eq_zero fun h' _ => ?_
    rw [tallyAt_apply, if_neg (fun e => hne' h' e.1)]
  omega

/-- At its barrier wait a device owes receive credit only: receive cells, above its barrier cell. -/
theorem mayWait_bar (S : Finset (Fin 15)) :
    (levAts L lv : sProp 𝕄) ⊢ MayWait (c : Thread nD τ) (.reg barS) () (owedRecv c S) :=
  MayOwe.of_cut (L := L) (lev := lv) 1
    (fun p hp => by rw [Finset.mem_singleton.mp hp, L_tc]; exact Finset.mem_singleton_self _)
    (fun g u hg => by
      obtain ⟨h', rfl⟩ := owedRecv_pos c hg
      rw [L_tc]; exact Finset.mem_singleton_self _)
    (fun p hp => by rw [Finset.mem_singleton.mp hp]; dsimp only [lv]; rw [if_pos rfl])
    (fun g u hg => by
      obtain ⟨h', rfl⟩ := owedRecv_pos c hg
      dsimp only [lv]; rw [if_neg (recv_ne_bar h'), if_pos ⟨h', rfl⟩]; decide)

/-- The barrier wait, owing receive credit only: `c` comes back with, from every offset `d`, row `c` of `from c d`'s table. -/
theorem wp_bar_wait {α : Type} {Q : α → sProp 𝕄} {k : PUnit → Prog (TpuEff nD τ sig (Elt F) Λ₀ .tc) α}
    (S : Finset (Fin 15)) (W : Waits sig Unit) :
    iprop(records m ρ K ∗ cred (tallyAt (barCell c) () 15) ∗ owes (c : Thread nD τ) (owedRecv c S) W ∗ levAts L lv
        ∗ atPos ER (barCell c) 0 ∅ 0)
      ⊢ iprop(((owes (c : Thread nD τ) (owedRecv c S) (insert (SemLoc.reg barS, ()) W) ∗ atPos ER (barCell c) 1 ∅ 0
              ∗ bigSep Finset.univ (fun d : Fin 15 => barPay (F := F) c d)) -∗ wp frame (wpE (defs₀ (F := F)) 𝒱₀ (c : Thread nD τ) none) Set.univ (k ⟨⟩) Q)
          -∗ wp frame (wpE (defs₀ (F := F)) 𝒱₀ (c : Thread nD τ) none) Set.univ (.op ((.semWait barS 15)) k) Q) := by
  iintro ⟨#Hrec, Hc, HL, #Hlev, Hat⟩ Hk
  iapply (Rounds.wp_wait_rest_token 𝒱₀ ER (agRd m ρ) (c : Thread nD τ) none (κ := K (c, (0 : Fin 31)))
    (w := .semWait barS 15) (sm := .reg barS) (k' := 15) (Es := Set.univ)
    (wpE_semWait_eq 𝒱₀ (c : Thread nD τ) none Set.univ) (Set.mem_univ _) () (O := owedRecv c S) (W := W) (R := 0) (m := 0) (T := ∅)
    (by rw [expect_bar])) $$ [Hc HL Hat]
  · isplitr; · iapply (inv_bar m ρ K c); iexact Hrec
    isplitl [Hc]; · iexact Hc
    isplitl [HL]; · iexact HL
    isplitr; · iapply (mayWait_bar c S); iexact Hlev
    iexact Hat
  rw [rest_bar]
  iintro ⟨HL, Hat, -, Hpay⟩
  iapply Hk
  isplitl [HL]; · iexact HL
  isplitl [Hat]; · iexact Hat
  iexact Hpay

/-- The transfer at offset `h`: the lent share of the own row as its source, row `c` of `peer c h`'s table as its
    destination, a row's credit off what `c` owes; `c` gets the send cell's credit. -/
theorem wp_send_h {α : Type} {Q : α → sProp 𝕄} {k : PUnit → Prog (TpuEff nD τ sig (Elt F) Λ₀ .tc) α}
    (n : Dev nD) (hn : n = peer c h)
    {hsc : (rowM c : Memref sig (Dev.tc n : Thread nD τ).2.kind .vmem S1x256 .f32).view.ref.isScScratch = false}
    {hsrc : (rowM c : Memref sig .tc .vmem S1x256 .f32).view.WordExact} {hdst : (rowM c : Memref sig .tc .vmem S1x256 .f32).view.WordExact}
    {hsem : DmaTarget.Typed .vmem (.dma (recvS h)) (.remote (Dev.tc n : Thread nD τ) (rowM c : Memref sig .tc .vmem S1x256 .f32) (.dma (sendS h)) hsc)}
    (fd : Buf (Elt F) (gLoc (peer c h))) (O : CellTallies nD τ sig Unit) (W : Waits sig Unit) :
    iprop(records m ρ K ∗ rowPts c c (lendQ h) (gath m ρ) ∗ rowPts (peer c h) c fullShare fd
        ∗ owes (c : Thread nD τ) (O + tallyAt (recvCell (peer c h) h) () N) W
        ∗ dutyTok ER (sendCell c h) 0 (0 : Fin 15) ∗ dutyTok ER (recvCell (peer c h) h) 0 (0 : Fin 15))
      ⊢ iprop(((cred (tallyAt (sendCell c h) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op ((.enqueueDma (rowM c) (.remote (Dev.tc n : Thread nD τ) (rowM c) (.dma (sendS h)) hsc) (.dma (recvS h)) hsrc hdst hsem)) k) Q) := by
  subst hn
  unfold rowPts
  iintro ⟨#Hrec, Hsrc, Hdst, HL, HtS, HtR⟩
  iapply (Rounds.wp_send_pointsTo 𝒱₀ ER (agRd m ρ) (c : Thread nD τ) none
    (c' := (peer c h : Thread nD τ)) (src := rowM c) (dst := rowM c) (q := lendQ h) (fs := gath m ρ) (fd := fd)
    (sS := .dma (sendS h)) (sem := .dma (recvS h))
    (κ₁ := K (c, sIdx h)) (κ₂ := K (peer c h, rIdx h)) (r₁ := 0) (r₂ := 0) (d₁ := (0 : Fin 15)) (d₂ := (0 : Fin 15))
    (by rw [duties_send]; exact Finset.mem_singleton_self _) (by rw [duties_recv]; exact Finset.mem_singleton_self _)
    () () N (row_credit c) (amount_send m ρ c h 0) (amount_recv m ρ (peer c h) h 0) O rfl
    (by rw [payload_send]; exact BI.Entails.refl _)
    (by rw [payload_recv]; unfold recvPay; rw [from_peer]
        exact BIBase.Entails.of_eq (rowPts_congr (peer c h) c fullShare (row_landed m ρ (peer c h) c fd))))
  isplitr; · iapply (inv_send m ρ K c h); iexact Hrec
  isplitr; · iapply (inv_recv m ρ K (peer c h) h); iexact Hrec
  isplitl [Hsrc]; · iexact Hsrc
  isplitl [Hdst]; · iexact Hdst
  isplitl [HL]; · iexact HL
  isplitl [HtS]; · iexact HtS
  isplitr; · iapply (reached_send m ρ K c h); iexact Hrec
  isplitl [HtR]; · iexact HtR
  iapply (reached_recv m ρ K (peer c h) h); iexact Hrec

/-- The wait on receive semaphore `h`, owing nothing: row `from c h` of `c`'s table comes back, gathered. -/
theorem wp_recv_wait {α : Type} {Q : α → sProp 𝕄} {k : PUnit → Prog (TpuEff nD τ sig (Elt F) Λ₀ .tc) α}
    (W : Waits sig Unit) {src dst : Memref sig .tc .vmem S1x256 .f32} (hcr : dst.view.dmaCredit = N)
    {hsrc : src.view.WordExact} {hdst : dst.view.WordExact} :
    iprop(records m ρ K ∗ cred (tallyAt (recvCell c h) () N) ∗ owes (c : Thread nD τ) 0 W ∗ atPos ER (recvCell c h) 0 ∅ 0)
      ⊢ iprop(((owes (c : Thread nD τ) 0 (insert (SemLoc.dma (recvS h), ()) W) ∗ atPos ER (recvCell c h) 1 ∅ 0
              ∗ rowPts c («from» c h) fullShare (gath m ρ)) -∗ wp frame (wpE (defs₀ (F := F)) 𝒱₀ (c : Thread nD τ) none) Set.univ (k ⟨⟩) Q)
          -∗ wp frame (wpE (defs₀ (F := F)) 𝒱₀ (c : Thread nD τ) none) Set.univ (.op ((.waitDma2 (recvS h) src dst hsrc hdst)) k) Q) := by
  rw [← hcr]
  iintro ⟨#Hrec, Hc, HL, Hat⟩ Hk
  iapply (Rounds.wp_wait_rest_token 𝒱₀ ER (agRd m ρ) (c : Thread nD τ) none (κ := K (c, rIdx h))
    (w := .waitDma2 (recvS h) src dst hsrc hdst) (sm := .dma (recvS h)) (k' := dst.view.dmaCredit) (Es := Set.univ)
    (wpE_waitDma2_eq 𝒱₀ (c : Thread nD τ) none Set.univ) (Set.mem_univ _) () (O := 0) (W := W) (R := 0) (m := 0) (T := ∅)
    (by rw [expect_recv]; exact (zero_add _).trans hcr)) $$ [Hc HL Hat]
  · isplitr; · iapply (inv_recv m ρ K c h); iexact Hrec
    isplitl [Hc]; · iexact Hc
    isplitl [HL]; · iexact HL
    isplitr; · rw [MayWait_zero]; try iempintro
    iexact Hat
  rw [rest_recv, recvPay]
  iintro ⟨HL, Hat, -, Hpay⟩
  iapply Hk
  isplitl [HL]; · iexact HL
  isplitl [Hat]; · iexact Hat
  iexact Hpay

/-- The wait on send semaphore `h`, owing nothing: the lent share of the own row comes back. -/
theorem wp_send_wait {α : Type} {Q : α → sProp 𝕄} {k : PUnit → Prog (TpuEff nD τ sig (Elt F) Λ₀ .tc) α}
    (W : Waits sig Unit) {src dst : Memref sig .tc .vmem S1x256 .f32} (hcr : dst.view.dmaCredit = N)
    {hsrc : src.view.WordExact} {hdst : dst.view.WordExact} :
    iprop(records m ρ K ∗ cred (tallyAt (sendCell c h) () N) ∗ owes (c : Thread nD τ) 0 W ∗ atPos ER (sendCell c h) 0 ∅ 0)
      ⊢ iprop(((owes (c : Thread nD τ) 0 (insert (SemLoc.dma (sendS h), ()) W) ∗ atPos ER (sendCell c h) 1 ∅ 0
              ∗ rowPts c c (lendQ h) (gath m ρ)) -∗ wp frame (wpE (defs₀ (F := F)) 𝒱₀ (c : Thread nD τ) none) Set.univ (k ⟨⟩) Q)
          -∗ wp frame (wpE (defs₀ (F := F)) 𝒱₀ (c : Thread nD τ) none) Set.univ (.op ((.waitDma2 (sendS h) src dst hsrc hdst)) k) Q) := by
  rw [← hcr]
  iintro ⟨#Hrec, Hc, HL, Hat⟩ Hk
  iapply (Rounds.wp_wait_rest_token 𝒱₀ ER (agRd m ρ) (c : Thread nD τ) none (κ := K (c, sIdx h))
    (w := .waitDma2 (sendS h) src dst hsrc hdst) (sm := .dma (sendS h)) (k' := dst.view.dmaCredit) (Es := Set.univ)
    (wpE_waitDma2_eq 𝒱₀ (c : Thread nD τ) none Set.univ) (Set.mem_univ _) () (O := 0) (W := W) (R := 0) (m := 0) (T := ∅)
    (by rw [expect_send]; exact (zero_add _).trans hcr)) $$ [Hc HL Hat]
  · isplitr; · iapply (inv_send m ρ K c h); iexact Hrec
    isplitl [Hc]; · iexact Hc
    isplitl [HL]; · iexact HL
    isplitr; · rw [MayWait_zero]; try iempintro
    iexact Hat
  rw [rest_send, sendPay]
  iintro ⟨HL, Hat, -, Hpay⟩
  iapply Hk
  isplitl [HL]; · iexact HL
  isplitl [Hat]; · iexact Hat
  iexact Hpay

/-- An own cell whose one round is over is closed: its counter stands at zero for good. -/
theorem close_send : iprop(records m ρ K ∗ atPos ER (sendCell c h) 1 ∅ 0) ⊢ (|={Set.univ}=> semVal (sendCell c h) 0 : sProp 𝕄) := by
  iintro ⟨#Hrec, Hat⟩
  iapply (Rounds.cell_close ER (agRd m ρ) (g := sendCell c h) (κ := K (c, sIdx h)) (Es := Set.univ) (Set.mem_univ _) (fun hu => hu) (R := 1)
    (duties_later m ρ (sendCell c h)))
  isplitr; · iapply (inv_send m ρ K c h); iexact Hrec
  iexact Hat
theorem close_recv : iprop(records m ρ K ∗ atPos ER (recvCell c h) 1 ∅ 0) ⊢ (|={Set.univ}=> semVal (recvCell c h) 0 : sProp 𝕄) := by
  iintro ⟨#Hrec, Hat⟩
  iapply (Rounds.cell_close ER (agRd m ρ) (g := recvCell c h) (κ := K (c, rIdx h)) (Es := Set.univ) (Set.mem_univ _) (fun hu => hu) (R := 1)
    (duties_later m ρ (recvCell c h)))
  isplitr; · iapply (inv_recv m ρ K c h); iexact Hrec
  iexact Hat

/-- info: 'Cert.Kernel.AG.inv_at' depends on axioms: [propext, Classical.choice, Quot.sound] -/
#guard_msgs in #print axioms inv_at

/-- info: 'Cert.Kernel.AG.reached_at' depends on axioms: [propext, Classical.choice, Quot.sound] -/
#guard_msgs in #print axioms reached_at

/-- info: 'Cert.Kernel.AG.inv_bar' depends on axioms: [propext, Classical.choice, Quot.sound] -/
#guard_msgs in #print axioms inv_bar

/-- info: 'Cert.Kernel.AG.reached_bar' depends on axioms: [propext, Classical.choice, Quot.sound] -/
#guard_msgs in #print axioms reached_bar

/-- info: 'Cert.Kernel.AG.inv_send' depends on axioms: [propext, Classical.choice, Quot.sound] -/
#guard_msgs in #print axioms inv_send

/-- info: 'Cert.Kernel.AG.reached_send' depends on axioms: [propext, Classical.choice, Quot.sound] -/
#guard_msgs in #print axioms reached_send

/-- info: 'Cert.Kernel.AG.inv_recv' depends on axioms: [propext, Classical.choice, Quot.sound] -/
#guard_msgs in #print axioms inv_recv

/-- info: 'Cert.Kernel.AG.reached_recv' depends on axioms: [propext, Classical.choice, Quot.sound] -/
#guard_msgs in #print axioms reached_recv

/-- info: 'Cert.Kernel.AG.wp_sig' depends on axioms: [propext, Classical.choice, Quot.sound] -/
#guard_msgs in #print axioms wp_sig

/-- info: 'Cert.Kernel.AG.owedRecv_pos' depends on axioms: [propext, Classical.choice, Quot.sound] -/
#guard_msgs in #print axioms owedRecv_pos

/-- info: 'Cert.Kernel.AG.mayWait_bar' depends on axioms: [propext, Classical.choice, Quot.sound] -/
#guard_msgs in #print axioms mayWait_bar

/-- info: 'Cert.Kernel.AG.wp_bar_wait' depends on axioms: [propext, Classical.choice, Quot.sound] -/
#guard_msgs in #print axioms wp_bar_wait

/-- info: 'Cert.Kernel.AG.wp_send_h' depends on axioms: [propext, Classical.choice, Quot.sound] -/
#guard_msgs in #print axioms wp_send_h

/-- info: 'Cert.Kernel.AG.wp_recv_wait' depends on axioms: [propext, Classical.choice, Quot.sound] -/
#guard_msgs in #print axioms wp_recv_wait

/-- info: 'Cert.Kernel.AG.wp_send_wait' depends on axioms: [propext, Classical.choice, Quot.sound] -/
#guard_msgs in #print axioms wp_send_wait

/-- info: 'Cert.Kernel.AG.close_send' depends on axioms: [propext, Classical.choice, Quot.sound] -/
#guard_msgs in #print axioms close_send

/-- info: 'Cert.Kernel.AG.close_recv' depends on axioms: [propext, Classical.choice, Quot.sound] -/
#guard_msgs in #print axioms close_recv

end Steps

end Cert.Kernel.AG

end
-- ==== Proof.Kernel.BodyAux.lean ====
import proofs.«900607_g7700000000000608_dist_sum_ax0_shard0_i_m512_n256_v7x_i16_bf16_1_alg».proof.Proof.Kernel.Steps

/-!
Small facts the body's run leans on: one element out of a big separating conjunction; the other fifteen devices counted
either way round; a device's thirty own cells as its send cells and its receive cells; which semaphore a slot of a
semaphore array names; what the input window holds when the body starts; what the device owes going in and coming out.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Big separating conjunctions -/

/-- One element out of a big separating conjunction. -/
theorem bigSep_take {I : Type} [DecidableEq I] {S : Finset I} {i : I} (hi : i ∈ S) (Φ : I → sProp 𝕄) :
    bigSep S Φ = iprop(Φ i ∗ bigSep (S.erase i) Φ) := bigSep_erase hi

/-- Offset `d` backwards is offset `14 - d` forwards. -/
theorem peer_rev (c : Dev nD) (d : Fin 15) : peer c (Fin.rev d) = «from» c d := by revert c d; decide

/-- The other fifteen devices, counted by who sends to `c` or by whom `c` sends to: the same fifteen. -/
theorem others_reindex (c : Dev nD) (Φ : Dev nD → sProp 𝕄) :
    bigSep Finset.univ (fun d : Fin 15 => Φ («from» c d)) = bigSep Finset.univ (fun h : Fin 15 => Φ (peer c h)) := by
  refine (bigSep_congr fun d _ => ?_).trans (bigSep_univ_equiv (Fin.revPerm : Fin 15 ≃ Fin 15) (fun h : Fin 15 => Φ (peer c h))).symm
  show Φ («from» c d) = Φ (peer c (Fin.rev d))
  rw [peer_rev]

/-- A device's thirty own cells are its fifteen send cells and its fifteen receive cells. -/
theorem own_cells_split (c : Dev nD) (Φ : GSem nD τ sig → sProp 𝕄) :
    bigSep Finset.univ (fun k : Fin 30 => Φ ((c : Thread nD τ), osem k))
      = iprop(bigSep Finset.univ (fun h : Fin 15 => Φ (sendCell c h)) ∗ bigSep Finset.univ (fun h : Fin 15 => Φ (recvCell c h))) := by
  rw [bigSep_univ_equiv (finSumFinEquiv : Fin 15 ⊕ Fin 15 ≃ Fin 30) (fun k : Fin 30 => Φ ((c : Thread nD τ), osem k)), bigSep_univ_sum]
  have hs : ∀ h : Fin 15, (((c : Thread nD τ), osem ((finSumFinEquiv : Fin 15 ⊕ Fin 15 ≃ Fin 30) (Sum.inl h))) : GSem nD τ sig) = sendCell c h :=
    fun h => congrArg (fun q => ((c : Thread nD τ), SemLoc.dma q)) (Fin.ext (by rw [finSumFinEquiv_apply_left]; rfl))
  have hr : ∀ h : Fin 15, (((c : Thread nD τ), osem ((finSumFinEquiv : Fin 15 ⊕ Fin 15 ≃ Fin 30) (Sum.inr h))) : GSem nD τ sig) = recvCell c h :=
    fun h => congrArg (fun q => ((c : Thread nD τ), SemLoc.dma q))
      (Fin.ext (by rw [finSumFinEquiv_apply_right]; show 2 + (15 + h.val) = 17 + h.val; omega))
  rw [bigSep_congr fun h _ => congrArg Φ (hs h), bigSep_congr fun h _ => congrArg Φ (hr h)]
  rfl

/-! ## The semaphore arrays -/

/-- Of fifteen consecutive semaphores from `base`, the one-slot slice at `h`, squeezed, names semaphore `base + h`. -/
theorem slot_val (base : ℕ) (hb : base + S15.numel ≤ 32) (h : Fin 15)
    (inb : ∀ a, (![h.val] : Fin 1 → Nat) a + S1.size a ≤ S15.size a) :
    ((((SemArray.consecutive base S15 hb : DmaSems sig S15).slice (Rect.unit (s := S15) ![h.val] S1.size inb)).squeeze S_ squeezes_S1_S_).sem).val
      = base + h.val := by
  have key : ∀ x : S1.Idx, (S15.rowMajor ((Rect.unit (s := S15) ![h.val] S1.size inb).emb x)).val = h.val := by
    intro x
    rw [Shape.rowMajor_val_one, Rect.emb_apply]
    have hx : (x 0).val < 1 := (x 0).isLt
    show h.val + 1 * (x 0).val = h.val
    omega
  exact congrArg (base + ·) (key _)

/-- Slot `h` of the send array is send semaphore `h`; slot `h` of the receive array is receive semaphore `h`. -/
theorem send_sem_eq (h : Fin 15) (inb : ∀ a, (![h.val] : Fin 1 → Nat) a + S1.size a ≤ S15.size a) :
    ((cc0_scratch1.slice (Rect.unit (s := S15) ![h.val] S1.size inb)).squeeze S_ squeezes_S1_S_).sem = sendS h :=
  Fin.ext (slot_val 2 hcc0_scratch1 h inb)
theorem recv_sem_eq (h : Fin 15) (inb : ∀ a, (![h.val] : Fin 1 → Nat) a + S1.size a ≤ S15.size a) :
    ((cc0_scratch2.slice (Rect.unit (s := S15) ![h.val] S1.size inb)).squeeze S_ squeezes_S1_S_).sem = recvS h :=
  Fin.ext (slot_val 17 hcc0_scratch2 h inb)

/-! ## What the pipeline hands the body -/

/-- What the pipeline hands the body for the input window is the staged block. -/
theorem before_x (c : Dev nD) (d) : (dats m ρ 0 c).before (0 : Fin 2) t₀ d = xstg m ρ c := by
  unfold Dat.before
  rw [if_pos (show (cfg0.win (0 : Fin 2)).fetch t₀ = true from rfl)]
  rfl

/-- What the device owes going into the point, and coming out of it: the launch's tallies, then nothing, over whatever
    waits are recorded. -/
theorem owesAt_eq (c : Dev nD) (t : Fin (cfg0.N + 1)) :
    (dats m ρ 0 c).owesAt () t = (iprop(∃ W : Waits sig Unit, owes (c : Thread nD τ) ((dats m ρ 0 c).owed t) W) : sProp 𝕄) := by
  have h₁ : (dats m ρ 0 c).owesAt () t ⊢ (iprop(∃ W : Waits sig Unit, owes (c : Thread nD τ) ((dats m ρ 0 c).owed t) W) : sProp 𝕄) := by
    unfold Dat.owesAt Pipeline.owesWithin
    iintro ⟨%W, %hW, H⟩; iexists W; iexact H
  have h₂ : (iprop(∃ W : Waits sig Unit, owes (c : Thread nD τ) ((dats m ρ 0 c).owed t) W) : sProp 𝕄) ⊢ (dats m ρ 0 c).owesAt () t := by
    unfold Dat.owesAt Pipeline.owesWithin
    iintro ⟨%W, H⟩; iexists W; isplitr
    · ipureintro; exact fun _ _ => Or.inl trivial
    · iexact H
  exact BI.equiv_iff.mp ⟨h₁, h₂⟩
theorem owesAt_in (c : Dev nD) :
    (dats m ρ 0 c).owesAt () t₀.castSucc = (iprop(∃ W : Waits sig Unit, owes (c : Thread nD τ) (O₀ c) W) : sProp 𝕄) :=
  owesAt_eq m ρ c t₀.castSucc
theorem owesAt_out (c : Dev nD) :
    (dats m ρ 0 c).owesAt () t₀.succ = (iprop(∃ W : Waits sig Unit, owes (c : Thread nD τ) 0 W) : sProp 𝕄) :=
  owesAt_eq m ρ c t₀.succ

/-- info: 'Cert.Kernel.AG.bigSep_take' depends on axioms: [propext, Classical.choice, Quot.sound] -/
#guard_msgs in #print axioms bigSep_take
/-- info: 'Cert.Kernel.AG.others_reindex' depends on axioms: [propext, Classical.choice, Quot.sound] -/
#guard_msgs in #print axioms others_reindex
/-- info: 'Cert.Kernel.AG.own_cells_split' depends on axioms: [propext, Classical.choice, Quot.sound] -/
#guard_msgs in #print axioms own_cells_split
/-- info: 'Cert.Kernel.AG.send_sem_eq' depends on axioms: [propext, Classical.choice, Quot.sound] -/
#guard_msgs in #print axioms send_sem_eq
/-- info: 'Cert.Kernel.AG.recv_sem_eq' depends on axioms: [propext, Classical.choice, Quot.sound] -/
#guard_msgs in #print axioms recv_sem_eq
/-- info: 'Cert.Kernel.AG.before_x' depends on axioms: [propext, Classical.choice, Quot.sound] -/
#guard_msgs in #print axioms before_x
/-- info: 'Cert.Kernel.AG.owesAt_in' depends on axioms: [propext, Classical.choice, Quot.sound] -/
#guard_msgs in #print axioms owesAt_in
/-- info: 'Cert.Kernel.AG.owesAt_out' depends on axioms: [propext, Classical.choice, Quot.sound] -/
#guard_msgs in #print axioms owesAt_out

end Cert.Kernel.AG

end
-- ==== Proof.Kernel.BodyAuxB.lean ====
import proofs.«900607_g7700000000000608_dist_sum_ax0_shard0_i_m512_n256_v7x_i16_bf16_1_alg».proof.Proof.Kernel.Steps

/-!
One offset's step of each kind — the barrier signal, the transfer, the wait for a landing, the wait for a source —
stated over what the offsets still to come hold and what the offsets done have left: the first offset still to come
is taken out, stepped, and put with those done.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The offsets still to come, and those done -/

/-- The offsets from `k` on. -/
def rem (k : ℕ) : Finset (Fin 15) := Finset.univ.filter fun h => k ≤ h.val
/-- The offsets before `k`. -/
def don (k : ℕ) : Finset (Fin 15) := Finset.univ.filter fun h => h.val < k

theorem rem_zero : rem 0 = Finset.univ := by
  ext h; simp only [rem, Finset.mem_filter, Finset.mem_univ, true_and, Nat.zero_le]
theorem rem_end : rem 15 = ∅ := by
  ext h; simp only [rem, Finset.mem_filter, Finset.mem_univ, true_and, Finset.notMem_empty, iff_false]; omega
theorem don_zero : don 0 = ∅ := by
  ext h; simp only [don, Finset.mem_filter, Finset.mem_univ, true_and, Finset.notMem_empty, iff_false]; omega
theorem don_end : don 15 = Finset.univ := by
  ext h; simp only [don, Finset.mem_filter, Finset.mem_univ, true_and, iff_true]; exact h.isLt
theorem rem_succ (k : ℕ) (hk : k < 15) : rem k = insert (⟨k, hk⟩ : Fin 15) (rem (k + 1)) := by
  ext h; simp only [rem, Finset.mem_filter, Finset.mem_univ, true_and, Finset.mem_insert, Fin.ext_iff]; omega
theorem not_mem_rem (k : ℕ) (hk : k < 15) : (⟨k, hk⟩ : Fin 15) ∉ rem (k + 1) := by
  simp only [rem, Finset.mem_filter, Finset.mem_univ, true_and]; omega
theorem don_succ (k : ℕ) (hk : k < 15) : don (k + 1) = insert (⟨k, hk⟩ : Fin 15) (don k) := by
  ext h; simp only [don, Finset.mem_filter, Finset.mem_univ, true_and, Finset.mem_insert, Fin.ext_iff]; omega
theorem not_mem_don (k : ℕ) (hk : k < 15) : (⟨k, hk⟩ : Fin 15) ∉ don k := by
  simp only [don, Finset.mem_filter, Finset.mem_univ, true_and]; omega

/-- The first of the offsets still to come, and the others. -/
theorem bigSep_rem (k : ℕ) (hk : k < 15) (Φ : Fin 15 → sProp 𝕄) :
    bigSep (rem k) Φ = iprop(Φ ⟨k, hk⟩ ∗ bigSep (rem (k + 1)) Φ) := by
  rw [rem_succ k hk, bigSep_insert (not_mem_rem k hk)]; rfl
/-- The last of the offsets done, and those before it. -/
theorem bigSep_don (k : ℕ) (hk : k < 15) (Φ : Fin 15 → sProp 𝕄) :
    bigSep (don (k + 1)) Φ = iprop(Φ ⟨k, hk⟩ ∗ bigSep (don k) Φ) := by
  rw [don_succ k hk, bigSep_insert (not_mem_don k hk)]; rfl

theorem owedBar_rem (c : Dev nD) (k : ℕ) (hk : k < 15) :
    owedBar c (rem k) = owedBar c (rem (k + 1)) + tallyAt (barCell (peer c ⟨k, hk⟩)) () 1 := by
  unfold owedBar; rw [rem_succ k hk, Finset.sum_insert (not_mem_rem k hk), add_comm]
theorem owedRecv_rem (c : Dev nD) (k : ℕ) (hk : k < 15) :
    owedRecv c (rem k) = owedRecv c (rem (k + 1)) + tallyAt (recvCell (peer c ⟨k, hk⟩) ⟨k, hk⟩) () N := by
  unfold owedRecv; rw [rem_succ k hk, Finset.sum_insert (not_mem_rem k hk), add_comm]

/-! ## One offset's step of each kind, over what the offsets still to come hold -/

section StepsB
variable (K : Dev nD × Fin 31 → ℕ) (c : Dev nD)

/-- The barrier signal at offset `k`: the first of the signals still to be sent. -/
theorem sig_step (k k1 : ℕ) (hk : k < 15) (e : k1 = k + 1) (n : Dev nD) (hn : n = peer c ⟨k, hk⟩)
    (f0 : Buf (Elt F) (gLoc c)) (W : Waits sig Unit)
    {α : Type} {Q : α → sProp 𝕄} {k' : PUnit → Prog (TpuEff nD τ sig (Elt F) Λ₀ .tc) α} :
    iprop(records m ρ K
        ∗ owes (c : Thread nD τ) (owedRecv c (rem 0) + owedBar c (rem k)) W
        ∗ bigSep (rem k) (fun h => dutyTok ER (barCell (peer c h)) 0 h)
        ∗ bigSep (rem k) (fun h => rowPts (F := F) c (peer c h) fullShare f0))
      ⊢ iprop(((owes (c : Thread nD τ) (owedRecv c (rem 0) + owedBar c (rem k1)) W
              ∗ bigSep (rem k1) (fun h => dutyTok ER (barCell (peer c h)) 0 h)
              ∗ bigSep (rem k1) (fun h => rowPts (F := F) c (peer c h) fullShare f0))
            -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal ((n : Dev nD) : Thread nD τ) barS 1) k') Q) := by
  subst e
  rw [bigSep_rem k hk, bigSep_rem k hk, owedBar_rem c k hk, ← add_assoc]
  iintro ⟨#Hrec, Howe, ⟨Ht, HTB⟩, ⟨Hrow, HRW⟩⟩ Hk
  iapply (wp_sig m ρ K c ⟨k, hk⟩ n hn (owedRecv c (rem 0) + owedBar c (rem (k + 1))) W) $$ [Howe Ht Hrow]
  · isplitr; · iexact Hrec
    isplitl [Howe]; · iexact Howe
    isplitl [Ht]; · iexact Ht
    iexists f0; iexact Hrow
  iintro Howe
  iapply Hk
  isplitl [Howe]; · iexact Howe
  isplitl [HTB]; · iexact HTB
  iexact HRW

/-- The transfer at offset `k`: the first of the transfers still to be started. -/
theorem send_step (k k1 : ℕ) (hk : k < 15) (e : k1 = k + 1) (n : Dev nD) (hn : n = peer c ⟨k, hk⟩)
    {hsc : (rowM c : Memref sig (Dev.tc n : Thread nD τ).2.kind .vmem S1x256 .f32).view.ref.isScScratch = false}
    {hsrc : (rowM c : Memref sig .tc .vmem S1x256 .f32).view.WordExact} {hdst : (rowM c : Memref sig .tc .vmem S1x256 .f32).view.WordExact}
    {hsem : DmaTarget.Typed .vmem (.dma (recvS ⟨k, hk⟩)) (.remote (Dev.tc n : Thread nD τ) (rowM c : Memref sig .tc .vmem S1x256 .f32) (.dma (sendS ⟨k, hk⟩)) hsc)}
    (W : Waits sig Unit)
    {α : Type} {Q : α → sProp 𝕄} {k' : PUnit → Prog (TpuEff nD τ sig (Elt F) Λ₀ .tc) α} :
    iprop(records m ρ K
        ∗ owes (c : Thread nD τ) (owedRecv c (rem k)) W
        ∗ bigSep (rem k) (fun h => dutyTok ER (sendCell c h) 0 (0 : Fin 15))
        ∗ bigSep (rem k) (fun h => dutyTok ER (recvCell (peer c h) h) 0 (0 : Fin 15))
        ∗ bigSep (rem k) (fun h => rowPts c c (lendQ h) (gath m ρ))
        ∗ bigSep (rem k) (fun h => iprop(∃ fd, rowPts (F := F) (peer c h) c fullShare fd))
        ∗ bigSep (don k) (fun h => (cred (tallyAt (sendCell c h) () N) : sProp 𝕄)))
      ⊢ iprop(((owes (c : Thread nD τ) (owedRecv c (rem k1)) W
              ∗ bigSep (rem k1) (fun h => dutyTok ER (sendCell c h) 0 (0 : Fin 15))
              ∗ bigSep (rem k1) (fun h => dutyTok ER (recvCell (peer c h) h) 0 (0 : Fin 15))
              ∗ bigSep (rem k1) (fun h => rowPts c c (lendQ h) (gath m ρ))
              ∗ bigSep (rem k1) (fun h => iprop(∃ fd, rowPts (F := F) (peer c h) c fullShare fd))
              ∗ bigSep (don k1) (fun h => (cred (tallyAt (sendCell c h) () N) : sProp 𝕄)))
            -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma (rowM c) (.remote (Dev.tc n : Thread nD τ) (rowM c) (.dma (sendS ⟨k, hk⟩)) hsc) (.dma (recvS ⟨k, hk⟩)) hsrc hdst hsem) k') Q) := by
  subst e
  rw [bigSep_rem k hk, bigSep_rem k hk, bigSep_rem k hk, bigSep_rem k hk, bigSep_don k hk, owedRecv_rem c k hk]
  iintro ⟨#Hrec, Howe, ⟨Hts, HTS⟩, ⟨Htr, HTR⟩, ⟨Hl, HLD⟩, ⟨⟨%fd, Hd⟩, HDST⟩, HCS⟩ Hk
  iapply (wp_send_h m ρ K c ⟨k, hk⟩ n hn (hsc := hsc) (hsrc := hsrc) (hdst := hdst) (hsem := hsem) fd (owedRecv c (rem (k + 1))) W) $$ [Howe Hts Htr Hl Hd]
  · isplitr; · iexact Hrec
    isplitl [Hl]; · iexact Hl
    isplitl [Hd]; · iexact Hd
    isplitl [Howe]; · iexact Howe
    isplitl [Hts]; · iexact Hts
    iexact Htr
  iintro ⟨Hc, Howe⟩
  iapply Hk
  isplitl [Howe]; · iexact Howe
  isplitl [HTS]; · iexact HTS
  isplitl [HTR]; · iexact HTR
  isplitl [HLD]; · iexact HLD
  isplitl [HDST]; · iexact HDST
  isplitl [Hc]; · iexact Hc
  iexact HCS

/-- The wait on receive semaphore `k`: the first of the landings still awaited. -/
theorem recv_wait_step (k k1 : ℕ) (hk : k < 15) (e : k1 = k + 1)
    {src dst : Memref sig .tc .vmem S1x256 .f32} (hcr : dst.view.dmaCredit = N)
    {hsrc : src.view.WordExact} {hdst : dst.view.WordExact}
    {α : Type} {Q : α → sProp 𝕄} {k' : PUnit → Prog (TpuEff nD τ sig (Elt F) Λ₀ .tc) α} :
    iprop(records m ρ K
        ∗ (∃ W, owes (c : Thread nD τ) 0 W)
        ∗ bigSep (rem k) (fun h => (cred (tallyAt (recvCell c h) () N) : sProp 𝕄))
        ∗ bigSep (rem k) (fun h => atPos ER (recvCell c h) 0 ∅ 0)
        ∗ bigSep (don k) (fun h => atPos ER (recvCell c h) 1 ∅ 0)
        ∗ bigSep (don k) (fun h => rowPts c («from» c h) fullShare (gath m ρ)))
      ⊢ iprop((((∃ W, owes (c : Thread nD τ) 0 W)
              ∗ bigSep (rem k1) (fun h => (cred (tallyAt (recvCell c h) () N) : sProp 𝕄))
              ∗ bigSep (rem k1) (fun h => atPos ER (recvCell c h) 0 ∅ 0)
              ∗ bigSep (don k1) (fun h => atPos ER (recvCell c h) 1 ∅ 0)
              ∗ bigSep (don k1) (fun h => rowPts c («from» c h) fullShare (gath m ρ)))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (recvS ⟨k, hk⟩) src dst hsrc hdst) k') Q) := by
  subst e
  rw [bigSep_rem k hk, bigSep_rem k hk, bigSep_don k hk, bigSep_don k hk]
  iintro ⟨#Hrec, ⟨%W, Howe⟩, ⟨Hc, HCR⟩, ⟨Hp, HPR⟩, HPD, HRD⟩ Hk
  iapply (wp_recv_wait m ρ K c ⟨k, hk⟩ W hcr (hsrc := hsrc) (hdst := hdst)) $$ [Howe Hc Hp]
  · isplitr; · iexact Hrec
    isplitl [Hc]; · iexact Hc
    isplitl [Howe]; · iexact Howe
    iexact Hp
  iintro ⟨Howe, Hp, Hrow⟩
  iapply Hk
  isplitl [Howe]; · iexists _; iexact Howe
  isplitl [HCR]; · iexact HCR
  isplitl [HPR]; · iexact HPR
  isplitl [Hp HPD]; · isplitl [Hp]; · iexact Hp
                      iexact HPD
  isplitl [Hrow]; · iexact Hrow
  iexact HRD

/-- The wait on send semaphore `k`: the first of the sources still awaited. -/
theorem send_wait_step (k k1 : ℕ) (hk : k < 15) (e : k1 = k + 1)
    {src dst : Memref sig .tc .vmem S1x256 .f32} (hcr : dst.view.dmaCredit = N)
    {hsrc : src.view.WordExact} {hdst : dst.view.WordExact}
    {α : Type} {Q : α → sProp 𝕄} {k' : PUnit → Prog (TpuEff nD τ sig (Elt F) Λ₀ .tc) α} :
    iprop(records m ρ K
        ∗ (∃ W, owes (c : Thread nD τ) 0 W)
        ∗ bigSep (rem k) (fun h => (cred (tallyAt (sendCell c h) () N) : sProp 𝕄))
        ∗ bigSep (rem k) (fun h => atPos ER (sendCell c h) 0 ∅ 0)
        ∗ bigSep (don k) (fun h => atPos ER (sendCell c h) 1 ∅ 0)
        ∗ bigSep (don k) (fun h => rowPts c c (lendQ h) (gath m ρ)))
      ⊢ iprop((((∃ W, owes (c : Thread nD τ) 0 W)
              ∗ bigSep (rem k1) (fun h => (cred (tallyAt (sendCell c h) () N) : sProp 𝕄))
              ∗ bigSep (rem k1) (fun h => atPos ER (sendCell c h) 0 ∅ 0)
              ∗ bigSep (don k1) (fun h => atPos ER (sendCell c h) 1 ∅ 0)
              ∗ bigSep (don k1) (fun h => rowPts c c (lendQ h) (gath m ρ)))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (sendS ⟨k, hk⟩) src dst hsrc hdst) k') Q) := by
  subst e
  rw [bigSep_rem k hk, bigSep_rem k hk, bigSep_don k hk, bigSep_don k hk]
  iintro ⟨#Hrec, ⟨%W, Howe⟩, ⟨Hc, HCR⟩, ⟨Hp, HPR⟩, HPD, HRD⟩ Hk
  iapply (wp_send_wait m ρ K c ⟨k, hk⟩ W hcr (hsrc := hsrc) (hdst := hdst)) $$ [Howe Hc Hp]
  · isplitr; · iexact Hrec
    isplitl [Hc]; · iexact Hc
    isplitl [Howe]; · iexact Howe
    iexact Hp
  iintro ⟨Howe, Hp, Hrow⟩
  iapply Hk
  isplitl [Howe]; · iexists _; iexact Howe
  isplitl [HCR]; · iexact HCR
  isplitl [HPR]; · iexact HPR
  isplitl [Hp HPD]; · isplitl [Hp]; · iexact Hp
                      iexact HPD
  isplitl [Hrow]; · iexact Hrow
  iexact HRD

end StepsB

/-- info: 'Cert.Kernel.AG.send_wait_step' depends on axioms: [propext, Classical.choice, Quot.sound] -/
#guard_msgs in #print axioms send_wait_step

end Cert.Kernel.AG

end
-- ==== Proof.Kernel.BodyAuxC.lean ====
import proofs.«900607_g7700000000000608_dist_sum_ax0_shard0_i_m512_n256_v7x_i16_bf16_1_alg».proof.Proof.Kernel.Steps
import proofs.«900607_g7700000000000608_dist_sum_ax0_shard0_i_m512_n256_v7x_i16_bf16_1_alg».proof.Proof.Kernel.BodyAux

/-!
The rows' bookkeeping round the body's local steps, and closing the own cells: entailments with no program in them.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Bookkeeping
variable (K : Dev nD × Fin 31 → ℕ) (c : Dev nD)

/-- The table whole is the own row and the fifteen rows at the offsets signalled to. -/
theorem table_peers (f : Buf (Elt F) (gLoc c)) :
    ((gLoc c ↦{fullShare} f) : sProp 𝕄)
      = iprop(rowPts (F := F) c c fullShare f ∗ bigSep Finset.univ (fun h : Fin 15 => rowPts (F := F) c (peer c h) fullShare f)) :=
  (whole_eq_rows c fullShare f).trans (rows_peers c _)

/-- What the barrier hands over, counted by the offsets sent at: for each, some contents of row `c` of that device's table. -/
theorem bar_rows :
    bigSep Finset.univ (fun d : Fin 15 => barPay (F := F) c d)
      ⊢ bigSep Finset.univ (fun h : Fin 15 => iprop(∃ fd, rowPts (F := F) (peer c h) c fullShare fd)) := by
  have e := others_reindex (F := F) c (fun j : Dev nD => (iprop(∃ f, rowPts (F := F) j c fullShare f) : sProp 𝕄))
  unfold barPay
  exact Entails.of_eq e

/-- The own row, once written, cut into the half kept, the fifteen shares lent and the last piece, all over the gathered table. -/
theorem own_row_cut (f : Buf (Elt F) (gLoc c)) :
    rowPts (F := F) c c fullShare (((gM : Memref sig .tc .vmem S16x256 .f32).access (ownRect c) : View sig .tc _ _ _).write (Elt F) f (k0_pay1 (xstg m ρ c)) Finset.univ)
      ⊢ iprop(rowPts c c keepQ (gath m ρ) ∗ (bigSep Finset.univ fun h : Fin 15 => rowPts c c (lendQ h) (gath m ρ)) ∗ rowPts c c (restQ 15) (gath m ρ)) := by
  rw [rowPts_congr c c fullShare (own_row_written m ρ c f)]
  exact (rowPts_cut c c (gath m ρ)).1

/-- The other fifteen rows, each at a share, are their left halves and their right halves. -/
theorem others_halves (q : PosShare TreeShare) (g : Buf (Elt F) (gLoc c)) :
    bigSep Finset.univ (fun h : Fin 15 => rowPts (F := F) c («from» c h) q g)
      = iprop(bigSep Finset.univ (fun h : Fin 15 => rowPts (F := F) c («from» c h) q.left g)
          ∗ bigSep Finset.univ (fun h : Fin 15 => rowPts (F := F) c («from» c h) q.right g)) :=
  (bigSep_congr fun h _ => rowPts_halves_eq c («from» c h) q g).trans (bigSep_sep _ _ _)

/-- The table at a share is the own row and the other fifteen rows at that share. -/
theorem table_froms (q : PosShare TreeShare) (g : Buf (Elt F) (gLoc c)) :
    ((gLoc c ↦{q} g) : sProp 𝕄)
      = iprop(rowPts (F := F) c c q g ∗ bigSep Finset.univ (fun h : Fin 15 => rowPts (F := F) c («from» c h) q g)) :=
  (whole_eq_rows c q g).trans (rows_froms c _)

/-- The kept half of the own row and the other fifteen rows landed: the whole table at the kept share, and the others' right halves. -/
theorem table_read_share :
    iprop(rowPts c c keepQ (gath m ρ) ∗ bigSep Finset.univ (fun h : Fin 15 => rowPts c («from» c h) fullShare (gath m ρ)))
      ⊢ iprop((gLoc c ↦{keepQ} gath m ρ) ∗ bigSep Finset.univ (fun h : Fin 15 => rowPts c («from» c h) fullShare.right (gath m ρ))) := by
  rw [others_halves c fullShare (gath m ρ), table_froms c keepQ (gath m ρ)]
  iintro ⟨HK, HL, HR⟩
  isplitl [HK HL]
  · isplitl [HK]
    · iexact HK
    · iexact HL
  · iexact HR

/-- All shares back: the table whole over the gathered contents. -/
theorem table_whole_back :
    iprop((gLoc c ↦{keepQ} gath m ρ) ∗ bigSep Finset.univ (fun h : Fin 15 => rowPts c («from» c h) fullShare.right (gath m ρ))
        ∗ (bigSep Finset.univ fun h : Fin 15 => rowPts c c (lendQ h) (gath m ρ)) ∗ rowPts c c (restQ 15) (gath m ρ))
      ⊢ ((gLoc c ↦{fullShare} gath m ρ) : sProp 𝕄) := by
  rw [table_froms c fullShare (gath m ρ), others_halves c fullShare (gath m ρ), table_froms c keepQ (gath m ρ)]
  iintro ⟨⟨HK, HL⟩, HR, HLend, HRest⟩
  isplitl [HK HLend HRest]
  · iapply (rowPts_cut c c (gath m ρ)).2
    isplitl [HK]
    · iexact HK
    · isplitl [HLend]
      · iexact HLend
      · iexact HRest
  · isplitl [HL]
    · iexact HL
    · iexact HR

/-- A persistent assertion beside a big separating conjunction serves every summand. -/
theorem bigSep_pers_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The thirty own cells, each one round over, closed. -/
theorem close_all :
    iprop(records m ρ K ∗ bigSep Finset.univ (fun h : Fin 15 => atPos ER (sendCell c h) 1 ∅ 0)
        ∗ bigSep Finset.univ (fun h : Fin 15 => atPos ER (recvCell c h) 1 ∅ 0))
      ⊢ (|={Set.univ}=> bigSep Finset.univ (fun k : Fin 30 => semVal ((c : Thread nD τ), osem k) 0) : sProp 𝕄) := by
  rw [own_cells_split (F := F) c (fun g => (semVal g 0 : sProp 𝕄))]
  iintro ⟨#HR, HS, HV⟩
  imod (show iprop(records m ρ K ∗ bigSep Finset.univ (fun h : Fin 15 => (atPos ER (sendCell c h) 1 ∅ 0 : sProp 𝕄)))
      ⊢ (|={Set.univ}=> bigSep Finset.univ (fun h : Fin 15 => semVal (sendCell c h) 0) : sProp 𝕄) from
        (bigSep_pers_each (R := records m ρ K) fun h _ => close_send m ρ K c h).trans (bigSep_fupd _ _)) $$ [HS] with HS'
  · isplitr; · iexact HR
    iexact HS
  imod (show iprop(records m ρ K ∗ bigSep Finset.univ (fun h : Fin 15 => (atPos ER (recvCell c h) 1 ∅ 0 : sProp 𝕄)))
      ⊢ (|={Set.univ}=> bigSep Finset.univ (fun h : Fin 15 => semVal (recvCell c h) 0) : sProp 𝕄) from
        (bigSep_pers_each (R := records m ρ K) fun h _ => close_recv m ρ K c h).trans (bigSep_fupd _ _)) $$ [HV] with HV'
  · isplitr; · iexact HR
    iexact HV
  imodintro
  isplitl [HS']; · iexact HS'
  iexact HV'

end Bookkeeping

end Cert.Kernel.AG

end
-- ==== Proof.Kernel.Body.lean ====
import proofs.«900607_g7700000000000608_dist_sum_ax0_shard0_i_m512_n256_v7x_i16_bf16_1_alg».proof.Proof.Kernel.Steps
import proofs.«900607_g7700000000000608_dist_sum_ax0_shard0_i_m512_n256_v7x_i16_bf16_1_alg».proof.Proof.Kernel.BodyAux
import proofs.«900607_g7700000000000608_dist_sum_ax0_shard0_i_m512_n256_v7x_i16_bf16_1_alg».proof.Proof.Kernel.BodyAuxB
import proofs.«900607_g7700000000000608_dist_sum_ax0_shard0_i_m512_n256_v7x_i16_bf16_1_alg».proof.Proof.Kernel.BodyAuxC

/-!
One device's body, from what the launch hands it to what it hands back: the fifteen barrier signals, the own row written,
the barrier wait, the fifteen transfers, the fifteen landings awaited, the table read and reduced into the result, the
fifteen sources awaited, the own cells closed.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Run
variable (K : Dev nD × Fin 31 → ℕ) (c : Dev nD)

/-- The device's own id, read. -/
theorem wp_devId {α : Type} {Q : α → sProp 𝕄} {k : Dev nD → Prog (TpuEff nD τ sig (Elt F) Λ₀ .tc) α} :
    wp frame (wpE (defs₀ (F := F)) 𝒱₀ (c : Thread nD τ) none) Set.univ (k c) Q ⊢ wp frame (wpE (defs₀ (F := F)) 𝒱₀ (c : Thread nD τ) none) Set.univ (.op .deviceId k) Q := by
  rw [wp_deviceId]

end Run

section Run2
variable (c : Dev nD)

/-- Nothing is held for the offsets done when none is. -/
theorem start_don (Φ : Fin 15 → sProp 𝕄) {Q : sProp 𝕄} : iprop(bigSep (don 0) Φ -∗ Q) ⊢ Q := by
  rw [don_zero, bigSep_empty]; iintro H; iapply H; iempintro

/-- A program that has returned. -/
theorem wp_ret_intro {α : Type} {Q : α → sProp 𝕄} (a : α) :
    Q a ⊢ wp frame (wpE (defs₀ (F := F)) 𝒱₀ (c : Thread nD τ) none) Set.univ (.ret a) Q := fupd_intro

/-- The own row read through the kernel's rectangle. -/
theorem wp_own_load {α : Type} {Q : α → sProp 𝕄} (f : Buf (Elt F) (gLoc c))
    {hl : (gM : Memref sig .tc .vmem S16x256 .f32).view.LoadsAt (ownRect c).toLoadRect}
    {k : ((ownRect c).toLoadRect.shape.Idx → Elt F .f32) → Prog (TpuEff nD τ sig (Elt F) Λ₀ .tc) α} :
    rowPts (F := F) c c fullShare f
      ⊢ iprop((rowPts (F := F) c c fullShare f -∗ wp frame (wpE (defs₀ (F := F)) 𝒱₀ (c : Thread nD τ) none) Set.univ (k ((gM : Memref sig .tc .vmem S16x256 .f32).view.readAt (Elt F) (ownRect c).toLoadRect f)) Q)
          -∗ wp frame (wpE (defs₀ (F := F)) 𝒱₀ (c : Thread nD τ) none) Set.univ (.op (.load gM (ownRect c).toLoadRect hl) k) Q) := by
  unfold rowPts
  exact wp_load 𝒱₀ (c : Thread nD τ) none Set.univ (Q := Q) (m := gM) (r := (ownRect c).toLoadRect) (hl := hl) (k := k) (S := rowSet c c) (q := fullShare) (f := f) (ownRect_load_sub c)

/-- The own row written through the kernel's rectangle. -/
theorem wp_own_store {α : Type} {Q : α → sProp 𝕄} (f : Buf (Elt F) (gLoc c)) {w : (ownRect c).shape.Idx → Elt F .f32}
    {hx : ((gM : Memref sig .tc .vmem S16x256 .f32).access (ownRect c)).Stores Finset.univ}
    {hm : (Finset.univ : Finset (ownRect c).shape.Idx) = Finset.univ ∨ ∀ a, (ownRect c).stride a = 1}
    {k : PUnit → Prog (TpuEff nD τ sig (Elt F) Λ₀ .tc) α} :
    rowPts (F := F) c c fullShare f
      ⊢ iprop((rowPts (F := F) c c fullShare (((gM : Memref sig .tc .vmem S16x256 .f32).access (ownRect c) : View sig .tc _ _ _).write (Elt F) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store gM (ownRect c) w Finset.univ hx hm) k) Q) := by
  unfold rowPts
  exact wp_store 𝒱₀ (c : Thread nD τ) none Set.univ (Q := Q) (m := gM) (r := ownRect c) (w := w) (Mk := Finset.univ) (hx := hx) (hm := hm) (k := k) (S := rowSet c c) (f := f) (ownRect_store_sub c)

end Run2

set_option hygiene false in
/-- The barrier signal at offset `k` (`k1 = k + 1`), its target named by the equation `e`. -/
macro "sig_at " k:num k1:num e:term : tactic => `(tactic| (
  iapply (sig_step m ρ K c $k $k1 (by decide) rfl _ $e f0 W0) $$ [Howe HTB HRW]
  (· isplitr
     (· iexact Hrec)
     isplitl [Howe]
     (· iexact Howe)
     isplitl [HTB]
     (· iexact HTB)
     iexact HRW)
  iintro ⟨Howe, HTB, HRW⟩))

set_option hygiene false in
/-- The transfer at offset `k` (`k1 = k + 1`), its target named by the equation `e`. -/
macro "send_at " k:num k1:num e:term : tactic => `(tactic| (
  iapply (send_step m ρ K c $k $k1 (by decide) rfl _ $e (insert (SemLoc.reg barS, ()) W0)) $$ [Howe HTS HTR HLD HDST HCS]
  (· isplitr
     (· iexact Hrec)
     isplitl [Howe]
     (· iexact Howe)
     isplitl [HTS]
     (· iexact HTS)
     isplitl [HTR]
     (· iexact HTR)
     isplitl [HLD]
     (· iexact HLD)
     isplitl [HDST]
     (· iexact HDST)
     iexact HCS)
  iintro ⟨Howe, HTS, HTR, HLD, HDST, HCS⟩))

set_option hygiene false in
/-- The wait for the landing at offset `k` (`k1 = k + 1`). -/
macro "recv_wait_at " k:num k1:num : tactic => `(tactic| (
  iapply (recv_wait_step m ρ K c $k $k1 (by decide) rfl (row_credit c)) $$ [HW Hcr HPR HPD HRD]
  (· isplitr
     (· iexact Hrec)
     isplitl [HW]
     (· iexact HW)
     isplitl [Hcr]
     (· iexact Hcr)
     isplitl [HPR]
     (· iexact HPR)
     isplitl [HPD]
     (· iexact HPD)
     iexact HRD)
  iintro ⟨HW, Hcr, HPR, HPD, HRD⟩))

set_option hygiene false in
/-- The wait for the source at offset `k` (`k1 = k + 1`). -/
macro "send_wait_at " k:num k1:num : tactic => `(tactic| (
  iapply (send_wait_step m ρ K c $k $k1 (by decide) rfl (row_credit c)) $$ [HW HCS HPS HQD HLD]
  (· isplitr
     (· iexact Hrec)
     isplitl [HW]
     (· iexact HW)
     isplitl [HCS]
     (· iexact HCS)
     isplitl [HPS]
     (· iexact HPS)
     isplitl [HQD]
     (· iexact HQD)
     iexact HLD)
  iintro ⟨HW, HCS, HPS, HQD, HLD⟩))

/-- The body on device `c`, run from `bodyPre` to `bodyPost`. -/
theorem sound_body (K : Dev nD × Fin 31 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost credits positions payToks
  simp only [owesAt_in, before_x, bigSep_sep', whole_eq_rows, rows_peers c]
  unfold O₀
  rw [← rem_zero]
  iintro ⟨⟨⟨⟨#Hrec, ⟨Hbar, HPS, HPR⟩, HTB, HTR, HTS⟩, ⟨Hcb, Hcr⟩, Hlev, ⟨%f0, Hown, HRW⟩⟩, ⟨%W0, Howe⟩, ⟨%d0, Hx⟩, ⟨%d1, Ho⟩⟩, HK⟩
  rw [cc0_body_eq_skeleton]
  unfold cc0_body_skel
  rw [k0_part3_eq_skeleton, k0_part11_eq_skeleton]
  iapply (wp_devId c)
  -- the fifteen barrier signals: each gives a row of the table away
  sig_at 0 1 (dev1_eq c)
  sig_at 1 2 (dev2_eq c)
  sig_at 2 3 (dev3_eq c)
  sig_at 3 4 (dev4_eq c)
  sig_at 4 5 (dev5_eq c)
  sig_at 5 6 (dev6_eq c)
  sig_at 6 7 (dev7_eq c)
  sig_at 7 8 (dev8_eq c)
  sig_at 8 9 (dev9_eq c)
  sig_at 9 10 (dev10_eq c)
  sig_at 10 11 (dev11_eq c)
  sig_at 11 12 (dev12_eq c)
  sig_at 12 13 (dev13_eq c)
  sig_at 13 14 (dev14_eq c)
  sig_at 14 15 (dev15_eq c)
  -- no barrier unit is owed any more
  rw [rem_end, owedBar_empty, add_zero]
  simp only [bigSep_empty]
  iclear HTB HRW
  -- the staged block of x, read whole
  icases Hx with ⟨%fx, %hfx, Hx⟩
  subst hfx
  iapply (wp_load 𝒱₀ (c : Thread nD τ) none Set.univ (S := Finset.univ) (Finset.subset_univ _)) $$ [Hx]
  · iexact Hx
  iintro Hx
  rw [read_x]
  -- the own row: read, then written with the block's partial sums
  iapply (wp_own_load c f0) $$ [Hown]
  · iexact Hown
  iintro Hown
  iapply (wp_own_store c f0) $$ [Hown]
  · iexact Hown
  iintro Hown
  ihave Hcut := (own_row_cut m ρ c f0) $$ Hown
  icases Hcut with ⟨Hkeep, HLD, Hrest⟩
  -- the barrier wait: row c of every other device's table comes back
  iapply (wp_bar_wait m ρ K c (rem 0) W0) $$ [Hcb Howe Hlev Hbar]
  · isplitr; · iexact Hrec
    isplitl [Hcb]; · iexact Hcb
    isplitl [Howe]; · iexact Howe
    isplitl [Hlev]; · iexact Hlev
    iexact Hbar
  iintro ⟨Howe, Hbar, Hpay⟩
  ihave HDST := (bar_rows c) $$ Hpay
  rw [← rem_zero]
  iapply (start_don (fun h : Fin 15 => (cred (tallyAt (sendCell c h) () N) : sProp 𝕄)))
  iintro HCS
  -- the fifteen transfers of the own row, each into row c of its target's table
  send_at 0 1 (dev16_eq c)
  send_at 1 2 (dev17_eq c)
  send_at 2 3 (dev18_eq c)
  send_at 3 4 (dev19_eq c)
  send_at 4 5 (dev20_eq c)
  send_at 5 6 (dev21_eq c)
  send_at 6 7 (dev22_eq c)
  send_at 7 8 (dev23_eq c)
  send_at 8 9 (dev24_eq c)
  send_at 9 10 (dev25_eq c)
  send_at 10 11 (dev26_eq c)
  send_at 11 12 (dev27_eq c)
  send_at 12 13 (dev28_eq c)
  send_at 13 14 (dev29_eq c)
  send_at 14 15 (dev30_eq c)
  -- no row's credit is owed any more; the transfers' tokens and rows are all spent
  rw [rem_end, owedRecv_empty]
  simp only [bigSep_empty]
  iclear HTS HTR HLD HDST
  ihave HW : iprop(∃ W, owes (c : Thread nD τ) 0 W) $$ [Howe]
  · iexists _; iexact Howe
  rw [don_end, ← rem_zero]
  iapply (start_don (fun h : Fin 15 => atPos ER (recvCell c h) 1 ∅ 0))
  iintro HPD
  iapply (start_don (fun h : Fin 15 => rowPts c («from» c h) fullShare (gath m ρ)))
  iintro HRD
  -- the fifteen landings awaited: each brings its sender's row
  recv_wait_at 0 1
  recv_wait_at 1 2
  recv_wait_at 2 3
  recv_wait_at 3 4
  recv_wait_at 4 5
  recv_wait_at 5 6
  recv_wait_at 6 7
  recv_wait_at 7 8
  recv_wait_at 8 9
  recv_wait_at 9 10
  recv_wait_at 10 11
  recv_wait_at 11 12
  recv_wait_at 12 13
  recv_wait_at 13 14
  recv_wait_at 14 15
  -- the table read whole through the kept share, reduced, and the result written
  rw [rem_end, don_end]
  simp only [bigSep_empty]
  iclear Hcr HPR
  ihave Hread := (table_read_share m ρ c) $$ [Hkeep HRD]
  · isplitl [Hkeep]; · iexact Hkeep
    iexact HRD
  icases Hread with ⟨Hg, HRR⟩
  iapply (wp_load 𝒱₀ (c : Thread nD τ) none Set.univ (m := gM) (S := Finset.univ) (q := keepQ) (f := gath m ρ) (Finset.subset_univ _)) $$ [Hg]
  · iexact Hg
  iintro Hg
  icases Ho with ⟨%fo, %hfo, Ho⟩
  iapply (wp_load 𝒱₀ (c : Thread nD τ) none Set.univ (m := oM) (S := Finset.univ) (Finset.subset_univ _)) $$ [Ho]
  · iexact Ho
  iintro Ho
  iapply (wp_store 𝒱₀ (c : Thread nD τ) none Set.univ (m := oM) (S := Finset.univ) (Finset.subset_univ _)) $$ [Ho]
  · iexact Ho
  iintro Ho
  rw [read_g, write_out]
  -- the fifteen sources awaited: each gives its lent share of the own row back
  rw [← rem_zero]
  iapply (start_don (fun h : Fin 15 => atPos ER (sendCell c h) 1 ∅ 0))
  iintro HQD
  iapply (start_don (fun h : Fin 15 => rowPts c c (lendQ h) (gath m ρ)))
  iintro HLD
  send_wait_at 0 1
  send_wait_at 1 2
  send_wait_at 2 3
  send_wait_at 3 4
  send_wait_at 4 5
  send_wait_at 5 6
  send_wait_at 6 7
  send_wait_at 7 8
  send_wait_at 8 9
  send_wait_at 9 10
  send_wait_at 10 11
  send_wait_at 11 12
  send_wait_at 12 13
  send_wait_at 13 14
  send_wait_at 14 15
  -- every share back: the table whole and gathered; the thirty own cells closed; the return
  rw [rem_end, don_end, rem_zero]
  simp only [bigSep_empty]
  iclear HCS HPS
  ihave Hall := (table_whole_back m ρ c) $$ [Hg HRR HLD Hrest]
  · isplitl [Hg]; · iexact Hg
    isplitl [HRR]; · iexact HRR
    isplitl [HLD]; · iexact HLD
    iexact Hrest
  ihave Hcl := (close_all m ρ K c) $$ [HQD HPD]
  · isplitr; · iexact Hrec
    isplitl [HQD]; · iexact HQD
    iexact HPD
  imod Hcl
  iapply (wp_ret_intro c PUnit.unit)
  iapply HK
  unfold bodyPost Φ₁
  rw [owesAt_out]
  isplitl [Hall Hcl]
  · isplitl [Hall]; · iexact Hall
    iexact Hcl
  isplitl [HW]; · iexact HW
  isplitl [Hx]
  · iexists _; isplitr; · ipureintro; rfl
    iexact Hx
  iexists _; isplitr; · ipureintro; rfl
  iexact Ho

/-- info: 'Cert.Kernel.AG.sound_body' depends on axioms: [propext, Classical.choice, Quot.sound] -/
#guard_msgs in #print axioms sound_body

end Cert.Kernel.AG

end
-- ==== Proof.Kernel.Launch.lean ====
import proofs.«900607_g7700000000000608_dist_sum_ax0_shard0_i_m512_n256_v7x_i16_bf16_1_alg».proof.Proof.Kernel.Body

/-!
The launch of the all-gather and sum on the mesh of sixteen devices.

The rounds library's launch element is dealt cell by cell and token by token: every device gets the round state, the
position and the reached-mark of its thirty-one cells and the duty tokens of its own cells. One update, made for all
devices at once, allocates every cell's invariant and deals the tokens round the mesh: at offset `h` the token of
duty `h` of a device's barrier cell and the token of its receive cell `h` go to the device `h + 1` places before it,
the one that pays them; the token of its send cell `h` stays. The launch credit comes out the same way: summed over the
payers, each barrier cell is owed fifteen units and each receive cell one row.
-/

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the library hands the body at the one point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-! ## The cells and the tokens of the launch element -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 31 → SemLoc sig) := by
  intro k k' e
  by_cases hk : k.val = 0 <;> by_cases hk' : k'.val = 0
  · exact Fin.ext (hk.trans hk'.symm)
  · unfold csem at e; rw [dif_pos hk, dif_neg hk'] at e; cases e
  · unfold csem at e; rw [dif_neg hk, dif_pos hk'] at e; cases e
  · unfold csem at e; rw [dif_neg hk, dif_neg hk'] at e
    have e' : 1 + k.val = 1 + k'.val := congrArg Fin.val (SemLoc.dma.inj e)
    exact Fin.ext (by omega)

theorem kcell_injective : Function.Injective (kcell : Dev nD × Fin 31 → GSem nD τ sig) := by
  rintro ⟨c, k⟩ ⟨c', k'⟩ e
  have h1 : c = c' := by have := congrArg (fun g : GSem nD τ sig => g.1.1) e; exact this
  subst h1
  have h2 : csem k = csem k' := congrArg Prod.snd e
  rw [csem_injective h2]
/-- Every device's thirty-one cells. -/
def agCells : Finset (GSem nD τ sig) := Finset.univ.map ⟨kcell, kcell_injective⟩

/-- A device's own cells' duty tokens as minted, by offset: the barrier's duty at that offset, the one duty of the
    receive cell there, the one duty of the send cell there. -/
abbrev tokOf (x : Dev nD × Fin 15 × Fin 3) : GSem nD τ sig × ℕ × Fin 15 := match x.2.2 with
  | 0 => (barCell x.1, 0, x.2.1) | 1 => (recvCell x.1 x.2.1, 0, 0) | 2 => (sendCell x.1 x.2.1, 0, 0)

theorem tokOf_injective : Function.Injective (tokOf : Dev nD × Fin 15 × Fin 3 → GSem nD τ sig × ℕ × Fin 15) := by
  rintro ⟨c, h, j⟩ ⟨c', h', j'⟩ e
  have h1 : c = c' := by
    have := congrArg (fun x : GSem nD τ sig × ℕ × Fin 15 => x.1.1.1) e
    fin_cases j <;> fin_cases j' <;> exact this
  subst h1
  have e2 := congrArg (fun x : GSem nD τ sig × ℕ × Fin 15 => x.1.2) e
  have e3 := congrArg (fun x : GSem nD τ sig × ℕ × Fin 15 => x.2.2) e
  have key : h = h' ∧ j = j' := by
    fin_cases j <;> fin_cases j'
    · exact ⟨e3, rfl⟩
    · exact absurd e2 (fun e' => by cases e')
    · exact absurd e2 (fun e' => by cases e')
    · exact absurd e2 (fun e' => by cases e')
    · have e' : 17 + h.val = 17 + h'.val := congrArg Fin.val (SemLoc.dma.inj e2)
      exact ⟨Fin.ext (by omega), rfl⟩
    · have e' : 17 + h.val = 2 + h'.val := congrArg Fin.val (SemLoc.dma.inj e2)
      exact absurd e' (by omega)
    · exact absurd e2 (fun e' => by cases e')
    · have e' : 2 + h.val = 17 + h'.val := congrArg Fin.val (SemLoc.dma.inj e2)
      exact absurd e' (by omega)
    · have e' : 2 + h.val = 2 + h'.val := congrArg Fin.val (SemLoc.dma.inj e2)
      exact ⟨Fin.ext (by omega), rfl⟩
  rw [key.1, key.2]
def agToks : Finset (GSem nD τ sig × ℕ × Fin 15) := Finset.univ.map ⟨tokOf, tokOf_injective⟩

/-- The launch element: the pipeline's copy beside the protocol's. -/
def u₀ : UU :=
  (initOf (Pipeline.cells cfgs cellOf_inj) (Pipeline.launchToks cfgs cellOf_inj), initOf agCells agToks)

/-- The duty tokens of device `c`'s own cells, offset by offset. -/
def toks (c : Dev nD) : sProp 𝕄 :=
  bigSep Finset.univ fun h : Fin 15 =>
    iprop(dutyTok ER (barCell c) 0 h ∗ dutyTok ER (recvCell c h) 0 (0 : Fin 15) ∗ dutyTok ER (sendCell c h) 0 (0 : Fin 15))

/-- What the launch element deals device `c`. -/
def G (c : Dev nD) : sProp 𝕄 :=
  iprop((bigSep Finset.univ fun k : Fin 31 => roundState ER (agRd m ρ) (kcell (c, k)) 0)
    ∗ (bigSep Finset.univ fun k : Fin 31 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ag : BI.own (ER (initOf agCells agToks)) ⊢ (|==> bigSep Finset.univ (G m ρ) : sProp 𝕄) := by
  have hX (Φ : GSem nD τ sig → sProp 𝕄) : bigSep agCells Φ = bigSep Finset.univ fun c : Dev nD => bigSep Finset.univ fun k : Fin 31 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by
      unfold toks; rw [bigSep_univ_prod]
      exact bigSep_congr fun h _ => by rw [bigSep_fin3]; rfl
  iintro HX
  imod (Rounds.fund ER (agRd m ρ) agCells agToks) $$ HX with ⟨Hst, Hr, Hat, Htok⟩
  imodintro
  ihave Hst' := (Entails.of_eq (hX fun g => roundState ER (agRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt round the mesh -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem erase_zero31 : (Finset.univ : Finset (Fin 31)).erase 0 = Finset.univ.map (Fin.succEmb 30) := by decide

theorem csem_succ (k : Fin 30) : csem k.succ = osem k := by
  unfold csem
  rw [dif_neg (by show ¬ (k.val + 1 = 0); omega)]
  exact congrArg SemLoc.dma (Fin.ext (by show 1 + (k.val + 1) = 2 + k.val; omega))

/-- A device's thirty-one cells: the barrier, then at each offset the send and the receive cell. -/
def sEmb : Fin 15 ↪ Fin 31 := ⟨sIdx, fun a b e => Fin.ext (by have e' : 1 + a.val = 1 + b.val := congrArg Fin.val e; omega)⟩
def rEmb : Fin 15 ↪ Fin 31 := ⟨rIdx, fun a b e => Fin.ext (by have e' : 16 + a.val = 16 + b.val := congrArg Fin.val e; omega)⟩
theorem univ31 : (Finset.univ : Finset (Fin 31)) = insert 0 (Finset.univ.map sEmb ∪ Finset.univ.map rEmb) := by decide
theorem zero_notMem31 : (0 : Fin 31) ∉ Finset.univ.map sEmb ∪ Finset.univ.map rEmb := by decide
theorem disjoint31 : Disjoint (Finset.univ.map sEmb) (Finset.univ.map rEmb) := by decide

theorem bigSep_fin31 (Φ : Fin 31 → sProp 𝕄) :
    bigSep Finset.univ Φ = iprop(Φ 0 ∗ bigSep Finset.univ fun h : Fin 15 => iprop(Φ (sIdx h) ∗ Φ (rIdx h))) := by
  rw [univ31, bigSep_insert zero_notMem31, bigSep_union disjoint31, bigSep_map, bigSep_map, bigSep_sep']
  rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 31 => semVal (kcell (c, k)) 0 : sProp 𝕄) := by
  have hS : (bigSep Finset.univ fun k : Fin 30 => (semVal (((c : Thread nD τ), osem k) : GSem nD τ sig) 0 : sProp 𝕄))
      = bigSep Finset.univ fun k : Fin 30 => semVal (kcell (c, Fin.succEmb 30 k)) 0 :=
    bigSep_congr fun k _ => by
      show (semVal (((c : Thread nD τ), osem k) : GSem nD τ sig) 0 : sProp 𝕄) = semVal (((c : Thread nD τ), csem k.succ) : GSem nD τ sig) 0
      rw [csem_succ]
  rw [unscopedSems0_eq, bigSep_univ_at _ (0 : Fin 31), erase_zero31, bigSep_map, ← hS]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (agRd m ρ) κ (kcell (c, k))))
          ∗ (bigSep Finset.univ fun k : Fin 31 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 31 => semVal (kcell (c, k)) 0) ∗ bigSep Finset.univ fun k : Fin 31 => roundState ER (agRd m ρ) (kcell (c, k)) 0)
      ⊢ (|={Set.univ}=> bigSep Finset.univ fun k => iprop(∃ κ : ℕ, cellInv ER (agRd m ρ) κ (kcell (c, k))) : sProp 𝕄) from by
        rw [← bigSep_sep']
        exact (bigSep_mono fun k _ => (Rounds.body_intro ER (agRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 31 → ℕ) (c : Dev nD) : iprop(records m ρ K ∗ positions c ∗ payToks c) ⊢ G' m ρ c := by
  unfold G' ghost
  iintro H; iexists K; iexact H

/-- A device's positions, cell by cell. -/
theorem positions_eq (c : Dev nD) : (bigSep Finset.univ fun k : Fin 31 => (atPos ER (kcell (c, k)) 0 ∅ 0 : sProp 𝕄)) = positions c := by
  unfold positions
  rw [bigSep_fin31]
  refine congrArg₂ _ rfl (bigSep_congr fun h _ => ?_)
  show iprop(atPos ER (kcell (c, sIdx h)) 0 ∅ 0 ∗ atPos ER (kcell (c, rIdx h)) 0 ∅ 0) = _
  rw [kcell_send, kcell_recv]

/-- Summing over the mesh first or over the offsets first. -/
theorem bigSep_swap (Φ : Dev nD → Fin 15 → sProp 𝕄) :
    (bigSep Finset.univ fun c : Dev nD => bigSep Finset.univ fun h : Fin 15 => Φ c h)
      = bigSep Finset.univ fun h : Fin 15 => bigSep Finset.univ fun c : Dev nD => Φ c h := by
  rw [← bigSep_univ_prod (fun ch : Dev nD × Fin 15 => Φ ch.1 ch.2), ← bigSep_univ_prod (fun hc : Fin 15 × Dev nD => Φ hc.2 hc.1),
    bigSep_univ_equiv (Equiv.prodComm (Dev nD) (Fin 15)) (fun hc : Fin 15 × Dev nD => Φ hc.2 hc.1)]
  rfl

/-- The tokens dealt round the mesh: at offset `h` a barrier's duty `h` and the receive cell's duty go `h + 1` places
    back, to the device that pays them; the send cell's duty stays. -/
theorem toks_around : (bigSep Finset.univ fun c : Dev nD => (toks c : sProp 𝕄)) ⊢ bigSep Finset.univ fun c : Dev nD => payToks c := by
  have key (h : Fin 15) :
      (bigSep Finset.univ fun c : Dev nD =>
          iprop(dutyTok ER (barCell c) 0 h ∗ dutyTok ER (recvCell c h) 0 (0 : Fin 15) ∗ dutyTok ER (sendCell c h) 0 (0 : Fin 15)) : sProp 𝕄)
        ⊢ bigSep Finset.univ fun c : Dev nD =>
          iprop(dutyTok ER (barCell (peer c h)) 0 h ∗ dutyTok ER (recvCell (peer c h) h) 0 (0 : Fin 15) ∗ dutyTok ER (sendCell c h) 0 (0 : Fin 15)) := by
    rw [bigSep_sep', bigSep_sep', bigSep_sep', bigSep_sep',
      bigSep_univ_equiv (shift h) (fun c : Dev nD => (dutyTok ER (barCell c) 0 h : sProp 𝕄)),
      bigSep_univ_equiv (shift h) (fun c : Dev nD => (dutyTok ER (recvCell c h) 0 (0 : Fin 15) : sProp 𝕄))]
    iintro H; iexact H
  unfold toks payToks
  rw [bigSep_swap, bigSep_swap]
  exact bigSep_mono fun h _ => key h

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (agRd m ρ) κ (kcell (c, k))))
          ∗ (bigSep Finset.univ fun k : Fin 31 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 31 => iprop(∃ κ : ℕ, cellInv ER (agRd m ρ) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← bigSep_univ_prod (fun ck : Dev nD × Fin 31 => (reached ER (kcell ck) 0 : sProp 𝕄))]
  iintro ⟨HI, ⟨Hat, #HR⟩, Htok⟩
  ihave HK := (BI.bigSep_exists_pi Finset.univ (fun (ck : Dev nD × Fin 31) (κ : ℕ) => (cellInv ER (agRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 31 => (atPos ER (kcell (c, k)) 0 ∅ 0 : sProp 𝕄)) payToks).symm).trans
      (bigSep_mono fun c _ => show _ ⊢ iprop(positions c ∗ payToks c) from Entails.of_eq (by rw [positions_eq])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit

Device `d` owes, at each offset `h`, one barrier unit and one row's receive credit to `peer d h`. Going `h + 1` places on
is a permutation of the mesh, so each device's barrier cell is owed one unit per offset and its receive cell `h` one row. -/

theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

theorem bar_units (c : Dev nD) :
    (bigSep Finset.univ fun _ : Fin 15 => (cred (tallyAt (barCell c) () 1) : sProp 𝕄)) ⊢ cred (tallyAt (barCell c) () 15) := by
  rw [← Pipeline.cred_finsetSum Finset.univ (fun _ : Fin 15 => (tallyAt (barCell c) () 1 : CellTallies nD τ sig Unit)),
    Finset.sum_const, Finset.card_univ, Fintype.card_fin, nsmul_tallyAt]

theorem creds (c : Dev nD) : (Pipeline.launchCred O₀ c : sProp 𝕄) ⊢ credits c := by
  have h1 := Pipeline.launchCred_add (Name := ℕ) (U := UU) (Lvl := ℕ) (Val := Elt F) (τ := τ)
    (fun d : Dev nD => owedRecv d Finset.univ) (fun d : Dev nD => owedBar d Finset.univ) c
  have h2 := Pipeline.launchCred_sum (Name := ℕ) (U := UU) (Lvl := ℕ) (Val := Elt F) (τ := τ) Finset.univ
    (fun (h : Fin 15) (d : Dev nD) => (tallyAt (recvCell (peer d h) h) () N : CellTallies nD τ sig Unit)) c
  have h3 := Pipeline.launchCred_sum (Name := ℕ) (U := UU) (Lvl := ℕ) (Val := Elt F) (τ := τ) Finset.univ
    (fun (h : Fin 15) (d : Dev nD) => (tallyAt (barCell (peer d h)) () 1 : CellTallies nD τ sig Unit)) c
  refine (show (Pipeline.launchCred O₀ c : sProp 𝕄) ⊢ _ from Entails.of_eq h1).trans ?_
  refine (BIClass.sep_mono (show (Pipeline.launchCred (fun d : Dev nD => owedRecv d Finset.univ) c : sProp 𝕄) ⊢ _ from Entails.of_eq h2)
    (show (Pipeline.launchCred (fun d : Dev nD => owedBar d Finset.univ) c : sProp 𝕄) ⊢ _ from Entails.of_eq h3)).trans ?_
  have hB : (bigSep Finset.univ fun h : Fin 15 =>
        Pipeline.launchCred (fun d : Dev nD => (tallyAt (barCell (peer d h)) () 1 : CellTallies nD τ sig Unit)) c : sProp 𝕄)
      ⊢ bigSep Finset.univ fun _ : Fin 15 => cred (tallyAt (barCell c) () 1) :=
    bigSep_mono fun (h : Fin 15) _ => Pipeline.launchCred_tallyAt (Name := ℕ) (U := UU) (Lvl := ℕ) (Val := Elt F) (τ := τ) (SemLoc.reg barS)
      (fun d => peer d h) (fun d => «from» d h) (fun d => peer_from d h) (fun d => from_peer d h) () 1 c
  have hR : (bigSep Finset.univ fun h : Fin 15 =>
        Pipeline.launchCred (fun d : Dev nD => (tallyAt (recvCell (peer d h) h) () N : CellTallies nD τ sig Unit)) c : sProp 𝕄)
      ⊢ bigSep Finset.univ fun h : Fin 15 => cred (tallyAt (recvCell c h) () N) :=
    bigSep_mono fun (h : Fin 15) _ => Pipeline.launchCred_tallyAt (Name := ℕ) (U := UU) (Lvl := ℕ) (Val := Elt F) (τ := τ) (SemLoc.dma (recvS h))
      (fun d => peer d h) (fun d => «from» d h) (fun d => peer_from d h) (fun d => from_peer d h) () N c
  unfold credits
  iintro ⟨HR, HB⟩
  isplitl [HB]
  · iapply (bar_units (F := F) c)
    iapply hB
    iexact HB
  · iapply hR
    iexact HR

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ Pipeline.ownSems0
  iintro ⟨Hr, Hz⟩
  isplitr; · iempintro
  isplitl [Hz]; · iexact Hz
  iexists (gath m ρ); iexact Hr

/-- What a device owes at launch sits on a receive cell or a barrier cell of another device. -/
theorem O₀_pos {c : Dev nD} {g : GSem nD τ sig} {u : Unit} (h : 0 < O₀ c g u) :
    (∃ k : Fin 15, g = recvCell (peer c k) k) ∨ ∃ k : Fin 15, g = barCell (peer c k) := by
  rcases Pipeline.add_pos_cases (show 0 < (owedRecv c Finset.univ + owedBar c Finset.univ) g u from h) with h1 | h1
  · obtain ⟨k, -, hk⟩ := Pipeline.sum_pos_exists h1
    exact Or.inl ⟨k, (Pipeline.tallyAt_pos hk).1⟩
  · obtain ⟨k, -, hk⟩ := Pipeline.sum_pos_exists h1
    exact Or.inr ⟨k, (Pipeline.tallyAt_pos hk).1⟩

/-- A wait on a staging semaphore (level 0) is allowed whatever of the launch dues is still owed: they all sit on barrier
    cells (level 1) and receive cells (level 2). -/
theorem mayWait_stage (c : Dev nD) (q : DmaSem sig) (hq : ¬ ∃ h : Fin 15, (SemLoc.dma q : SemLoc sig) = .dma (recvS h))
    (O : CellTallies nD τ sig Unit) (hO : O = O₀ c ∨ O = 0) :
    (levAts L lv : sProp 𝕄) ⊢ MayWait (c : Thread nD τ) (.dma q) () O := by
  rcases hO with rfl | rfl
  · have hlv : lv ((c : Thread nD τ), SemLoc.dma q) () = 0 := by
      dsimp only [lv]; rw [if_neg (fun e => by cases e), if_neg hq]
    refine Pipeline.mayWait_of_levAts (by rw [L_tc]; exact Finset.mem_singleton_self _) fun g u hg => ?_
    rcases O₀_pos hg with ⟨k, rfl⟩ | ⟨k, rfl⟩
    · refine ⟨by rw [L_tc]; exact Finset.mem_singleton_self _, ?_⟩
      rw [hlv]; dsimp only [lv]; rw [if_neg (recv_ne_bar k), if_pos ⟨k, rfl⟩]; decide
    · refine ⟨by rw [L_tc]; exact Finset.mem_singleton_self _, ?_⟩
      rw [hlv]; dsimp only [lv]; rw [if_pos rfl]; decide
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The arrays after the last point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main — the sixteen kernels meeting on the barrier semaphore, each sending its row of partial sums to the
    fifteen others, then reducing its gathered table — terminates, and every final state has each window's array at the
    contents the proof data computes. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ag m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run: the one block is the whole array, written back once, at the one point. -/
theorem finalA_out (c : Dev nD) : finalA m ρ c (1 : Fin 2) = outAt m ρ := by
  show (dats m ρ 0 c).arrAt (1 : Fin 2) ((t₀ : Fin cfg0.N).val + 1) = _
  rw [Dat.arrAt_succ, flush0_1, if_pos rfl]
  have h1 := View.read_write_univ (v := ((cfg0.win (1 : Fin 2)).blk t₀).view) (Val := Elt F) ((dats m ρ 0 c).arrAt (1 : Fin 2) (t₀ : Fin cfg0.N).val) ((dats m ρ 0 c).flushed (1 : Fin 2) t₀)
  have h2 := Memref.read_access_unit_zero (Elt F) main_v1 (off := fun a => (cfg0.win (1 : Fin 2)).index t₀ a * (cfg0.win (1 : Fin 2)).size a)
    (funext fun a => Nat.zero_mul _) (fun a => Pipeline.Clip.inb ((cfg0.win (1 : Fin 2)).hclip (cfg0.grid.coords t₀) a))
    (((cfg0.win (1 : Fin 2)).blk t₀).view.write (Elt F) ((dats m ρ 0 c).arrAt (1 : Fin 2) (t₀ : Fin cfg0.N).val) ((dats m ρ 0 c).flushed (1 : Fin 2) t₀) Finset.univ)
  exact h2.symm.trans h1

theorem run_value : θ_run defs (onTc (τ := τ) (main (F := F))) ⟨m, fun _ => 0, ρ⟩ (fun r => ∀ c : Dev nD,
    r.2.mem ((c.tc : Thread nD τ).loc main_v1) = outAt m ρ ∧ r.2.mem ((c.tc : Thread nD τ).loc main_arg0) = m ((c.tc : Thread nD τ).loc main_arg0)) :=
  (θ_run defs _ _).mono (fun _ h c => ⟨((h c) (1 : Fin 2)).trans (finalA_out m ρ c), ((h c) (0 : Fin 2)).trans (finalA_x m ρ c)⟩) (run_main m ρ)

/-- info: 'Cert.Kernel.AG.run_value' depends on axioms: [propext, Classical.choice, Quot.sound] -/
#guard_msgs in #print axioms run_value

end Cert.Kernel.AG

end
-- ==== Proof.Value.lean ====
import proofs.«900607_g7700000000000608_dist_sum_ax0_shard0_i_m512_n256_v7x_i16_bf16_1_alg».proof.Proof.Spec
import proofs.«900607_g7700000000000608_dist_sum_ax0_shard0_i_m512_n256_v7x_i16_bf16_1_alg».proof.Proof.Gen.ReferenceIdeal.Read
import Idealize.ShloMosaic.Lib.Layout
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Data.Fintype.BigOperators
import Mathlib.Logic.Equiv.Fin.Basic

/-!
The gathered sum is the whole array's column sum.

Write `X` for the whole 8192×256 array and `X_c` for its block of rows `512 c … 512 c + 511`. Column `q` of the
result is `∑ c < 16, ∑ r < 512, X_c (r, q)`, and `X_c (r, q) = X (512 c + r, q)`. Every `k < 8192` is `512 c + r` for exactly
one pair `(c, r)`, so the double sum is `∑ k < 8192, X (k, q)`: the reference's column sum, whose initial value is zero.
Only associativity and commutativity of the extended reals' sum and `0 + y = y` are used.
-/

noncomputable section

namespace Cert.Value

open Idealize.ShloMosaic Idealize.ShloMosaic.ValueIdx
open Cert.KernelIdeal Cert.KernelIdeal.Gen

/-- A 512×256 block reduced along its rows holds, in lane `q`, the sum of the block's column `q`. -/
theorem partialRow_apply (x : FVec Ideal S512x256 .f32) (u : Fin 1) (q : Fin 256) :
    Spec.partialRow (F := Ideal) x (ix2 u q) = ∑ r : Fin 512, x (ix2 r q) := by
  unfold Spec.partialRow k0_pay1
  show shapeCast S1x256 (shapeCast S1x256 (multiReduction (F := Ideal) .add [0] S256
    (shapeCast S512x256 x shapeCasts_S512x256_S512x256) 0x00000000#32 reduces_S512x256_S256 (.inl rfl) rfl)
      shapeCasts_S256_S1x256) shapeCasts_S1x256_S1x256 (ix2 u q) = _
  rw [shapeCast_self, shapeCast_self]
  refine (shapeCast_a_1a_apply _ _ u q).trans ?_
  refine (Ideal.multiReduction_add_single x 0x00000000#32 reduces_S512x256_S256 (.inl rfl) rfl (ix1 q)).trans ?_
  refine Finset.sum_congr rfl fun r _ => congrArg x ?_
  funext a
  match a with
  | ⟨0, _⟩ => exact Fin.ext rfl
  | ⟨1, _⟩ => exact Fin.ext rfl

/-- A 16×256 table reduced along its rows holds, in lane `q`, the sum of the table's column `q`. -/
theorem tableSum_apply (v : FVec Ideal S16x256 .f32) (u : Fin 1) (q : Fin 256) :
    k0_pay2 (F := Ideal) v (ix2 u q) = ∑ j : Fin 16, v (ix2 j q) := by
  unfold k0_pay2
  show shapeCast S1x256 (multiReduction (F := Ideal) .add [0] S256 v 0x00000000#32 reduces_S16x256_S256 (.inl rfl) rfl)
    shapeCasts_S256_S1x256 (ix2 u q) = _
  refine (shapeCast_a_1a_apply _ _ u q).trans ?_
  refine (Ideal.multiReduction_add_single v 0x00000000#32 reduces_S16x256_S256 (.inl rfl) rfl (ix1 q)).trans ?_
  refine Finset.sum_congr rfl fun j _ => congrArg v ?_
  funext a
  match a with
  | ⟨0, _⟩ => exact Fin.ext rfl
  | ⟨1, _⟩ => exact Fin.ext rfl

/-- Row `r` of block `c` of the whole array is the whole array's row `512 c + r`. -/
theorem block_row (X : FVec Ideal ⟨2, ![8192, 256]⟩ .f32) (c : Fin 16) (r : Fin 512) (q : Fin 256) :
    (Layout.block ⟨2, ![512, 256]⟩ ⟨2, ![8192, 256]⟩ 0 16 c X) (ix2 r q)
      = X (ix2 (⟨512 * c.val + r.val, by omega⟩ : Fin 8192) q) := by
  rw [Layout.block_apply]
  refine congrArg X ?_
  funext a
  match a with
  | ⟨0, _⟩ => exact Fin.ext (by show c.val * 512 + r.val = 512 * c.val + r.val; omega)
  | ⟨1, _⟩ => exact Fin.ext rfl

/-- Sixteen consecutive runs of 512 terms make up a sum of 8192 terms: every `k < 8192` is `512 c + r` for exactly one
    `c < 16` and `r < 512`. -/
theorem sum_runs (f : Fin 8192 → EReal) :
    ∑ c : Fin 16, ∑ r : Fin 512, f ⟨512 * c.val + r.val, by omega⟩ = ∑ k : Fin 8192, f k := by
  rw [← Fintype.sum_prod_type' (fun (c : Fin 16) (r : Fin 512) => f ⟨512 * c.val + r.val, by omega⟩)]
  refine Fintype.sum_equiv (finProdFinEquiv (m := 16) (n := 512)) _ _ fun p => congrArg f (Fin.ext ?_)
  show 512 * p.1.val + p.2.val = p.2.val + 512 * p.1.val
  omega

theorem result_eq_reference (X : (⟨Cert.ReferenceIdeal.S8192x256, .f32⟩ : BufTy).Contents (Elt Ideal)) :
    Cert.KernelIdeal.Spec.result (F := Ideal) (fun c => Layout.block ⟨2, ![512, 256]⟩ ⟨2, ![8192, 256]⟩ 0 16 c X)
      = Cert.ReferenceIdeal.Read.val_main_v1 (F := Ideal) X := by
  funext i
  obtain ⟨u, q, rfl⟩ : ∃ (u : Fin 1) (q : Fin 256), i = ix2 u q := ⟨i 0, i 1, eq_ix2 i⟩
  -- the reference: zero plus the sum of column `q` of the whole array
  rw [Cert.ReferenceIdeal.Read.val_main_v1_apply, Cert.ReferenceIdeal.Read.val_main_v0_apply,
    Cert.ReferenceIdeal.Read.val_main_cst_apply]
  show _ = Ideal.ofBits .f32 0x00000000#32 + _
  rw [Ideal.ofBits_zero_f32, zero_add]
  -- the kernel: the sum over the sixteen blocks of each block's column `q`
  refine (tableSum_apply _ u q).trans ?_
  have hrow : ∀ j : Fin 16,
      Spec.gathered (F := Ideal) (fun c => Layout.block ⟨2, ![512, 256]⟩ ⟨2, ![8192, 256]⟩ 0 16 c X) (ix2 j q)
        = ∑ r : Fin 512, X (ix2 (⟨512 * j.val + r.val, by omega⟩ : Fin 8192) q) := by
    intro j
    show Spec.partialRow (F := Ideal) (Layout.block ⟨2, ![512, 256]⟩ ⟨2, ![8192, 256]⟩ 0 16 j X)
      (ix2 (⟨0, Nat.one_pos⟩ : Fin 1) q) = _
    exact (partialRow_apply _ _ q).trans (Finset.sum_congr rfl fun r _ => block_row X j r q)
  rw [Finset.sum_congr rfl fun j _ => hrow j]
  -- the sixteen runs of 512 rows are the 8192 rows
  rw [sum_runs (fun k => X (ix2 k q))]
  refine Finset.sum_congr rfl fun k _ => congrArg X ?_
  funext a
  match a with
  | ⟨0, _⟩ => rfl
  | ⟨1, _⟩ => rfl

/--
info: 'Cert.Value.result_eq_reference' depends on axioms: [propext, Classical.choice, Quot.sound]
-/
#guard_msgs in #print axioms result_eq_reference

end Cert.Value

end
-- ==== Proof.RefSide.lean ====
import proofs.«900607_g7700000000000608_dist_sum_ax0_shard0_i_m512_n256_v7x_i16_bf16_1_alg».proof.Defs
import proofs.«900607_g7700000000000608_dist_sum_ax0_shard0_i_m512_n256_v7x_i16_bf16_1_alg».proof.Proof.Gen.ReferenceIdeal
import proofs.«900607_g7700000000000608_dist_sum_ax0_shard0_i_m512_n256_v7x_i16_bf16_1_alg».proof.Proof.Gen.Pre_finite_inputs_ReferenceIdeal
import proofs.«900607_g7700000000000608_dist_sum_ax0_shard0_i_m512_n256_v7x_i16_bf16_1_alg».proof.Proof.Gen.ReferenceIdeal.Run
import proofs.«900607_g7700000000000608_dist_sum_ax0_shard0_i_m512_n256_v7x_i16_bf16_1_alg».proof.Proof.Gen.ReferenceIdeal.Read

/-!
The reference's side of the claims.

The reference is three host operations on one device: the zero constant, the sum of the 8192×256 array along its rows
from that constant, and the 256 sums laid out as a 1×256 row. Its generated run says every execution ends with the
result buffer at the composed term of the argument's launch contents and the argument unchanged. Here that run is read
twice: with the result dropped (the argument ends unchanged), and with the result's term named as the value function
the value certificate compares with the kernel's.
-/

noncomputable section

namespace Cert.RefSide

open Idealize.ShloMosaic Idealize.SL.Sem

/-- The reference runs and its argument array ends unchanged: the generated run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The reference runs, its result ends at the column sums of its argument's launch contents laid out as a row, and its
    argument ends unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev Cert.ReferenceIdeal.nD).tc : Thread Cert.ReferenceIdeal.nD Cert.ReferenceIdeal.τ).loc Cert.ReferenceIdeal.main_v1)
          = Cert.ReferenceIdeal.Read.val_main_v1 (F := Ideal)
              (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v1_eq (F := Ideal) _), (h 0).2⟩)
    (Cert.ReferenceIdeal.Value.run (F := Ideal) m' ρ')

/--
info: 'Cert.RefSide.frame_ri' depends on axioms: [propext, Classical.choice, Quot.sound]
-/
#guard_msgs in #print axioms frame_ri

/--
info: 'Cert.RefSide.ref_run' depends on axioms: [propext, Classical.choice, Quot.sound]
-/
#guard_msgs in #print axioms ref_run

end Cert.RefSide

end
-- ==== Proof.lean ====
import proofs.«900607_g7700000000000608_dist_sum_ax0_shard0_i_m512_n256_v7x_i16_bf16_1_alg».proof.Defs
import proofs.«900607_g7700000000000608_dist_sum_ax0_shard0_i_m512_n256_v7x_i16_bf16_1_alg».proof.Proof.KernelIdeal.Launch
import proofs.«900607_g7700000000000608_dist_sum_ax0_shard0_i_m512_n256_v7x_i16_bf16_1_alg».proof.Proof.Kernel.Launch
import proofs.«900607_g7700000000000608_dist_sum_ax0_shard0_i_m512_n256_v7x_i16_bf16_1_alg».proof.Proof.Value
import proofs.«900607_g7700000000000608_dist_sum_ax0_shard0_i_m512_n256_v7x_i16_bf16_1_alg».proof.Proof.RefSide
import proofs.«900607_g7700000000000608_dist_sum_ax0_shard0_i_m512_n256_v7x_i16_bf16_1_alg».proof.Proof.Gen.Kernel
import proofs.«900607_g7700000000000608_dist_sum_ax0_shard0_i_m512_n256_v7x_i16_bf16_1_alg».proof.Proof.Gen.KernelIdeal
import proofs.«900607_g7700000000000608_dist_sum_ax0_shard0_i_m512_n256_v7x_i16_bf16_1_alg».proof.Proof.Gen.ReferenceIdeal
import proofs.«900607_g7700000000000608_dist_sum_ax0_shard0_i_m512_n256_v7x_i16_bf16_1_alg».proof.Proof.Gen.Pre_finite_inputs_Kernel
import proofs.«900607_g7700000000000608_dist_sum_ax0_shard0_i_m512_n256_v7x_i16_bf16_1_alg».proof.Proof.Gen.Pre_finite_inputs_ReferenceIdeal
import Idealize.ShloMosaic.Adequacy
import Idealize.ShloMosaic.Init

/-!
Sixteen devices each hold 512 rows of `x`. Each reduces its rows to one row of partial sums, every device gathers the
sixteen rows, and reduces them again: every device ends with the column sums of all 8192 rows, which is what the reference
computes on one device. Over the extended reals the two are equal because a sum may be grouped and ordered at will; no
finiteness is needed.

The two kernels' frames are their runs with the values forgotten; the reference's frame is its run; the kernel was printed
for the ideal reading unchanged, so nothing is to be preserved; the results are joined by the value equation at the
blocks the devices hold.
-/

noncomputable section

namespace Cert.Proof

open Idealize.ShloMosaic Idealize.ShloMosaic.TcCoe Idealize.SL.Sem

/-- The staged block of a device is its argument array: the one block is the whole array. -/
theorem xstg_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.AG.xstg m ρ c = m ((c.tc : Thread Cert.KernelIdeal.nD Cert.KernelIdeal.τ).loc Cert.KernelIdeal.main_arg0) := by
  unfold Cert.KernelIdeal.AG.xstg Cert.KernelIdeal.AG.s₀
  first
    | rfl
    | exact Memref.read_access_unit_zero (Elt Ideal) Cert.KernelIdeal.main_arg0 (by funext a; fin_cases a <;> rfl) _ _

theorem frame_k : Cert.frame_Kernel := fun m ρ _ =>
  (θ_run (Cert.Kernel.defs (F := Bits)) _ _).mono (fun _ h c => (h c).2) (Cert.Kernel.AG.run_value (F := Bits) m ρ)

theorem frame_ki : Cert.frame_KernelIdeal := fun m ρ _ =>
  (θ_run (Cert.KernelIdeal.defs (F := Ideal)) _ _).mono (fun _ h c => (h c).2) (Cert.KernelIdeal.AG.run_value (F := Ideal) m ρ)

theorem preserves : Cert.preserves_Kernel_KernelIdeal := trivial

theorem algebraic : Cert.algebraic_KernelIdeal_ReferenceIdeal := by
  intro m ρ m' ρ' _ hagree
  refine ⟨_, ?_, Cert.RefSide.ref_run m' ρ'⟩
  refine (θ_run (Cert.KernelIdeal.defs (F := Ideal)) _ _).mono (fun _ h c => ⟨(h c).1.trans ?_, (h c).2⟩)
    (Cert.KernelIdeal.AG.run_value (F := Ideal) m ρ)
  have hx : (fun j => Cert.KernelIdeal.AG.xstg m ρ j) = fun j => Layout.block ⟨2, ![512, 256]⟩ ⟨2, ![8192, 256]⟩ 0 16 j
      (m' (((0 : Dev Cert.ReferenceIdeal.nD).tc : Thread Cert.ReferenceIdeal.nD Cert.ReferenceIdeal.τ).loc Cert.ReferenceIdeal.main_arg0)) :=
    funext fun j => (xstg_eq m ρ j).trans (hagree j)
  show Cert.KernelIdeal.Spec.result (fun j => Cert.KernelIdeal.AG.xstg m ρ j) = _
  rw [hx]
  exact Cert.Value.result_eq_reference _

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefSide.frame_ri, preserves, algebraic⟩

end Cert.Proof

end
